-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x512 : Shape := ⟨2, ![262144, 512]⟩
abbrev S262144 : Shape := ⟨1, ![262144]⟩
abbrev S128x512 : Shape := ⟨2, ![128, 512]⟩
abbrev S128 : Shape := ⟨1, ![128]⟩
abbrev S_ : Shape := ⟨0, ![]⟩

class Facts : Prop where
  bcast_S_S262144x512 : S_.BroadcastsInDim S262144x512 (![] : Fin 0 → Fin S262144x512.rank)
  reducesTo_S262144x512_S_d0_1 : S262144x512.ReducesTo [0, 1] S_
  h_S_ : 0 < S_.numel
  bcast_S_S262144 : S_.BroadcastsInDim S262144 (![] : Fin 0 → Fin S262144.rank)
  reducesTo_S262144_S_d0 : S262144.ReducesTo [0] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S262144x512 .f32) (main_arg1 : FVec F S262144 .f32) (main_arg2 : FVec F S128x512 .f32) (main_arg3 : FVec F S128 .f32) : IVec S_ 1 :=
  let main_v0 : FVec F S262144x512 .f32 := Host.absf main_arg0
  let main_cst : FVec F S_ .f32 := constant S_ .f32 0x7F800000#32
  let main_v1 : FVec F S262144x512 .f32 := broadcastInDim S262144x512 ![] bcast_S_S262144x512 main_cst
  let main_v2 : IVec S262144x512 1 := cmpf .olt main_v0 main_v1
  let main_c : IVec S_ 1 := constantI S_ 1 1#1
  let main_v3 : IVec S_ 1 := (fun x v => Host.reduce IntOp.andi x v reducesTo_S262144x512_S_d0_1 h_S_) main_v2 main_c
  let main_v4 : FVec F S262144 .f32 := Host.absf main_arg1
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S262144x512 : Shape := ⟨2, ![262144, 512]⟩
abbrev S262144 : Shape := ⟨1, ![262144]⟩
abbrev S128x512 : Shape := ⟨2, ![128, 512]⟩
abbrev S128 : Shape := ⟨1, ![128]⟩
abbrev S1x128 : Shape := ⟨2, ![1, 128]⟩
abbrev S262144x128 : Shape := ⟨2, ![262144, 128]⟩
abbrev S1x1 : Shape := ⟨2, ![1, 1]⟩
abbrev S4096x512 : Shape := ⟨2, ![4096, 512]⟩
abbrev S4096x128 : Shape := ⟨2, ![4096, 128]⟩
abbrev S1x4096x128 : Shape := ⟨3, ![1, 4096, 128]⟩
abbrev S1 : Shape := ⟨1, ![1]⟩
abbrev S1x1x1 : Shape := ⟨3, ![1, 1, 1]⟩
abbrev S_ : Shape := ⟨0, ![]⟩
abbrev S262144x1 : Shape := ⟨2, ![262144, 1]⟩
abbrev S1x262144 : Shape := ⟨2, ![1, 262144]⟩

abbrev nBuf : Space → Nat
  | .hbm => 87
  | .vmem => 7
  | .smem => 0
  | _ => 0

abbrev bufTy : (tb : Table) → Fin (tcTables nBuf tb) → BufTy
  | .hbm, ⟨0, _⟩ => ⟨S262144x512, .f32⟩
  | .hbm, ⟨1, _⟩ => ⟨S262144, .f32⟩
  | .hbm, ⟨2, _⟩ => ⟨S128x512, .f32⟩
  | .hbm, ⟨3, _⟩ => ⟨S128, .f32⟩
  | .hbm, ⟨4, _⟩ => ⟨S1x128, .f32⟩
  | .hbm, ⟨5, _⟩ => ⟨S262144x128, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S262144, .f32⟩
  | .hbm, ⟨11, _⟩ => ⟨S262144, .i1⟩
  | .hbm, ⟨12, _⟩ => ⟨S262144, .i32⟩
  | .hbm, ⟨13, _⟩ => ⟨S_, .i32⟩
  | .hbm, ⟨14, _⟩ => ⟨S_, .i32⟩
  | .hbm, ⟨15, _⟩ => ⟨S262144, .i32⟩
  | .hbm, ⟨16, _⟩ => ⟨S_, .i32⟩
  | .hbm, ⟨17, _⟩ => ⟨S262144, .i32⟩
  | .hbm, ⟨18, _⟩ => ⟨S_, .i32⟩
  | .hbm, ⟨19, _⟩ => ⟨S_, .i32⟩
  | .hbm, ⟨20, _⟩ => ⟨S262144, .i32⟩
  | .hbm, ⟨21, _⟩ => ⟨S262144, .i32⟩
  | .hbm, ⟨22, _⟩ => ⟨S_, .i32⟩
  | .hbm, ⟨23, _⟩ => ⟨S262144, .i32⟩
  | .hbm, ⟨24, _⟩ => ⟨S262144, .i1⟩
  | .hbm, ⟨25, _⟩ => ⟨S_, .i32⟩
  | .hbm, ⟨26, _⟩ => ⟨S262144, .i32⟩
  | .hbm, ⟨27, _⟩ => ⟨S262144, .i32⟩
  | .hbm, ⟨28, _⟩ => ⟨S262144, .i32⟩
  | .hbm, ⟨29, _⟩ => ⟨S262144x1, .i32⟩
  | .hbm, ⟨30, _⟩ => ⟨S_, .i32⟩
  | .hbm, ⟨31, _⟩ => ⟨S262144, .i32⟩
  | .hbm, ⟨32, _⟩ => ⟨S262144, .i32⟩
  | .hbm, ⟨33, _⟩ => ⟨S_, .i32⟩
  | .hbm, ⟨34, _⟩ => ⟨S_, .i32⟩
  | .hbm, ⟨35, _⟩ => ⟨S262144, .i32⟩
  | .hbm, ⟨36, _⟩ => ⟨S_, .i32⟩
  | .hbm, ⟨37, _⟩ => ⟨S262144, .i32⟩
  | .hbm, ⟨38, _⟩ => ⟨S262144, .i32⟩
  | .hbm, ⟨39, _⟩ => ⟨S262144, .i32⟩
  | .hbm, ⟨40, _⟩ => ⟨S_, .i32⟩
  | .hbm, ⟨41, _⟩ => ⟨S262144, .i32⟩
  | .hbm, ⟨42, _⟩ => ⟨S262144, .i1⟩
  | .hbm, ⟨43, _⟩ => ⟨S262144, .i32⟩
  | .hbm, ⟨44, _⟩ => ⟨S262144, .i32⟩
  | .hbm, ⟨45, _⟩ => ⟨S_, .i32⟩
  | .hbm, ⟨46, _⟩ => ⟨S262144, .i32⟩
  | .hbm, ⟨47, _⟩ => ⟨S262144, .i1⟩
  | .hbm, ⟨48, _⟩ => ⟨S262144, .i1⟩
  | .hbm, ⟨49, _⟩ => ⟨S_, .i32⟩
  | .hbm, ⟨50, _⟩ => ⟨S262144, .i32⟩
  | .hbm, ⟨51, _⟩ => ⟨S262144, .i32⟩
  | .hbm, ⟨52, _⟩ => ⟨S262144, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i1⟩
  | .hbm, ⟨57, _⟩ => ⟨S_, .i32⟩
  | .hbm, ⟨58, _⟩ => ⟨S_, .i32⟩
  | .hbm, ⟨59, _⟩ => ⟨S262144, .i32⟩
  | .hbm, ⟨60, _⟩ => ⟨S262144, .i32⟩
  | .hbm, ⟨61, _⟩ => ⟨S_, .i32⟩
  | .hbm, ⟨62, _⟩ => ⟨S262144, .i32⟩
  | .hbm, ⟨63, _⟩ => ⟨S262144, .i1⟩
  | .hbm, ⟨64, _⟩ => ⟨S_, .i32⟩
  | .hbm, ⟨65, _⟩ => ⟨S262144, .i32⟩
  | .hbm, ⟨66, _⟩ => ⟨S262144, .i1⟩
  | .hbm, ⟨67, _⟩ => ⟨S_, .i32⟩
  | .hbm, ⟨68, _⟩ => ⟨S_, .i1⟩
  | .hbm, ⟨69, _⟩ => ⟨S262144, .i1⟩
  | .hbm, ⟨70, _⟩ => ⟨S262144, .i1⟩
  | .hbm, ⟨71, _⟩ => ⟨S262144, .i1⟩
  | .hbm, ⟨72, _⟩ => ⟨S262144, .i32⟩
  | .hbm, ⟨73, _⟩ => ⟨S262144, .i32⟩
  | .hbm, ⟨74, _⟩ => ⟨S262144, .i32⟩
  | .hbm, ⟨75, _⟩ => ⟨S262144, .i32⟩
  | .hbm, ⟨76, _⟩ => ⟨S262144, .i32⟩
  | .hbm, ⟨77, _⟩ => ⟨S_, .i32⟩
  | .hbm, ⟨78, _⟩ => ⟨S_, .i32⟩
  | .hbm, ⟨79, _⟩ => ⟨S262144, .i32⟩
  | .hbm, ⟨80, _⟩ => ⟨S262144, .i1⟩
  | .hbm, ⟨81, _⟩ => ⟨S_, .i32⟩
  | .hbm, ⟨82, _⟩ => ⟨S_, .i32⟩
  | .hbm, ⟨83, _⟩ => ⟨S262144, .i32⟩
  | .hbm, ⟨84, _⟩ => ⟨S262144, .i32⟩
  | .hbm, ⟨85, _⟩ => ⟨S1x262144, .i32⟩
  | .hbm, ⟨86, _⟩ => ⟨S262144x1, .i32⟩
  | .local _ .vmem, ⟨0, _⟩ => ⟨S4096x512, .f32⟩
  | .local _ .vmem, ⟨1, _⟩ => ⟨S4096x512, .f32⟩
  | .local _ .vmem, ⟨2, _⟩ => ⟨S128x512, .f32⟩
  | .local _ .vmem, ⟨3, _⟩ => ⟨S1x128, .f32⟩
  | .local _ .vmem, ⟨4, _⟩ => ⟨S4096x128, .f32⟩
  | .local _ .vmem, ⟨5, _⟩ => ⟨S4096x128, .f32⟩
  | .local _ .vmem, ⟨6, _⟩ => ⟨S1x1, .f32⟩
  | _, _ => ⟨S262144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call1_v0 : Ref sig .tc := ⟨.hbm, 12, rfl⟩
abbrev main_call1_call0_c : Ref sig .tc := ⟨.hbm, 13, rfl⟩
abbrev main_call1_call0_v0 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_c_0 : Ref sig .tc := ⟨.hbm, 18, rfl⟩
abbrev main_call2_v0 : Ref sig .tc := ⟨.hbm, 19, rfl⟩
abbrev main_call2_v1 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_call3_call0_c : Ref sig .tc := ⟨.hbm, 33, rfl⟩
abbrev main_call3_call0_v0 : Ref sig .tc := ⟨.hbm, 34, rfl⟩
abbrev main_v18 : Ref sig .tc := ⟨.hbm, 35, rfl⟩
abbrev main_c_4 : Ref sig .tc := ⟨.hbm, 36, rfl⟩
abbrev main_call4_v0 : Ref sig .tc := ⟨.hbm, 37, rfl⟩
abbrev main_call4_v1 : Ref sig .tc := ⟨.hbm, 38, rfl⟩
abbrev main_call4_v2 : Ref sig .tc := ⟨.hbm, 39, rfl⟩
abbrev main_call4_v3 : Ref sig .tc := ⟨.hbm, 40, rfl⟩
abbrev main_call4_v4 : Ref sig .tc := ⟨.hbm, 41, rfl⟩
abbrev main_call4_v5 : Ref sig .tc := ⟨.hbm, 42, rfl⟩
abbrev main_call4_v6 : Ref sig .tc := ⟨.hbm, 43, rfl⟩
abbrev main_call4_v7 : Ref sig .tc := ⟨.hbm, 44, rfl⟩
abbrev main_call4_c : Ref sig .tc := ⟨.hbm, 45, rfl⟩
abbrev main_call4_v8 : Ref sig .tc := ⟨.hbm, 46, rfl⟩
abbrev main_call4_v9 : Ref sig .tc := ⟨.hbm, 47, rfl⟩
abbrev main_call4_v10 : Ref sig .tc := ⟨.hbm, 48, rfl⟩
abbrev main_call4_c_0 : Ref sig .tc := ⟨.hbm, 49, rfl⟩
abbrev main_call4_v11 : Ref sig .tc := ⟨.hbm, 50, rfl⟩
abbrev main_call4_v12 : Ref sig .tc := ⟨.hbm, 51, rfl⟩
abbrev main_v19 : Ref sig .tc := ⟨.hbm, 52, rfl⟩
abbrev main_c_5 : Ref sig .tc := ⟨.hbm, 53, rfl⟩
abbrev main_call5_v0 : Ref sig .tc := ⟨.hbm, 54, rfl⟩
abbrev main_call5_c : Ref sig .tc := ⟨.hbm, 55, rfl⟩
abbrev main_call5_v1 : Ref sig .tc := ⟨.hbm, 56, rfl⟩
abbrev main_call5_c_0 : Ref sig .tc := ⟨.hbm, 57, rfl⟩
abbrev main_call5_v2 : Ref sig .tc := ⟨.hbm, 58, rfl⟩
abbrev main_call5_v3 : Ref sig .tc := ⟨.hbm, 59, rfl⟩
abbrev main_call5_v4 : Ref sig .tc := ⟨.hbm, 60, rfl⟩
abbrev main_call5_c_1 : Ref sig .tc := ⟨.hbm, 61, rfl⟩
abbrev main_call5_v5 : Ref sig .tc := ⟨.hbm, 62, rfl⟩
abbrev main_call5_v6 : Ref sig .tc := ⟨.hbm, 63, rfl⟩
abbrev main_call5_c_2 : Ref sig .tc := ⟨.hbm, 64, rfl⟩
abbrev main_call5_v7 : Ref sig .tc := ⟨.hbm, 65, rfl⟩
abbrev main_call5_v8 : Ref sig .tc := ⟨.hbm, 66, rfl⟩
abbrev main_call5_c_3 : Ref sig .tc := ⟨.hbm, 67, rfl⟩
abbrev main_call5_v9 : Ref sig .tc := ⟨.hbm, 68, rfl⟩
abbrev main_call5_v10 : Ref sig .tc := ⟨.hbm, 69, rfl⟩
abbrev main_call5_v11 : Ref sig .tc := ⟨.hbm, 70, rfl⟩
abbrev main_call5_v12 : Ref sig .tc := ⟨.hbm, 71, rfl⟩
abbrev main_call5_v13 : Ref sig .tc := ⟨.hbm, 72, rfl⟩
abbrev main_call5_v14 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_c_6 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_c_7 : Ref sig .tc := ⟨.hbm, 81, rfl⟩
abbrev main_call6_v0 : Ref sig .tc := ⟨.hbm, 82, rfl⟩
abbrev main_call6_v1 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S128_S1x128 : S128.ShapeCasts S1x128
  inb_S1x1_S1x1_0_0 : ∀ a, (![0, 0] : Fin 2 → Nat) a + S1x1.size a ≤ S1x1.size a
  h_S1x1 : 0 < S1x1.numel
  inb_S4096x512_S4096x512_0_0 : ∀ a, (![0, 0] : Fin 2 → Nat) a + S4096x512.size a ≤ S4096x512.size a
  h_S4096x512 : 0 < S4096x512.numel
  inb_S128x512_S128x512_0_0 : ∀ a, (![0, 0] : Fin 2 → Nat) a + S128x512.size a ≤ S128x512.size a
  h_S128x512 : 0 < S128x512.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  shapeCasts_S1x1_S1x1 : S1x1.ShapeCasts S1x1
  shapeCasts_S4096x128_S1x4096x128 : S4096x128.ShapeCasts S1x4096x128
  reduces_S1x4096x128_S1 : S1x4096x128.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  bcast_S_S262144 : S_.BroadcastsInDim S262144 (![] : Fin 0 → Fin S262144.rank)
  natLt_1_32 : 1 < 32
  bcast_S_S_ : S_.BroadcastsInDim S_ (![] : Fin 0 → Fin S_.rank)
  reduceWindows_S262144_S262144_w262144s1p262143_0 : S262144.ReduceWindows (![262144] : Fin 1 → Nat) ![1] ![262143] ![0] S262144
  h_S_ : 0 < S_.numel
  bcast_S262144_S262144x1_0 : S262144.BroadcastsInDim S262144x1 (![0] : Fin 1 → Fin S262144x1.rank)
  reducesTo_S262144_S_d0 : S262144.ReducesTo [0] S_
  bcast_S262144_S1x262144_1 : S262144.BroadcastsInDim S1x262144 (![1] : Fin 1 → Fin S1x262144.rank)
  transposes_S1x262144_S262144x1_1_0 : S1x262144.Transposes [1, 0] S262144x1
  dot_S4096x512_S128x512_S4096x128_1_1_0_0_n_n_wf : DotDims.WF S4096x512 S128x512 S4096x128 [1] [1] [0] [0] [] []
  scatter_S262144_S262144x1_S262144_n_0_0_1_wf : ScatterDims.WF S262144 S262144x1 S262144 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S262144x512.size a
  hwx0_0 : ∀ i : grid0.Coords, EltTy.bits .f32 = 32 ∨ (Rect.block (s := S262144x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S262144x128.size a
  hwx0_3 : ∀ i : grid0.Coords, EltTy.bits .f32 = 32 ∨ (Rect.block (s := S262144x128) S4096x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S4096x512_S128x512_S4096x128_1_1_0_0_n_n : DotDims S4096x512 S128x512 S4096x128 where
  lhsContracting := [1]
  rhsContracting := [1]
  lhsNonContracting := [0]
  rhsNonContracting := [0]
  lhsBatch := []
  rhsBatch := []
  wf := dot_S4096x512_S128x512_S4096x128_1_1_0_0_n_n_wf
def scatter_S262144_S262144x1_S262144_n_0_0_1 : ScatterDims S262144 S262144x1 S262144 where
  updateWindowDims := []
  insertedWindowDims := [0]
  scatterDimsToOperandDims := [0]
  indexVectorDim := 1
  wf := scatter_S262144_S262144x1_S262144_n_0_0_1_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S4096x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144x512 : Shape := ⟨2, ![262144, 512]⟩
abbrev S262144 : Shape := ⟨1, ![262144]⟩
abbrev S128x512 : Shape := ⟨2, ![128, 512]⟩
abbrev S128 : Shape := ⟨1, ![128]⟩
abbrev S262144x128 : Shape := ⟨2, ![262144, 128]⟩
abbrev S1x128 : Shape := ⟨2, ![1, 128]⟩
abbrev S_ : Shape := ⟨0, ![]⟩
abbrev S262144x1 : Shape := ⟨2, ![262144, 1]⟩
abbrev S1x262144 : Shape := ⟨2, ![1, 262144]⟩

abbrev nBuf : Space → Nat
  | .hbm => 91
  | .vmem => 0
  | .smem => 0
  | _ => 0

abbrev bufTy : (tb : Table) → Fin (tcTables nBuf tb) → BufTy
  | .hbm, ⟨0, _⟩ => ⟨S262144x512, .f32⟩
  | .hbm, ⟨1, _⟩ => ⟨S262144, .f32⟩
  | .hbm, ⟨2, _⟩ => ⟨S128x512, .f32⟩
  | .hbm, ⟨3, _⟩ => ⟨S128, .f32⟩
  | .hbm, ⟨4, _⟩ => ⟨S262144x128, .f32⟩
  | .hbm, ⟨5, _⟩ => ⟨S1x128, .f32⟩
  | .hbm, ⟨6, _⟩ => ⟨S262144x128, .f32⟩
  | .hbm, ⟨7, _⟩ => ⟨S262144x128, .f32⟩
  | .hbm, ⟨8, _⟩ => ⟨S_, .f32⟩
  | .hbm, ⟨9, _⟩ => ⟨S262144, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S262144, .f32⟩
  | .hbm, ⟨15, _⟩ => ⟨S262144, .i1⟩
  | .hbm, ⟨16, _⟩ => ⟨S262144, .i32⟩
  | .hbm, ⟨17, _⟩ => ⟨S_, .i32⟩
  | .hbm, ⟨18, _⟩ => ⟨S_, .i32⟩
  | .hbm, ⟨19, _⟩ => ⟨S262144, .i32⟩
  | .hbm, ⟨20, _⟩ => ⟨S_, .i32⟩
  | .hbm, ⟨21, _⟩ => ⟨S262144, .i32⟩
  | .hbm, ⟨22, _⟩ => ⟨S_, .i32⟩
  | .hbm, ⟨23, _⟩ => ⟨S_, .i32⟩
  | .hbm, ⟨24, _⟩ => ⟨S262144, .i32⟩
  | .hbm, ⟨25, _⟩ => ⟨S262144, .i32⟩
  | .hbm, ⟨26, _⟩ => ⟨S_, .i32⟩
  | .hbm, ⟨27, _⟩ => ⟨S262144, .i32⟩
  | .hbm, ⟨28, _⟩ => ⟨S262144, .i1⟩
  | .hbm, ⟨29, _⟩ => ⟨S_, .i32⟩
  | .hbm, ⟨30, _⟩ => ⟨S262144, .i32⟩
  | .hbm, ⟨31, _⟩ => ⟨S262144, .i32⟩
  | .hbm, ⟨32, _⟩ => ⟨S262144, .i32⟩
  | .hbm, ⟨33, _⟩ => ⟨S262144x1, .i32⟩
  | .hbm, ⟨34, _⟩ => ⟨S_, .i32⟩
  | .hbm, ⟨35, _⟩ => ⟨S262144, .i32⟩
  | .hbm, ⟨36, _⟩ => ⟨S262144, .i32⟩
  | .hbm, ⟨37, _⟩ => ⟨S_, .i32⟩
  | .hbm, ⟨38, _⟩ => ⟨S_, .i32⟩
  | .hbm, ⟨39, _⟩ => ⟨S262144, .i32⟩
  | .hbm, ⟨40, _⟩ => ⟨S_, .i32⟩
  | .hbm, ⟨41, _⟩ => ⟨S262144, .i32⟩
  | .hbm, ⟨42, _⟩ => ⟨S262144, .i32⟩
  | .hbm, ⟨43, _⟩ => ⟨S262144, .i32⟩
  | .hbm, ⟨44, _⟩ => ⟨S_, .i32⟩
  | .hbm, ⟨45, _⟩ => ⟨S262144, .i32⟩
  | .hbm, ⟨46, _⟩ => ⟨S262144, .i1⟩
  | .hbm, ⟨47, _⟩ => ⟨S262144, .i32⟩
  | .hbm, ⟨48, _⟩ => ⟨S262144, .i32⟩
  | .hbm, ⟨49, _⟩ => ⟨S_, .i32⟩
  | .hbm, ⟨50, _⟩ => ⟨S262144, .i32⟩
  | .hbm, ⟨51, _⟩ => ⟨S262144, .i1⟩
  | .hbm, ⟨52, _⟩ => ⟨S262144, .i1⟩
  | .hbm, ⟨53, _⟩ => ⟨S_, .i32⟩
  | .hbm, ⟨54, _⟩ => ⟨S262144, .i32⟩
  | .hbm, ⟨55, _⟩ => ⟨S262144, .i32⟩
  | .hbm, ⟨56, _⟩ => ⟨S262144, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i1⟩
  | .hbm, ⟨61, _⟩ => ⟨S_, .i32⟩
  | .hbm, ⟨62, _⟩ => ⟨S_, .i32⟩
  | .hbm, ⟨63, _⟩ => ⟨S262144, .i32⟩
  | .hbm, ⟨64, _⟩ => ⟨S262144, .i32⟩
  | .hbm, ⟨65, _⟩ => ⟨S_, .i32⟩
  | .hbm, ⟨66, _⟩ => ⟨S262144, .i32⟩
  | .hbm, ⟨67, _⟩ => ⟨S262144, .i1⟩
  | .hbm, ⟨68, _⟩ => ⟨S_, .i32⟩
  | .hbm, ⟨69, _⟩ => ⟨S262144, .i32⟩
  | .hbm, ⟨70, _⟩ => ⟨S262144, .i1⟩
  | .hbm, ⟨71, _⟩ => ⟨S_, .i32⟩
  | .hbm, ⟨72, _⟩ => ⟨S_, .i1⟩
  | .hbm, ⟨73, _⟩ => ⟨S262144, .i1⟩
  | .hbm, ⟨74, _⟩ => ⟨S262144, .i1⟩
  | .hbm, ⟨75, _⟩ => ⟨S262144, .i1⟩
  | .hbm, ⟨76, _⟩ => ⟨S262144, .i32⟩
  | .hbm, ⟨77, _⟩ => ⟨S262144, .i32⟩
  | .hbm, ⟨78, _⟩ => ⟨S262144, .i32⟩
  | .hbm, ⟨79, _⟩ => ⟨S262144, .i32⟩
  | .hbm, ⟨80, _⟩ => ⟨S262144, .i32⟩
  | .hbm, ⟨81, _⟩ => ⟨S_, .i32⟩
  | .hbm, ⟨82, _⟩ => ⟨S_, .i32⟩
  | .hbm, ⟨83, _⟩ => ⟨S262144, .i32⟩
  | .hbm, ⟨84, _⟩ => ⟨S262144, .i1⟩
  | .hbm, ⟨85, _⟩ => ⟨S_, .i32⟩
  | .hbm, ⟨86, _⟩ => ⟨S_, .i32⟩
  | .hbm, ⟨87, _⟩ => ⟨S262144, .i32⟩
  | .hbm, ⟨88, _⟩ => ⟨S262144, .i32⟩
  | .hbm, ⟨89, _⟩ => ⟨S1x262144, .i32⟩
  | .hbm, ⟨90, _⟩ => ⟨S262144x1, .i32⟩
  | _, _ => ⟨S262144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call1_v0 : Ref sig .tc := ⟨.hbm, 16, rfl⟩
abbrev main_call1_call0_c : Ref sig .tc := ⟨.hbm, 17, rfl⟩
abbrev main_call1_call0_v0 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_c_2 : Ref sig .tc := ⟨.hbm, 22, rfl⟩
abbrev main_call2_v0 : Ref sig .tc := ⟨.hbm, 23, rfl⟩
abbrev main_call2_v1 : Ref sig .tc := ⟨.hbm, 24, rfl⟩
abbrev main_v12 : Ref sig .tc := ⟨.hbm, 25, rfl⟩
abbrev main_c_3 : Ref sig .tc := ⟨.hbm, 26, rfl⟩
abbrev main_v13 : Ref sig .tc := ⟨.hbm, 27, rfl⟩
abbrev main_v14 : Ref sig .tc := ⟨.hbm, 28, rfl⟩
abbrev main_c_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_5 : Ref sig .tc := ⟨.hbm, 34, rfl⟩
abbrev main_v19 : Ref sig .tc := ⟨.hbm, 35, rfl⟩
abbrev main_v20 : Ref sig .tc := ⟨.hbm, 36, rfl⟩
abbrev main_call3_call0_c : Ref sig .tc := ⟨.hbm, 37, rfl⟩
abbrev main_call3_call0_v0 : Ref sig .tc := ⟨.hbm, 38, rfl⟩
abbrev main_v21 : Ref sig .tc := ⟨.hbm, 39, rfl⟩
abbrev main_c_6 : Ref sig .tc := ⟨.hbm, 40, rfl⟩
abbrev main_call4_v0 : Ref sig .tc := ⟨.hbm, 41, rfl⟩
abbrev main_call4_v1 : Ref sig .tc := ⟨.hbm, 42, rfl⟩
abbrev main_call4_v2 : Ref sig .tc := ⟨.hbm, 43, rfl⟩
abbrev main_call4_v3 : Ref sig .tc := ⟨.hbm, 44, rfl⟩
abbrev main_call4_v4 : Ref sig .tc := ⟨.hbm, 45, rfl⟩
abbrev main_call4_v5 : Ref sig .tc := ⟨.hbm, 46, rfl⟩
abbrev main_call4_v6 : Ref sig .tc := ⟨.hbm, 47, rfl⟩
abbrev main_call4_v7 : Ref sig .tc := ⟨.hbm, 48, rfl⟩
abbrev main_call4_c : Ref sig .tc := ⟨.hbm, 49, rfl⟩
abbrev main_call4_v8 : Ref sig .tc := ⟨.hbm, 50, rfl⟩
abbrev main_call4_v9 : Ref sig .tc := ⟨.hbm, 51, rfl⟩
abbrev main_call4_v10 : Ref sig .tc := ⟨.hbm, 52, rfl⟩
abbrev main_call4_c_0 : Ref sig .tc := ⟨.hbm, 53, rfl⟩
abbrev main_call4_v11 : Ref sig .tc := ⟨.hbm, 54, rfl⟩
abbrev main_call4_v12 : Ref sig .tc := ⟨.hbm, 55, rfl⟩
abbrev main_v22 : Ref sig .tc := ⟨.hbm, 56, rfl⟩
abbrev main_c_7 : Ref sig .tc := ⟨.hbm, 57, rfl⟩
abbrev main_call5_v0 : Ref sig .tc := ⟨.hbm, 58, rfl⟩
abbrev main_call5_c : Ref sig .tc := ⟨.hbm, 59, rfl⟩
abbrev main_call5_v1 : Ref sig .tc := ⟨.hbm, 60, rfl⟩
abbrev main_call5_c_0 : Ref sig .tc := ⟨.hbm, 61, rfl⟩
abbrev main_call5_v2 : Ref sig .tc := ⟨.hbm, 62, rfl⟩
abbrev main_call5_v3 : Ref sig .tc := ⟨.hbm, 63, rfl⟩
abbrev main_call5_v4 : Ref sig .tc := ⟨.hbm, 64, rfl⟩
abbrev main_call5_c_1 : Ref sig .tc := ⟨.hbm, 65, rfl⟩
abbrev main_call5_v5 : Ref sig .tc := ⟨.hbm, 66, rfl⟩
abbrev main_call5_v6 : Ref sig .tc := ⟨.hbm, 67, rfl⟩
abbrev main_call5_c_2 : Ref sig .tc := ⟨.hbm, 68, rfl⟩
abbrev main_call5_v7 : Ref sig .tc := ⟨.hbm, 69, rfl⟩
abbrev main_call5_v8 : Ref sig .tc := ⟨.hbm, 70, rfl⟩
abbrev main_call5_c_3 : Ref sig .tc := ⟨.hbm, 71, rfl⟩
abbrev main_call5_v9 : Ref sig .tc := ⟨.hbm, 72, rfl⟩
abbrev main_call5_v10 : Ref sig .tc := ⟨.hbm, 73, rfl⟩
abbrev main_call5_v11 : Ref sig .tc := ⟨.hbm, 74, rfl⟩
abbrev main_call5_v12 : Ref sig .tc := ⟨.hbm, 75, rfl⟩
abbrev main_call5_v13 : Ref sig .tc := ⟨.hbm, 76, rfl⟩
abbrev main_call5_v14 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_c_8 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_c_9 : Ref sig .tc := ⟨.hbm, 85, rfl⟩
abbrev main_call6_v0 : Ref sig .tc := ⟨.hbm, 86, rfl⟩
abbrev main_call6_v1 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  reducesTo_S262144x128_S262144_d1 : S262144x128.ReducesTo [1] S262144
  h_S_ : 0 < S_.numel
  reducesTo_S262144_S_d0 : S262144.ReducesTo [0] S_
  bcast_S_S262144 : S_.BroadcastsInDim S262144 (![] : Fin 0 → Fin S262144.rank)
  natLt_1_32 : 1 < 32
  bcast_S_S_ : S_.BroadcastsInDim S_ (![] : Fin 0 → Fin S_.rank)
  reduceWindows_S262144_S262144_w262144s1p262143_0 : S262144.ReduceWindows (![262144] : Fin 1 → Nat) ![1] ![262143] ![0] S262144
  bcast_S262144_S262144x1_0 : S262144.BroadcastsInDim S262144x1 (![0] : Fin 1 → Fin S262144x1.rank)
  bcast_S262144_S1x262144_1 : S262144.BroadcastsInDim S1x262144 (![1] : Fin 1 → Fin S1x262144.rank)
  transposes_S1x262144_S262144x1_1_0 : S1x262144.Transposes [1, 0] S262144x1
  dot_S262144x512_S128x512_S262144x128_1_1_0_0_n_n_wf : DotDims.WF S262144x512 S128x512 S262144x128 [1] [1] [0] [0] [] []
  scatter_S262144_S262144x1_S262144_n_0_0_1_wf : ScatterDims.WF S262144 S262144x1 S262144 [] [0] [0] 1

variable [Facts₀]

def dot_S262144x512_S128x512_S262144x128_1_1_0_0_n_n : DotDims S262144x512 S128x512 S262144x128 where
  lhsContracting := [1]
  rhsContracting := [1]
  lhsNonContracting := [0]
  rhsNonContracting := [0]
  lhsBatch := []
  rhsBatch := []
  wf := dot_S262144x512_S128x512_S262144x128_1_1_0_0_n_n_wf
def scatter_S262144_S262144x1_S262144_n_0_0_1 : ScatterDims S262144 S262144x1 S262144 where
  updateWindowDims := []
  insertedWindowDims := [0]
  scatterDimsToOperandDims := [0]
  indexVectorDim := 1
  wf := scatter_S262144_S262144x1_S262144_n_0_0_1_wf

class Facts : Prop extends Facts₀ where

variable [Facts]
-- ==== Proof.FrameB.Runs.lean ====
/-
  The program around its one kernel region, and what the region's runs share.

  @main is: one reshape of the bias to a 1×128 row; the region (64 grid points, each a block of 4096 rows of x
  against the whole of W and the bias row, writing that block of the result and adding the block's entries into a
  1×1 accumulator that stays in place from point to point); then eighty host operations that turn the accumulator
  into the threshold and compact the mask's indices against it. The later operations write eighty buffers of their
  own and none of the region's five arrays, nor any argument: that is what lets the region's exit contents be read
  through them. The body has one branch, on "this is the first point", where the accumulator is reset.
-/
import proofs.«152341_j18279380812077_1_alg».proof.Proof.Gen.Kernel.Launch
import proofs.«152341_j18279380812077_1_alg».proof.Proof.Gen.Kernel.Skeleton
import proofs.«152341_j18279380812077_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host stretches after the region, in program order. -/
abbrev tailOpss : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13]

/-- Core `c`'s buffer contents when the region is entered: after the bias has been reshaped. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- Every buffer a later host operation writes: the eighty results after the region. -/
abbrev tailW : List (Ref sig .tc) :=
  [main_v2, main_cst, main_v3, main_v4, main_v5, main_call1_v0, main_call1_call0_c, main_call1_call0_v0, main_v7, main_c, main_v8, main_c_0, main_call2_v0, main_call2_v1, main_v9, main_c_1, main_v10, main_v11, main_c_2, main_v12, main_v13, main_v14, main_v15, main_c_3, main_v16, main_v17, main_call3_call0_c, main_call3_call0_v0, main_v18, main_c_4, main_call4_v0, main_call4_v1, main_call4_v2, main_call4_v3, main_call4_v4, main_call4_v5, main_call4_v6, main_call4_v7, main_call4_c, main_call4_v8, main_call4_v9, main_call4_v10, main_call4_c_0, main_call4_v11, main_call4_v12, main_v19, main_c_5, main_call5_v0, main_call5_c, main_call5_v1, main_call5_c_0, main_call5_v2, main_call5_v3, main_call5_v4, main_call5_c_1, main_call5_v5, main_call5_v6, main_call5_c_2, main_call5_v7, main_call5_v8, main_call5_c_3, main_call5_v9, main_call5_v10, main_call5_v11, main_call5_v12, main_call5_v13, main_call5_v14, main_v20, main_v21, main_v22, main_c_6, main_v23, main_v24, main_v25, main_c_7, main_call6_v0, main_call6_v1, main_v26, main_v27, main_v28]

/-- No later operation allocates. -/
theorem tail_fresh : (List.flatten (tailOpss (F := F))).Forall fun op => op.fresh = ∅ := by
  simp only [tailOpss, hostOps1, hostOps1_1, hostOps1_2, hostOps1_3, hostOps1_4, hostOps1_5, hostOps1_6, hostOps1_7, hostOps1_8, hostOps1_9, hostOps1_10, hostOps1_11, hostOps1_12, hostOps1_13, List.flatten_cons, List.flatten_nil, List.append_nil, List.cons_append, List.nil_append, List.Forall]
  repeat' constructor

/-- Each later operation writes one of those eighty buffers. -/
theorem tail_writes : (List.flatten (tailOpss (F := F))).Forall fun op => op.writes ⊆ (tailW.map (Proc.devRef (τ := τ) .tc)).toFinset := by
  simp only [tailOpss, hostOps1, hostOps1_1, hostOps1_2, hostOps1_3, hostOps1_4, hostOps1_5, hostOps1_6, hostOps1_7, hostOps1_8, hostOps1_9, hostOps1_10, hostOps1_11, hostOps1_12, hostOps1_13, List.flatten_cons, List.flatten_nil, List.append_nil, List.cons_append, List.nil_append, List.Forall]
  and_intros <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- @main reduces to the region continued by the later stretches, the buffers at their contents after the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss (F := F)).map StableHlo.seq)) :=
  Pipeline.hmain_around cfgs 0 defs₀ 𝒱₀ m main [hostOps0] tailOpss (by simp only [List.Forall]; exact hostOps0_sub)
    (by simp only [List.Forall]; exact hostOps0_fresh) main_chain

/-- The later stretches touch only the region's arrays and the buffers that bypass it. -/
theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOpss, List.mem_cons, List.mem_nil_iff, or_false] at hops
  rcases hops with rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)

theorem sfx_fresh : ∀ ops ∈ (tailOpss : List (List (HloOp τ sig (Elt F)))), ∀ op ∈ ops, op.fresh = ∅ :=
  fun ops hops op hop => (List.forall_iff_forall_mem.mp tail_fresh) op (List.mem_flatten.mpr ⟨ops, hops, hop⟩)

/-- None of them writes an array of the region: the five arrays are not among the eighty. -/
theorem sfx_keeps : ∀ ops ∈ (tailOpss : List (List (HloOp τ sig (Elt F)))), ∀ op ∈ ops,
    ∀ w, Proc.devRef .tc (Pipeline.arrRef spec0 w) ∉ op.writes := by
  intro ops hops op hop w hw
  obtain ⟨y, hy, he⟩ := List.mem_map.mp (List.mem_toFinset.mp
    ((List.forall_iff_forall_mem.mp tail_writes) op (List.mem_flatten.mpr ⟨ops, hops, hop⟩) hw))
  exact (by decide : ∀ w : Fin 5, Pipeline.arrRef spec0 w ∉ tailW) w (Proc.devRef_injective _ he ▸ hy)

/-- The reshape before the region writes only the bias row: an argument is found as launched. -/
theorem V_of_ne (c : Dev nD) (r : Ref sig .tc) (h : r ∉ ([main_v0] : List (Ref sig .tc))) : V m c r = m ((c : Thread nD τ).loc r) :=
  StableHlo.after_of_writes_sub (List.flatten [hostOps0]) _ (by
    simp only [hostOps0, List.flatten_cons, List.flatten_nil, List.append_nil, List.Forall]
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)) h

theorem V_main_arg0 (c : Dev nD) : V m c main_arg0 = m ((c : Thread nD τ).loc main_arg0) := V_of_ne m c _ (by decide)
theorem V_main_arg1 (c : Dev nD) : V m c main_arg1 = m ((c : Thread nD τ).loc main_arg1) := V_of_ne m c _ (by decide)
theorem V_main_arg2 (c : Dev nD) : V m c main_arg2 = m ((c : Thread nD τ).loc main_arg2) := V_of_ne m c _ (by decide)
theorem V_main_arg3 (c : Dev nD) : V m c main_arg3 = m ((c : Thread nD τ).loc main_arg3) := V_of_ne m c _ (by decide)

/-- A buffer that is neither written after the region nor one of its arrays ends at its region-entry contents. -/
theorem W_of_ne (dats : (p : Fin _) → (c : Dev nD) → Dat τ (Elt F) Unit ℕ (UR sig nD τ) ℕ (cfgs p) c) (c : Dev nD) (r : Ref sig .tc)
    (h : r ∉ tailW) (ha : ∀ w, Pipeline.arrRef spec0 w ≠ r) :
    Pipeline.afterTail₀ cfgs dats 0 (V0 m) tailOpss c r = V m c r := by
  unfold Pipeline.afterTail₀
  rw [StableHlo.after_of_writes_sub _ _ tail_writes h, Pipeline.withArrays_of_ne _ c (V0 m c) _ r ha]

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- "This is the first grid point", as the body computes it from the coordinate. -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val % 64 = 0 :=
  (by decide +kernel : ∀ t : Fin grid0.N, cond0_0 (grid0.coords t) ↔ t.val % 64 = 0)

/-! ## The staging memrefs the body is called with -/

/-- One staging buffer of each output window, through which its contents are stated. -/
abbrev VO0_3 : View sig .tc .vmem S4096x128 .f32 := (Memref.whole cc0_stg3_0 : Memref sig .tc .vmem S4096x128 .f32).view
abbrev VO0_4 : View sig .tc .vmem S1x1 .f32 := (Memref.whole cc0_stg4_0 : Memref sig .tc .vmem S1x1 .f32).view
abbrev ms0_0 (t : Fin cfg0.N) : Memref sig .tc .vmem S4096x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)

end Cert.Kernel.Hand

end
-- ==== Proof.FrameB.RunA.lean ====
/-
  The kernel body run whole at the FIRST grid point (the branch taken: the accumulator is reset to zero before it is
  read). On whole staging buffers — the three inputs at their contents, the two outputs at anything — the body runs to
  its end holding the inputs as they were and each output's buffer with the stores it made; which stores those are is
  found by running the body, and is this definition's witness.
-/
import proofs.«152341_j18279380812077_1_alg».proof.Proof.FrameB.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the result block's buffer and in the accumulator's, at the first point, with the
    proof that the body runs from the inputs' contents to them. -/
noncomputable def kernelRun0_A (c : Dev nD) (i : grid0.Coords) (arg1 : Memref sig .tc .vmem S4096x512 .f32) (harg1 : arg1.IsWhole) (arg2 : Memref sig .tc .vmem S128x512 .f32) (harg2 : arg2.IsWhole) (arg3 : Memref sig .tc .vmem S1x128 .f32) (harg3 : arg3.IsWhole) (arg4 : Memref sig .tc .vmem S4096x128 .f32) (harg4 : arg4.IsWhole) (arg5 : Memref sig .tc .vmem S1x1 .f32) (harg5 : arg5.IsWhole) (hc0 : cond0_0 i)
    (x0 : Vec F S4096x512 .f32) (x1 : Vec F S128x512 .f32) (x2 : Vec F S1x128 .f32) :
    Σ' (L3 : List (View.Piece (Elt F) S4096x128 .f32)), { L4 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)) -∗ K ⟨⟩))
          ⊢ wp frame (wpE (defs₀ (F := F)) Variants.none c none) E (cc0__linear_threshold_kernel i arg1 harg1 arg2 harg2 arg3 harg3 arg4 harg4 arg5 harg5) K } := by
  refine ⟨?_, ?_, fun E K => ?run⟩
  case run =>
    simp only [cc0__linear_threshold_kernel_eq_skeleton]; unfold cc0__linear_threshold_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    iexists _; iexact H4

end Cert.Kernel.Hand

end
-- ==== Proof.FrameB.RunB.lean ====
/-
  The kernel body run whole at a LATER grid point (the branch not taken: the accumulator is read as the point before
  left it, then overwritten with that plus this block's sum). The accumulator's buffer is therefore handed in at
  known contents; the result block's buffer at anything.
-/
import proofs.«152341_j18279380812077_1_alg».proof.Proof.FrameB.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the two outputs' buffers at a later point, with the proof that the body runs from the
    inputs' contents and the accumulator's running contents to them. -/
noncomputable def kernelRun0_B (c : Dev nD) (i : grid0.Coords) (arg1 : Memref sig .tc .vmem S4096x512 .f32) (harg1 : arg1.IsWhole) (arg2 : Memref sig .tc .vmem S128x512 .f32) (harg2 : arg2.IsWhole) (arg3 : Memref sig .tc .vmem S1x128 .f32) (harg3 : arg3.IsWhole) (arg4 : Memref sig .tc .vmem S4096x128 .f32) (harg4 : arg4.IsWhole) (arg5 : Memref sig .tc .vmem S1x1 .f32) (harg5 : arg5.IsWhole) (hc0 : ¬cond0_0 i)
    (x0 : Vec F S4096x512 .f32) (x1 : Vec F S128x512 .f32) (x2 : Vec F S1x128 .f32) (xo4 : Vec F S1x1 .f32) :
    Σ' (L3 : List (View.Piece (Elt F) S4096x128 .f32)), { L4 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)) -∗ K ⟨⟩))
          ⊢ wp frame (wpE (defs₀ (F := F)) Variants.none c none) E (cc0__linear_threshold_kernel i arg1 harg1 arg2 harg2 arg3 harg3 arg4 harg4 arg5 harg5) K } := by
  refine ⟨?_, ?_, fun E K => ?run⟩
  case run =>
    simp only [cc0__linear_threshold_kernel_eq_skeleton]; unfold cc0__linear_threshold_kernel_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg1.eq_unread hf0; obtain rfl := harg2.eq_unread hf1; obtain rfl := harg3.eq_unread hf2; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    iexists _; iexact H4

end Cert.Kernel.Hand

end
-- ==== Proof.FrameB.Frame.lean ====
/-
  The frame of the program: what the two outputs' staging buffers hold after the body, case by case and point by
  point; the proof data of the pipeline; the body's obligation at every point; the run of @main around the region; and
  that the four arguments end as they began.

  The result block's buffer is overwritten whole at every point. The accumulator's buffer is reset and then updated at
  the first point, and at every later point read (as the point before left it: it is written back only after the last
  point, and its block index never moves) and overwritten with the sum. So what the outputs hold after point n is
  defined by recursion on n.
-/
import proofs.«152341_j18279380812077_1_alg».proof.Proof.FrameB.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the outputs' buffers -/

/-- At the first point the stores into the result block's buffer tile it. -/
theorem cover0_A_3 (c : Dev nD) (i : grid0.Coords) (arg1 : Memref sig .tc .vmem S4096x512 .f32) (harg1 : arg1.IsWhole) (arg2 : Memref sig .tc .vmem S128x512 .f32) (harg2 : arg2.IsWhole) (arg3 : Memref sig .tc .vmem S1x128 .f32) (harg3 : arg3.IsWhole) (arg4 : Memref sig .tc .vmem S4096x128 .f32) (harg4 : arg4.IsWhole) (arg5 : Memref sig .tc .vmem S1x1 .f32) (harg5 : arg5.IsWhole) (hc0 : cond0_0 i)
    (x0 : Vec F S4096x512 .f32) (x1 : Vec F S128x512 .f32) (x2 : Vec F S1x128 .f32) (y : S4096x128.Idx) :
    ∃ pc ∈ (kernelRun0_A c i arg1 harg1 arg2 harg2 arg3 harg3 arg4 harg4 arg5 harg5 hc0 x0 x1 x2).1, y ∈ pc.1.set :=
  View.cover_of_tiledL (kernelRun0_A c i arg1 harg1 arg2 harg2 arg3 harg3 arg4 harg4 arg5 harg5 hc0 x0 x1 x2).1 S4096x128.size (by sl_kernel_rfl) y
/-- What the first point leaves in the result block's buffer. -/
def out0_A_3 (c : Dev nD) (i : grid0.Coords) (arg1 : Memref sig .tc .vmem S4096x512 .f32) (harg1 : arg1.IsWhole) (arg2 : Memref sig .tc .vmem S128x512 .f32) (harg2 : arg2.IsWhole) (arg3 : Memref sig .tc .vmem S1x128 .f32) (harg3 : arg3.IsWhole) (arg4 : Memref sig .tc .vmem S4096x128 .f32) (harg4 : arg4.IsWhole) (arg5 : Memref sig .tc .vmem S1x1 .f32) (harg5 : arg5.IsWhole) (hc0 : cond0_0 i)
    (x0 : Vec F S4096x512 .f32) (x1 : Vec F S128x512 .f32) (x2 : Vec F S1x128 .f32) : Vec F S4096x128 .f32 :=
  VO0_3.read (Elt F) (VO0_3.writes (Elt F) VO0_3.junk (kernelRun0_A c i arg1 harg1 arg2 harg2 arg3 harg3 arg4 harg4 arg5 harg5 hc0 x0 x1 x2).1)
/-- At the first point the stores into the accumulator's buffer (the reset, then the update) cover it. -/
theorem cover0_A_4 (c : Dev nD) (i : grid0.Coords) (arg1 : Memref sig .tc .vmem S4096x512 .f32) (harg1 : arg1.IsWhole) (arg2 : Memref sig .tc .vmem S128x512 .f32) (harg2 : arg2.IsWhole) (arg3 : Memref sig .tc .vmem S1x128 .f32) (harg3 : arg3.IsWhole) (arg4 : Memref sig .tc .vmem S4096x128 .f32) (harg4 : arg4.IsWhole) (arg5 : Memref sig .tc .vmem S1x1 .f32) (harg5 : arg5.IsWhole) (hc0 : cond0_0 i)
    (x0 : Vec F S4096x512 .f32) (x1 : Vec F S128x512 .f32) (x2 : Vec F S1x128 .f32) (y : S1x1.Idx) :
    ∃ pc ∈ (kernelRun0_A c i arg1 harg1 arg2 harg2 arg3 harg3 arg4 harg4 arg5 harg5 hc0 x0 x1 x2).2.1, y ∈ pc.1.set :=
  View.cover_of_tiledL (kernelRun0_A c i arg1 harg1 arg2 harg2 arg3 harg3 arg4 harg4 arg5 harg5 hc0 x0 x1 x2).2.1 S1x1.size (by sl_kernel_rfl) y
/-- What the first point leaves in the accumulator's buffer. -/
def out0_A_4 (c : Dev nD) (i : grid0.Coords) (arg1 : Memref sig .tc .vmem S4096x512 .f32) (harg1 : arg1.IsWhole) (arg2 : Memref sig .tc .vmem S128x512 .f32) (harg2 : arg2.IsWhole) (arg3 : Memref sig .tc .vmem S1x128 .f32) (harg3 : arg3.IsWhole) (arg4 : Memref sig .tc .vmem S4096x128 .f32) (harg4 : arg4.IsWhole) (arg5 : Memref sig .tc .vmem S1x1 .f32) (harg5 : arg5.IsWhole) (hc0 : cond0_0 i)
    (x0 : Vec F S4096x512 .f32) (x1 : Vec F S128x512 .f32) (x2 : Vec F S1x128 .f32) : Vec F S1x1 .f32 :=
  VO0_4.read (Elt F) (VO0_4.writes (Elt F) VO0_4.junk (kernelRun0_A c i arg1 harg1 arg2 harg2 arg3 harg3 arg4 harg4 arg5 harg5 hc0 x0 x1 x2).2.1)

/-- At a later point the store into the result block's buffer covers it. -/
theorem cover0_B_3 (c : Dev nD) (i : grid0.Coords) (arg1 : Memref sig .tc .vmem S4096x512 .f32) (harg1 : arg1.IsWhole) (arg2 : Memref sig .tc .vmem S128x512 .f32) (harg2 : arg2.IsWhole) (arg3 : Memref sig .tc .vmem S1x128 .f32) (harg3 : arg3.IsWhole) (arg4 : Memref sig .tc .vmem S4096x128 .f32) (harg4 : arg4.IsWhole) (arg5 : Memref sig .tc .vmem S1x1 .f32) (harg5 : arg5.IsWhole) (hc0 : ¬cond0_0 i)
    (x0 : Vec F S4096x512 .f32) (x1 : Vec F S128x512 .f32) (x2 : Vec F S1x128 .f32) (xo4 : Vec F S1x1 .f32) (y : S4096x128.Idx) :
    ∃ pc ∈ (kernelRun0_B c i arg1 harg1 arg2 harg2 arg3 harg3 arg4 harg4 arg5 harg5 hc0 x0 x1 x2 xo4).1, y ∈ pc.1.set :=
  View.cover_of_tiledL (kernelRun0_B c i arg1 harg1 arg2 harg2 arg3 harg3 arg4 harg4 arg5 harg5 hc0 x0 x1 x2 xo4).1 S4096x128.size (by sl_kernel_rfl) y
/-- What a later point leaves in the result block's buffer. -/
def out0_B_3 (c : Dev nD) (i : grid0.Coords) (arg1 : Memref sig .tc .vmem S4096x512 .f32) (harg1 : arg1.IsWhole) (arg2 : Memref sig .tc .vmem S128x512 .f32) (harg2 : arg2.IsWhole) (arg3 : Memref sig .tc .vmem S1x128 .f32) (harg3 : arg3.IsWhole) (arg4 : Memref sig .tc .vmem S4096x128 .f32) (harg4 : arg4.IsWhole) (arg5 : Memref sig .tc .vmem S1x1 .f32) (harg5 : arg5.IsWhole) (hc0 : ¬cond0_0 i)
    (x0 : Vec F S4096x512 .f32) (x1 : Vec F S128x512 .f32) (x2 : Vec F S1x128 .f32) (xo4 : Vec F S1x1 .f32) : Vec F S4096x128 .f32 :=
  VO0_3.read (Elt F) (VO0_3.writes (Elt F) VO0_3.junk (kernelRun0_B c i arg1 harg1 arg2 harg2 arg3 harg3 arg4 harg4 arg5 harg5 hc0 x0 x1 x2 xo4).1)
/-- At a later point the store into the accumulator's buffer covers it. -/
theorem cover0_B_4 (c : Dev nD) (i : grid0.Coords) (arg1 : Memref sig .tc .vmem S4096x512 .f32) (harg1 : arg1.IsWhole) (arg2 : Memref sig .tc .vmem S128x512 .f32) (harg2 : arg2.IsWhole) (arg3 : Memref sig .tc .vmem S1x128 .f32) (harg3 : arg3.IsWhole) (arg4 : Memref sig .tc .vmem S4096x128 .f32) (harg4 : arg4.IsWhole) (arg5 : Memref sig .tc .vmem S1x1 .f32) (harg5 : arg5.IsWhole) (hc0 : ¬cond0_0 i)
    (x0 : Vec F S4096x512 .f32) (x1 : Vec F S128x512 .f32) (x2 : Vec F S1x128 .f32) (xo4 : Vec F S1x1 .f32) (y : S1x1.Idx) :
    ∃ pc ∈ (kernelRun0_B c i arg1 harg1 arg2 harg2 arg3 harg3 arg4 harg4 arg5 harg5 hc0 x0 x1 x2 xo4).2.1, y ∈ pc.1.set :=
  View.cover_of_tiledL (kernelRun0_B c i arg1 harg1 arg2 harg2 arg3 harg3 arg4 harg4 arg5 harg5 hc0 x0 x1 x2 xo4).2.1 S1x1.size (by sl_kernel_rfl) y
/-- What a later point leaves in the accumulator's buffer, over what the point before left there. -/
def out0_B_4 (c : Dev nD) (i : grid0.Coords) (arg1 : Memref sig .tc .vmem S4096x512 .f32) (harg1 : arg1.IsWhole) (arg2 : Memref sig .tc .vmem S128x512 .f32) (harg2 : arg2.IsWhole) (arg3 : Memref sig .tc .vmem S1x128 .f32) (harg3 : arg3.IsWhole) (arg4 : Memref sig .tc .vmem S4096x128 .f32) (harg4 : arg4.IsWhole) (arg5 : Memref sig .tc .vmem S1x1 .f32) (harg5 : arg5.IsWhole) (hc0 : ¬cond0_0 i)
    (x0 : Vec F S4096x512 .f32) (x1 : Vec F S128x512 .f32) (x2 : Vec F S1x128 .f32) (xo4 : Vec F S1x1 .f32) : Vec F S1x1 .f32 :=
  VO0_4.read (Elt F) (VO0_4.writes (Elt F) VO0_4.junk (kernelRun0_B c i arg1 harg1 arg2 harg2 arg3 harg3 arg4 harg4 arg5 harg5 hc0 x0 x1 x2 xo4).2.1)

/-! ## What the outputs hold after each point -/

/-- The result block's buffer and the accumulator's after the body at position `n`: the first point's case at 0, a
    later point's case over the accumulator of position `n - 1` otherwise. -/
def outsAt0 (c : Dev nD) : (n : ℕ) → n < cfg0.N → Vec F S4096x128 .f32 × Vec F S1x1 .f32
  | 0, hn =>
    (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩),
     out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩))
  | n + 1, hn =>
    if h0 : (n + 1) % 64 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩),
       out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2,
       out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2)

/-- At the first point: that case's contents. -/
theorem outsAt0_A (c : Dev nD) (t : Fin cfg0.N) (h0 : t.val % 64 = 0) :
    outsAt0 m c t.val t.isLt =
      (out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t),
       out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t)) := by
  obtain ⟨n, hn⟩ := t
  cases n with
  | zero => exact rfl
  | succ n => exact (dif_pos h0).trans rfl

/-- At a later point: that case's contents over the accumulator the point before left. -/
theorem outsAt0_B (c : Dev nD) (t : Fin cfg0.N) (h0 : ¬t.val % 64 = 0) :
    outsAt0 m c t.val t.isLt =
      (out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (outsAt0 m c (t.val - 1) (Nat.lt_of_le_of_lt (Nat.sub_le _ _) t.isLt)).2,
       out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block, the result
    block's and the accumulator's at `outsAt0`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- At a later point the accumulator's buffer holds what the body left at the point before: the point is not the first,
    and the buffer is written back only after the last point. -/
theorem before0_4_B (c : Dev nD) (t : Fin cfg0.N) (h0 : ¬t.val % 64 = 0) (d) :
    (dats m 0 c).before 4 t d = (outsAt0 m c (t.val - 1) (Nat.lt_of_le_of_lt (Nat.sub_le _ _) t.isLt)).2 := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: the inputs' buffers hold their blocks; the point is the first or a later one; at a later one
    the accumulator's buffer holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 64 := lt_of_lt_of_eq t.isLt (show cfg0.N = 64 from N_0)
  by_cases h0 : t.val % 64 = 0
  · rw [outsAt0_A m c t h0]
    dsimp only
    unfold out0_A_3 out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t) (iblk m c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _)
    unfold owns; iexists _; isplitr
    swap; · iexact H4
    ipureintro; exact View.read_writes_of_cover _ _ _ _ _ (cover0_A_4 c _ _ _ _ _ _ _ _ _ _ _ _ _ _ _)
  · rw [outsAt0_B m c t h0]
    dsimp only
    simp only [before0_4_B m c t h0]
    unfold out0_B_3 out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) (iblk m c 2 t) _).2.2 Set.univ _)
    isplitl [H0]; · iexact H0
    isplitl [H1]; · iexact H1
    isplitl [H2]; · iexact H2
    isplitl [H3]; · iexists _; iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the region at what the
    proof data compute and every other buffer as the later host operations leave it. -/
theorem run_main : θ_run defs (onTc (τ := τ) (main (F := F))) (s₀ m ρ) (Pipeline.FramePost cfgs (dats m) 0 (Pipeline.afterTail₀ cfgs (dats m) 0 (V0 m) tailOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hΦ := fun _ _ => rfl)

/-- The four arguments end as they began: x and W are inputs of the region (their arrays are never written), the mask
    and the bias bypass it, and no host operation writes any of them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
    ((h c).1 0).trans (((dats m 0 c).arrAt_in 0 rfl _).trans ((A_eq m c 0).trans (V_main_arg0 m c))),
    ((h c).2 main_arg1 (Pipeline.mem_restRefs_of main_arg1 (by decide) (by decide))).trans
      ((W_of_ne m (dats m) c main_arg1 (by decide) (by decide)).trans (V_main_arg1 m c)),
    ((h c).1 1).trans (((dats m 0 c).arrAt_in 1 rfl _).trans ((A_eq m c 1).trans (V_main_arg2 m c))),
    ((h c).2 main_arg3 (Pipeline.mem_restRefs_of main_arg3 (by decide) (by decide))).trans
      ((W_of_ne m (dats m) c main_arg3 (by decide) (by decide)).trans (V_main_arg3 m c))⟩) (run_main m ρ)

end Cert.Kernel.Hand

end
-- ==== Proof.FrameI.Runs.lean ====
/-
  The program around its one kernel region, and what the region's runs share.

  @main is: one reshape of the bias to a 1×128 row; the region (64 grid points, each a block of 4096 rows of x
  against the whole of W and the bias row, writing that block of the result and adding the block's entries into a
  1×1 accumulator that stays in place from point to point); then eighty host operations that turn the accumulator
  into the threshold and compact the mask's indices against it. The later operations write eighty buffers of their
  own and none of the region's five arrays, nor any argument: that is what lets the region's exit contents be read
  through them. The body has one branch, on "this is the first point", where the accumulator is reset.
-/
import proofs.«152341_j18279380812077_1_alg».proof.Proof.Gen.KernelIdeal.Launch
import proofs.«152341_j18279380812077_1_alg».proof.Proof.Gen.KernelIdeal.Skeleton
import proofs.«152341_j18279380812077_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host stretches after the region, in program order. -/
abbrev tailOpss : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13]

/-- Core `c`'s buffer contents when the region is entered: after the bias has been reshaped. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- Every buffer a later host operation writes: the eighty results after the region. -/
abbrev tailW : List (Ref sig .tc) :=
  [main_v2, main_cst, main_v3, main_v4, main_v5, main_call1_v0, main_call1_call0_c, main_call1_call0_v0, main_v7, main_c, main_v8, main_c_0, main_call2_v0, main_call2_v1, main_v9, main_c_1, main_v10, main_v11, main_c_2, main_v12, main_v13, main_v14, main_v15, main_c_3, main_v16, main_v17, main_call3_call0_c, main_call3_call0_v0, main_v18, main_c_4, main_call4_v0, main_call4_v1, main_call4_v2, main_call4_v3, main_call4_v4, main_call4_v5, main_call4_v6, main_call4_v7, main_call4_c, main_call4_v8, main_call4_v9, main_call4_v10, main_call4_c_0, main_call4_v11, main_call4_v12, main_v19, main_c_5, main_call5_v0, main_call5_c, main_call5_v1, main_call5_c_0, main_call5_v2, main_call5_v3, main_call5_v4, main_call5_c_1, main_call5_v5, main_call5_v6, main_call5_c_2, main_call5_v7, main_call5_v8, main_call5_c_3, main_call5_v9, main_call5_v10, main_call5_v11, main_call5_v12, main_call5_v13, main_call5_v14, main_v20, main_v21, main_v22, main_c_6, main_v23, main_v24, main_v25, main_c_7, main_call6_v0, main_call6_v1, main_v26, main_v27, main_v28]

/-- No later operation allocates. -/
theorem tail_fresh : (List.flatten (tailOpss (F := F))).Forall fun op => op.fresh = ∅ := by
  simp only [tailOpss, hostOps1, hostOps1_1, hostOps1_2, hostOps1_3, hostOps1_4, hostOps1_5, hostOps1_6, hostOps1_7, hostOps1_8, hostOps1_9, hostOps1_10, hostOps1_11, hostOps1_12, hostOps1_13, List.flatten_cons, List.flatten_nil, List.append_nil, List.cons_append, List.nil_append, List.Forall]
  repeat' constructor

/-- Each later operation writes one of those eighty buffers. -/
theorem tail_writes : (List.flatten (tailOpss (F := F))).Forall fun op => op.writes ⊆ (tailW.map (Proc.devRef (τ := τ) .tc)).toFinset := by
  simp only [tailOpss, hostOps1, hostOps1_1, hostOps1_2, hostOps1_3, hostOps1_4, hostOps1_5, hostOps1_6, hostOps1_7, hostOps1_8, hostOps1_9, hostOps1_10, hostOps1_11, hostOps1_12, hostOps1_13, List.flatten_cons, List.flatten_nil, List.append_nil, List.cons_append, List.nil_append, List.Forall]
  and_intros <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- @main reduces to the region continued by the later stretches, the buffers at their contents after the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss (F := F)).map StableHlo.seq)) :=
  Pipeline.hmain_around cfgs 0 defs₀ 𝒱₀ m main [hostOps0] tailOpss (by simp only [List.Forall]; exact hostOps0_sub)
    (by simp only [List.Forall]; exact hostOps0_fresh) main_chain

/-- The later stretches touch only the region's arrays and the buffers that bypass it. -/
theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOpss, List.mem_cons, List.mem_nil_iff, or_false] at hops
  rcases hops with rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)

theorem sfx_fresh : ∀ ops ∈ (tailOpss : List (List (HloOp τ sig (Elt F)))), ∀ op ∈ ops, op.fresh = ∅ :=
  fun ops hops op hop => (List.forall_iff_forall_mem.mp tail_fresh) op (List.mem_flatten.mpr ⟨ops, hops, hop⟩)

/-- None of them writes an array of the region: the five arrays are not among the eighty. -/
theorem sfx_keeps : ∀ ops ∈ (tailOpss : List (List (HloOp τ sig (Elt F)))), ∀ op ∈ ops,
    ∀ w, Proc.devRef .tc (Pipeline.arrRef spec0 w) ∉ op.writes := by
  intro ops hops op hop w hw
  obtain ⟨y, hy, he⟩ := List.mem_map.mp (List.mem_toFinset.mp
    ((List.forall_iff_forall_mem.mp tail_writes) op (List.mem_flatten.mpr ⟨ops, hops, hop⟩) hw))
  exact (by decide : ∀ w : Fin 5, Pipeline.arrRef spec0 w ∉ tailW) w (Proc.devRef_injective _ he ▸ hy)

/-- The reshape before the region writes only the bias row: an argument is found as launched. -/
theorem V_of_ne (c : Dev nD) (r : Ref sig .tc) (h : r ∉ ([main_v0] : List (Ref sig .tc))) : V m c r = m ((c : Thread nD τ).loc r) :=
  StableHlo.after_of_writes_sub (List.flatten [hostOps0]) _ (by
    simp only [hostOps0, List.flatten_cons, List.flatten_nil, List.append_nil, List.Forall]
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)) h

theorem V_main_arg0 (c : Dev nD) : V m c main_arg0 = m ((c : Thread nD τ).loc main_arg0) := V_of_ne m c _ (by decide)
theorem V_main_arg1 (c : Dev nD) : V m c main_arg1 = m ((c : Thread nD τ).loc main_arg1) := V_of_ne m c _ (by decide)
theorem V_main_arg2 (c : Dev nD) : V m c main_arg2 = m ((c : Thread nD τ).loc main_arg2) := V_of_ne m c _ (by decide)
theorem V_main_arg3 (c : Dev nD) : V m c main_arg3 = m ((c : Thread nD τ).loc main_arg3) := V_of_ne m c _ (by decide)

/-- A buffer that is neither written after the region nor one of its arrays ends at its region-entry contents. -/
theorem W_of_ne (dats : (p : Fin _) → (c : Dev nD) → Dat τ (Elt F) Unit ℕ (UR sig nD τ) ℕ (cfgs p) c) (c : Dev nD) (r : Ref sig .tc)
    (h : r ∉ tailW) (ha : ∀ w, Pipeline.arrRef spec0 w ≠ r) :
    Pipeline.afterTail₀ cfgs dats 0 (V0 m) tailOpss c r = V m c r := by
  unfold Pipeline.afterTail₀
  rw [StableHlo.after_of_writes_sub _ _ tail_writes h, Pipeline.withArrays_of_ne _ c (V0 m c) _ r ha]

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- "This is the first grid point", as the body computes it from the coordinate. -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val % 64 = 0 :=
  (by decide +kernel : ∀ t : Fin grid0.N, cond0_0 (grid0.coords t) ↔ t.val % 64 = 0)

/-! ## The staging memrefs the body is called with -/

/-- One staging buffer of each output window, through which its contents are stated. -/
abbrev VO0_3 : View sig .tc .vmem S4096x128 .f32 := (Memref.whole cc0_stg3_0 : Memref sig .tc .vmem S4096x128 .f32).view
abbrev VO0_4 : View sig .tc .vmem S1x1 .f32 := (Memref.whole cc0_stg4_0 : Memref sig .tc .vmem S1x1 .f32).view
abbrev ms0_0 (t : Fin cfg0.N) : Memref sig .tc .vmem S4096x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)

end Cert.KernelIdeal.Hand

end
-- ==== Proof.FrameI.RunA.lean ====
/-
  The kernel body run whole at the FIRST grid point (the branch taken: the accumulator is reset to zero before it is
  read). On whole staging buffers — the three inputs at their contents, the two outputs at anything — the body runs to
  its end holding the inputs as they were and each output's buffer with the stores it made; which stores those are is
  found by running the body, and is this definition's witness.
-/
import proofs.«152341_j18279380812077_1_alg».proof.Proof.FrameI.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the result block's buffer and in the accumulator's, at the first point, with the
    proof that the body runs from the inputs' contents to them. -/
noncomputable def kernelRun0_A (c : Dev nD) (i : grid0.Coords) (arg1 : Memref sig .tc .vmem S4096x512 .f32) (harg1 : arg1.IsWhole) (arg2 : Memref sig .tc .vmem S128x512 .f32) (harg2 : arg2.IsWhole) (arg3 : Memref sig .tc .vmem S1x128 .f32) (harg3 : arg3.IsWhole) (arg4 : Memref sig .tc .vmem S4096x128 .f32) (harg4 : arg4.IsWhole) (arg5 : Memref sig .tc .vmem S1x1 .f32) (harg5 : arg5.IsWhole) (hc0 : cond0_0 i)
    (x0 : Vec F S4096x512 .f32) (x1 : Vec F S128x512 .f32) (x2 : Vec F S1x128 .f32) :
    Σ' (L3 : List (View.Piece (Elt F) S4096x128 .f32)), { L4 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)) -∗ K ⟨⟩))
          ⊢ wp frame (wpE (defs₀ (F := F)) Variants.none c none) E (cc0__linear_threshold_kernel i arg1 harg1 arg2 harg2 arg3 harg3 arg4 harg4 arg5 harg5) K } := by
  refine ⟨?_, ?_, fun E K => ?run⟩
  case run =>
    simp only [cc0__linear_threshold_kernel_eq_skeleton]; unfold cc0__linear_threshold_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    iexists _; iexact H4

end Cert.KernelIdeal.Hand

end
-- ==== Proof.FrameI.RunB.lean ====
/-
  The kernel body run whole at a LATER grid point (the branch not taken: the accumulator is read as the point before
  left it, then overwritten with that plus this block's sum). The accumulator's buffer is therefore handed in at
  known contents; the result block's buffer at anything.
-/
import proofs.«152341_j18279380812077_1_alg».proof.Proof.FrameI.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The stores the body leaves in the two outputs' buffers at a later point, with the proof that the body runs from the
    inputs' contents and the accumulator's running contents to them. -/
noncomputable def kernelRun0_B (c : Dev nD) (i : grid0.Coords) (arg1 : Memref sig .tc .vmem S4096x512 .f32) (harg1 : arg1.IsWhole) (arg2 : Memref sig .tc .vmem S128x512 .f32) (harg2 : arg2.IsWhole) (arg3 : Memref sig .tc .vmem S1x128 .f32) (harg3 : arg3.IsWhole) (arg4 : Memref sig .tc .vmem S4096x128 .f32) (harg4 : arg4.IsWhole) (arg5 : Memref sig .tc .vmem S1x1 .f32) (harg5 : arg5.IsWhole) (hc0 : ¬cond0_0 i)
    (x0 : Vec F S4096x512 .f32) (x1 : Vec F S128x512 .f32) (x2 : Vec F S1x128 .f32) (xo4 : Vec F S1x1 .f32) :
    Σ' (L3 : List (View.Piece (Elt F) S4096x128 .f32)), { L4 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)) -∗ K ⟨⟩))
          ⊢ wp frame (wpE (defs₀ (F := F)) Variants.none c none) E (cc0__linear_threshold_kernel i arg1 harg1 arg2 harg2 arg3 harg3 arg4 harg4 arg5 harg5) K } := by
  refine ⟨?_, ?_, fun E K => ?run⟩
  case run =>
    simp only [cc0__linear_threshold_kernel_eq_skeleton]; unfold cc0__linear_threshold_kernel_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg1.eq_unread hf0; obtain rfl := harg2.eq_unread hf1; obtain rfl := harg3.eq_unread hf2; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    iexists _; iexact H4

end Cert.KernelIdeal.Hand

end
-- ==== Proof.FrameI.Frame.lean ====
/-
  The frame of the program: what the two outputs' staging buffers hold after the body, case by case and point by
  point; the proof data of the pipeline; the body's obligation at every point; the run of @main around the region; and
  that the four arguments end as they began.

  The result block's buffer is overwritten whole at every point. The accumulator's buffer is reset and then updated at
  the first point, and at every later point read (as the point before left it: it is written back only after the last
  point, and its block index never moves) and overwritten with the sum. So what the outputs hold after point n is
  defined by recursion on n.
-/
import proofs.«152341_j18279380812077_1_alg».proof.Proof.FrameI.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the outputs' buffers -/

/-- At the first point the stores into the result block's buffer tile it. -/
theorem cover0_A_3 (c : Dev nD) (i : grid0.Coords) (arg1 : Memref sig .tc .vmem S4096x512 .f32) (harg1 : arg1.IsWhole) (arg2 : Memref sig .tc .vmem S128x512 .f32) (harg2 : arg2.IsWhole) (arg3 : Memref sig .tc .vmem S1x128 .f32) (harg3 : arg3.IsWhole) (arg4 : Memref sig .tc .vmem S4096x128 .f32) (harg4 : arg4.IsWhole) (arg5 : Memref sig .tc .vmem S1x1 .f32) (harg5 : arg5.IsWhole) (hc0 : cond0_0 i)
    (x0 : Vec F S4096x512 .f32) (x1 : Vec F S128x512 .f32) (x2 : Vec F S1x128 .f32) (y : S4096x128.Idx) :
    ∃ pc ∈ (kernelRun0_A c i arg1 harg1 arg2 harg2 arg3 harg3 arg4 harg4 arg5 harg5 hc0 x0 x1 x2).1, y ∈ pc.1.set :=
  View.cover_of_tiledL (kernelRun0_A c i arg1 harg1 arg2 harg2 arg3 harg3 arg4 harg4 arg5 harg5 hc0 x0 x1 x2).1 S4096x128.size (by sl_kernel_rfl) y
/-- What the first point leaves in the result block's buffer. -/
def out0_A_3 (c : Dev nD) (i : grid0.Coords) (arg1 : Memref sig .tc .vmem S4096x512 .f32) (harg1 : arg1.IsWhole) (arg2 : Memref sig .tc .vmem S128x512 .f32) (harg2 : arg2.IsWhole) (arg3 : Memref sig .tc .vmem S1x128 .f32) (harg3 : arg3.IsWhole) (arg4 : Memref sig .tc .vmem S4096x128 .f32) (harg4 : arg4.IsWhole) (arg5 : Memref sig .tc .vmem S1x1 .f32) (harg5 : arg5.IsWhole) (hc0 : cond0_0 i)
    (x0 : Vec F S4096x512 .f32) (x1 : Vec F S128x512 .f32) (x2 : Vec F S1x128 .f32) : Vec F S4096x128 .f32 :=
  VO0_3.read (Elt F) (VO0_3.writes (Elt F) VO0_3.junk (kernelRun0_A c i arg1 harg1 arg2 harg2 arg3 harg3 arg4 harg4 arg5 harg5 hc0 x0 x1 x2).1)
/-- At the first point the stores into the accumulator's buffer (the reset, then the update) cover it. -/
theorem cover0_A_4 (c : Dev nD) (i : grid0.Coords) (arg1 : Memref sig .tc .vmem S4096x512 .f32) (harg1 : arg1.IsWhole) (arg2 : Memref sig .tc .vmem S128x512 .f32) (harg2 : arg2.IsWhole) (arg3 : Memref sig .tc .vmem S1x128 .f32) (harg3 : arg3.IsWhole) (arg4 : Memref sig .tc .vmem S4096x128 .f32) (harg4 : arg4.IsWhole) (arg5 : Memref sig .tc .vmem S1x1 .f32) (harg5 : arg5.IsWhole) (hc0 : cond0_0 i)
    (x0 : Vec F S4096x512 .f32) (x1 : Vec F S128x512 .f32) (x2 : Vec F S1x128 .f32) (y : S1x1.Idx) :
    ∃ pc ∈ (kernelRun0_A c i arg1 harg1 arg2 harg2 arg3 harg3 arg4 harg4 arg5 harg5 hc0 x0 x1 x2).2.1, y ∈ pc.1.set :=
  View.cover_of_tiledL (kernelRun0_A c i arg1 harg1 arg2 harg2 arg3 harg3 arg4 harg4 arg5 harg5 hc0 x0 x1 x2).2.1 S1x1.size (by sl_kernel_rfl) y
/-- What the first point leaves in the accumulator's buffer. -/
def out0_A_4 (c : Dev nD) (i : grid0.Coords) (arg1 : Memref sig .tc .vmem S4096x512 .f32) (harg1 : arg1.IsWhole) (arg2 : Memref sig .tc .vmem S128x512 .f32) (harg2 : arg2.IsWhole) (arg3 : Memref sig .tc .vmem S1x128 .f32) (harg3 : arg3.IsWhole) (arg4 : Memref sig .tc .vmem S4096x128 .f32) (harg4 : arg4.IsWhole) (arg5 : Memref sig .tc .vmem S1x1 .f32) (harg5 : arg5.IsWhole) (hc0 : cond0_0 i)
    (x0 : Vec F S4096x512 .f32) (x1 : Vec F S128x512 .f32) (x2 : Vec F S1x128 .f32) : Vec F S1x1 .f32 :=
  VO0_4.read (Elt F) (VO0_4.writes (Elt F) VO0_4.junk (kernelRun0_A c i arg1 harg1 arg2 harg2 arg3 harg3 arg4 harg4 arg5 harg5 hc0 x0 x1 x2).2.1)

/-- At a later point the store into the result block's buffer covers it. -/
theorem cover0_B_3 (c : Dev nD) (i : grid0.Coords) (arg1 : Memref sig .tc .vmem S4096x512 .f32) (harg1 : arg1.IsWhole) (arg2 : Memref sig .tc .vmem S128x512 .f32) (harg2 : arg2.IsWhole) (arg3 : Memref sig .tc .vmem S1x128 .f32) (harg3 : arg3.IsWhole) (arg4 : Memref sig .tc .vmem S4096x128 .f32) (harg4 : arg4.IsWhole) (arg5 : Memref sig .tc .vmem S1x1 .f32) (harg5 : arg5.IsWhole) (hc0 : ¬cond0_0 i)
    (x0 : Vec F S4096x512 .f32) (x1 : Vec F S128x512 .f32) (x2 : Vec F S1x128 .f32) (xo4 : Vec F S1x1 .f32) (y : S4096x128.Idx) :
    ∃ pc ∈ (kernelRun0_B c i arg1 harg1 arg2 harg2 arg3 harg3 arg4 harg4 arg5 harg5 hc0 x0 x1 x2 xo4).1, y ∈ pc.1.set :=
  View.cover_of_tiledL (kernelRun0_B c i arg1 harg1 arg2 harg2 arg3 harg3 arg4 harg4 arg5 harg5 hc0 x0 x1 x2 xo4).1 S4096x128.size (by sl_kernel_rfl) y
/-- What a later point leaves in the result block's buffer. -/
def out0_B_3 (c : Dev nD) (i : grid0.Coords) (arg1 : Memref sig .tc .vmem S4096x512 .f32) (harg1 : arg1.IsWhole) (arg2 : Memref sig .tc .vmem S128x512 .f32) (harg2 : arg2.IsWhole) (arg3 : Memref sig .tc .vmem S1x128 .f32) (harg3 : arg3.IsWhole) (arg4 : Memref sig .tc .vmem S4096x128 .f32) (harg4 : arg4.IsWhole) (arg5 : Memref sig .tc .vmem S1x1 .f32) (harg5 : arg5.IsWhole) (hc0 : ¬cond0_0 i)
    (x0 : Vec F S4096x512 .f32) (x1 : Vec F S128x512 .f32) (x2 : Vec F S1x128 .f32) (xo4 : Vec F S1x1 .f32) : Vec F S4096x128 .f32 :=
  VO0_3.read (Elt F) (VO0_3.writes (Elt F) VO0_3.junk (kernelRun0_B c i arg1 harg1 arg2 harg2 arg3 harg3 arg4 harg4 arg5 harg5 hc0 x0 x1 x2 xo4).1)
/-- At a later point the store into the accumulator's buffer covers it. -/
theorem cover0_B_4 (c : Dev nD) (i : grid0.Coords) (arg1 : Memref sig .tc .vmem S4096x512 .f32) (harg1 : arg1.IsWhole) (arg2 : Memref sig .tc .vmem S128x512 .f32) (harg2 : arg2.IsWhole) (arg3 : Memref sig .tc .vmem S1x128 .f32) (harg3 : arg3.IsWhole) (arg4 : Memref sig .tc .vmem S4096x128 .f32) (harg4 : arg4.IsWhole) (arg5 : Memref sig .tc .vmem S1x1 .f32) (harg5 : arg5.IsWhole) (hc0 : ¬cond0_0 i)
    (x0 : Vec F S4096x512 .f32) (x1 : Vec F S128x512 .f32) (x2 : Vec F S1x128 .f32) (xo4 : Vec F S1x1 .f32) (y : S1x1.Idx) :
    ∃ pc ∈ (kernelRun0_B c i arg1 harg1 arg2 harg2 arg3 harg3 arg4 harg4 arg5 harg5 hc0 x0 x1 x2 xo4).2.1, y ∈ pc.1.set :=
  View.cover_of_tiledL (kernelRun0_B c i arg1 harg1 arg2 harg2 arg3 harg3 arg4 harg4 arg5 harg5 hc0 x0 x1 x2 xo4).2.1 S1x1.size (by sl_kernel_rfl) y
/-- What a later point leaves in the accumulator's buffer, over what the point before left there. -/
def out0_B_4 (c : Dev nD) (i : grid0.Coords) (arg1 : Memref sig .tc .vmem S4096x512 .f32) (harg1 : arg1.IsWhole) (arg2 : Memref sig .tc .vmem S128x512 .f32) (harg2 : arg2.IsWhole) (arg3 : Memref sig .tc .vmem S1x128 .f32) (harg3 : arg3.IsWhole) (arg4 : Memref sig .tc .vmem S4096x128 .f32) (harg4 : arg4.IsWhole) (arg5 : Memref sig .tc .vmem S1x1 .f32) (harg5 : arg5.IsWhole) (hc0 : ¬cond0_0 i)
    (x0 : Vec F S4096x512 .f32) (x1 : Vec F S128x512 .f32) (x2 : Vec F S1x128 .f32) (xo4 : Vec F S1x1 .f32) : Vec F S1x1 .f32 :=
  VO0_4.read (Elt F) (VO0_4.writes (Elt F) VO0_4.junk (kernelRun0_B c i arg1 harg1 arg2 harg2 arg3 harg3 arg4 harg4 arg5 harg5 hc0 x0 x1 x2 xo4).2.1)

/-! ## What the outputs hold after each point -/

/-- The result block's buffer and the accumulator's after the body at position `n`: the first point's case at 0, a
    later point's case over the accumulator of position `n - 1` otherwise. -/
def outsAt0 (c : Dev nD) : (n : ℕ) → n < cfg0.N → Vec F S4096x128 .f32 × Vec F S1x1 .f32
  | 0, hn =>
    (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩),
     out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩))
  | n + 1, hn =>
    if h0 : (n + 1) % 64 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩),
       out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2,
       out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2)

/-- At the first point: that case's contents. -/
theorem outsAt0_A (c : Dev nD) (t : Fin cfg0.N) (h0 : t.val % 64 = 0) :
    outsAt0 m c t.val t.isLt =
      (out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t),
       out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t)) := by
  obtain ⟨n, hn⟩ := t
  cases n with
  | zero => exact rfl
  | succ n => exact (dif_pos h0).trans rfl

/-- At a later point: that case's contents over the accumulator the point before left. -/
theorem outsAt0_B (c : Dev nD) (t : Fin cfg0.N) (h0 : ¬t.val % 64 = 0) :
    outsAt0 m c t.val t.isLt =
      (out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (outsAt0 m c (t.val - 1) (Nat.lt_of_le_of_lt (Nat.sub_le _ _) t.isLt)).2,
       out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block, the result
    block's and the accumulator's at `outsAt0`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- At a later point the accumulator's buffer holds what the body left at the point before: the point is not the first,
    and the buffer is written back only after the last point. -/
theorem before0_4_B (c : Dev nD) (t : Fin cfg0.N) (h0 : ¬t.val % 64 = 0) (d) :
    (dats m 0 c).before 4 t d = (outsAt0 m c (t.val - 1) (Nat.lt_of_le_of_lt (Nat.sub_le _ _) t.isLt)).2 := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: the inputs' buffers hold their blocks; the point is the first or a later one; at a later one
    the accumulator's buffer holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 64 := lt_of_lt_of_eq t.isLt (show cfg0.N = 64 from N_0)
  by_cases h0 : t.val % 64 = 0
  · rw [outsAt0_A m c t h0]
    dsimp only
    unfold out0_A_3 out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t) (iblk m c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _)
    unfold owns; iexists _; isplitr
    swap; · iexact H4
    ipureintro; exact View.read_writes_of_cover _ _ _ _ _ (cover0_A_4 c _ _ _ _ _ _ _ _ _ _ _ _ _ _ _)
  · rw [outsAt0_B m c t h0]
    dsimp only
    simp only [before0_4_B m c t h0]
    unfold out0_B_3 out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) (iblk m c 2 t) _).2.2 Set.univ _)
    isplitl [H0]; · iexact H0
    isplitl [H1]; · iexact H1
    isplitl [H2]; · iexact H2
    isplitl [H3]; · iexists _; iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _)
    unfold owns; iexists _; isplitr
    swap; · iexact H4
    ipureintro; exact View.read_writes_of_cover _ _ _ _ _ (cover0_B_4 c _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the region at what the
    proof data compute and every other buffer as the later host operations leave it. -/
theorem run_main : θ_run defs (onTc (τ := τ) (main (F := F))) (s₀ m ρ) (Pipeline.FramePost cfgs (dats m) 0 (Pipeline.afterTail₀ cfgs (dats m) 0 (V0 m) tailOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := sfx_fresh) (hkeep := sfx_keeps)
    (hmain := hmain m Variants.none) (hA := A_eq m) (hΦ := fun _ _ => rfl)

/-- The four arguments end as they began: x and W are inputs of the region (their arrays are never written), the mask
    and the bias bypass it, and no host operation writes any of them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
    ((h c).1 0).trans (((dats m 0 c).arrAt_in 0 rfl _).trans ((A_eq m c 0).trans (V_main_arg0 m c))),
    ((h c).2 main_arg1 (Pipeline.mem_restRefs_of main_arg1 (by decide) (by decide))).trans
      ((W_of_ne m (dats m) c main_arg1 (by decide) (by decide)).trans (V_main_arg1 m c)),
    ((h c).1 1).trans (((dats m 0 c).arrAt_in 1 rfl _).trans ((A_eq m c 1).trans (V_main_arg2 m c))),
    ((h c).2 main_arg3 (Pipeline.mem_restRefs_of main_arg3 (by decide) (by decide))).trans
      ((W_of_ne m (dats m) c main_arg3 (by decide) (by decide)).trans (V_main_arg3 m c))⟩) (run_main m ρ)

end Cert.KernelIdeal.Hand

end
-- ==== Proof.KPay.lean ====
/-
  The kernel body's arithmetic read at an index, at the ideal values (a float is an extended real and every
  operation is exact).

  On a block `x0` of 4096 rows, the whole weight matrix `w` (128 × 512) and the bias as one row `b2` (1 × 128), the
  body forms `y = x0 · wᵀ + b2`: entry `(r, o)` of `y` is `∑ k, x0 (r, k) * w (o, k)` plus `b2 (0, o)`. It then adds the sum
  of all entries of `y` to a 1 × 1 accumulator, which is reset to zero at the first grid point. The three
  theorems below say this of the three payload terms, entry by entry:
  • `pay1_apply`: the reset value is `0`;
  • `pay2_apply`: `y (r, o) = (∑ k : Fin 512, x0 (r, k) * w (o, k)) + b2 (0, o)`;
  • `pay3_apply`: the new accumulator is the old one plus `∑ r, ∑ o, y (r, o)`.
  Only commutative-monoid facts about `+` on the extended reals are used (re-indexing a finite sum along a bijection,
  a sum over pairs as an iterated sum); nothing needs finiteness of the summands.
-/
import proofs.«152341_j18279380812077_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Group.Finset.Basic

noncomputable section

open scoped BigOperators

namespace Cert.KernelIdeal.Hand

open Idealize.ShloMosaic Idealize.ShloMosaic.ValueIdx Cert.KernelIdeal Cert.KernelIdeal.Gen

/-! ## The reset value -/

/-- The splat the accumulator is reset to is the word of `+0.0`, which denotes the extended real `0`. -/
theorem pay1_apply (j : S1x1.Idx) : k0_pay1 (F := Ideal) j = 0 := by
  unfold k0_pay1
  exact Ideal.ofBits_zero_f32

/-! ## The block product's operand indices

The product contracts axis 1 of the left operand (4096 × 512) with axis 1 of the right operand (128 × 512); the
output's axis 0 is the left operand's axis 0 and its axis 1 is the right operand's axis 0. So at output index `(r, o)`
and contraction coordinate `k` the left operand is read at `(r, k)` and the right one at `(o, k)`. First the four
coordinates one at a time, then the two indices. -/

/-- The dimension numbers of the block product. -/
abbrev D : DotDims S4096x512 S128x512 S4096x128 := dot_S4096x512_S128x512_S4096x128_1_1_0_0_n_n

/-- Left operand, axis 0 (kept): the output's row coordinate. -/
theorem lhs_dot_0 (j : S4096x128.Idx) (k : dot_S4096x512_S128x512_S4096x128_1_1_0_0_n_n.contr.Idx) :
    (dot_S4096x512_S128x512_S4096x128_1_1_0_0_n_n.lhsIdx j k 0).val = (j 0).val := by
  unfold DotDims.lhsIdx
  rw [dif_neg (show ¬ (0 : Fin S4096x512.rank) ∈ dot_S4096x512_S128x512_S4096x128_1_1_0_0_n_n.lhsBatch by decide),
    dif_pos (show (0 : Fin S4096x512.rank) ∈ dot_S4096x512_S128x512_S4096x128_1_1_0_0_n_n.lhsNonContracting by decide)]
  rfl

/-- Left operand, axis 1 (contracted): the contraction index's one coordinate. -/
theorem lhs_dot_1 (j : S4096x128.Idx) (k : dot_S4096x512_S128x512_S4096x128_1_1_0_0_n_n.contr.Idx) :
    (dot_S4096x512_S128x512_S4096x128_1_1_0_0_n_n.lhsIdx j k 1).val = (k ⟨0, by decide⟩).val :=
  DotDims.lhsIdx_val_of_single _ (cl := 1) rfl j k

/-- Right operand, axis 0 (kept): the output's column coordinate. -/
theorem rhs_dot_0 (j : S4096x128.Idx) (k : dot_S4096x512_S128x512_S4096x128_1_1_0_0_n_n.contr.Idx) :
    (dot_S4096x512_S128x512_S4096x128_1_1_0_0_n_n.rhsIdx j k 0).val = (j 1).val := by
  unfold DotDims.rhsIdx
  rw [dif_neg (show ¬ (0 : Fin S128x512.rank) ∈ dot_S4096x512_S128x512_S4096x128_1_1_0_0_n_n.rhsBatch by decide),
    dif_pos (show (0 : Fin S128x512.rank) ∈ dot_S4096x512_S128x512_S4096x128_1_1_0_0_n_n.rhsNonContracting by decide)]
  rfl

/-- Right operand, axis 1 (contracted): the contraction index's one coordinate. -/
theorem rhs_dot_1 (j : S4096x128.Idx) (k : dot_S4096x512_S128x512_S4096x128_1_1_0_0_n_n.contr.Idx) :
    (dot_S4096x512_S128x512_S4096x128_1_1_0_0_n_n.rhsIdx j k 1).val = (k ⟨0, by decide⟩).val :=
  DotDims.rhsIdx_val_of_single _ (cr := 1) rfl j k

/-- The left operand's index at output `(r, o)` and contraction coordinate `k` is `(r, k)`. -/
theorem lhsIdx_eq (r : Fin 4096) (o : Fin 128) (k : Fin 512) :
    D.lhsIdx (ix2 r o) ((contrEquiv1 D 512 rfl rfl).symm k) = ix2 r k := by
  funext a
  match a with
  | ⟨0, _⟩ => exact Fin.ext (lhs_dot_0 _ _)
  | ⟨1, _⟩ => exact Fin.ext ((lhs_dot_1 _ _).trans (contrEquiv1_symm_val D 512 rfl rfl k))

/-- The right operand's index at output `(r, o)` and contraction coordinate `k` is `(o, k)`. -/
theorem rhsIdx_eq (r : Fin 4096) (o : Fin 128) (k : Fin 512) :
    D.rhsIdx (ix2 r o) ((contrEquiv1 D 512 rfl rfl).symm k) = ix2 o k := by
  funext a
  match a with
  | ⟨0, _⟩ => exact Fin.ext (rhs_dot_0 _ _)
  | ⟨1, _⟩ => exact Fin.ext ((rhs_dot_1 _ _).trans (contrEquiv1_symm_val D 512 rfl rfl k))

/-! ## The affine map `y = x0 · wᵀ + b2` at an entry -/

/-- Entry `(r, o)` of `y`: the product into the zero accumulator is the bare sum over the contraction index, which is
    re-indexed by its one coordinate `k : Fin 512`; the bias row, cast to its own shape and repeated over the 4096 rows,
    contributes its entry in column `o`. -/
theorem pay2_apply (x0 : Vec Ideal S4096x512 .f32) (w : Vec Ideal S128x512 .f32) (b2 : Vec Ideal S1x128 .f32)
    (r : Fin 4096) (o : Fin 128) :
    k0_pay2 (F := Ideal) x0 w b2 (ix2 r o) = (∑ k : Fin 512, x0 (ix2 r k) * w (ix2 o k)) + b2 (ix2 0 o) := by
  unfold k0_pay2
  rw [addf_apply, broadcastTo_1b_ab_apply, shapeCast_self]
  simp only [matmul]
  rw [Ideal.matmul_constant_zero_apply]
  refine congrArg (· + b2 (ix2 0 o)) ?_
  rw [← Equiv.sum_comp (contrEquiv1 D 512 rfl rfl).symm]
  refine Finset.sum_congr rfl fun k _ => ?_
  rw [lhsIdx_eq, rhsIdx_eq]

/-! ## The accumulator's update -/

/-- The new accumulator: the old one (a cast to its own shape changes nothing) plus a scalar repeated over the 1 × 1
    shape. The scalar is the one entry of the reduction of `y`, viewed as 1 × 4096 × 128, over its axes 1 and 2 into a
    shape whose only axis has extent one; such a reduction is the sum over every index of its source. That sum is
    carried along the row-major bijection back to the index set of `y`, and a sum over pairs `(r, o)` is the iterated
    sum, rows outermost. -/
theorem pay3_apply (x0 : Vec Ideal S4096x512 .f32) (w : Vec Ideal S128x512 .f32) (b2 : Vec Ideal S1x128 .f32)
    (acc : Vec Ideal S1x1 .f32) (j : S1x1.Idx) :
    k0_pay3 (F := Ideal) x0 w b2 acc j
      = acc j + ∑ r : Fin 4096, ∑ o : Fin 128, k0_pay2 (F := Ideal) x0 w b2 (ix2 r o) := by
  unfold k0_pay3
  rw [addf_apply, shapeCast_self, broadcast_apply]
  refine congrArg (acc j + ·) ?_
  unfold extractAt
  refine (shapeCast_apply _ _ _ (ix1 (0 : Fin 1)) rfl).trans ?_
  refine (Ideal.multiReduction_add_total (t := S1) _ _ reduces_S1x4096x128_S1 (by decide) _ _ _).trans ?_
  refine (Equiv.sum_comp (Shape.reshapeEquiv shapeCasts_S4096x128_S1x4096x128) (k0_pay2 (F := Ideal) x0 w b2)).trans ?_
  exact sum_idx2 _

end Cert.KernelIdeal.Hand

end
-- ==== Proof.KAcc.lean ====
/-
  The accumulator: what the 1×1 window holds after each grid point, and the array it is written back to.

  At the first point the body resets the cell to zero and then overwrites it with "what it reads there plus the sum of
  the entries of this point's block of the result"; at every later point only the second. Read back as values: the cell
  after point n holds zero plus the block sums of points 0, …, n, added in point order — proved by induction on the
  point, never by enumerating the grid. The cell is written back once, after the last point, and its one block is the
  whole 1×1 array.
-/
import proofs.«152341_j18279380812077_1_alg».proof.Proof.FrameI.Frame
import proofs.«152341_j18279380812077_1_alg».proof.Proof.KPay
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl

/-- A later point leaves the new running sum: the one covering store's value, its loads reading whole buffers. -/
theorem out_B_4 (c : Dev nD) (i : grid0.Coords) (arg1 : Memref sig .tc .vmem S4096x512 .f32) (harg1 : arg1.IsWhole) (arg2 : Memref sig .tc .vmem S128x512 .f32) (harg2 : arg2.IsWhole) (arg3 : Memref sig .tc .vmem S1x128 .f32) (harg3 : arg3.IsWhole) (arg4 : Memref sig .tc .vmem S4096x128 .f32) (harg4 : arg4.IsWhole) (arg5 : Memref sig .tc .vmem S1x1 .f32) (harg5 : arg5.IsWhole) (hc0 : ¬cond0_0 i)
    (x0 : Vec F S4096x512 .f32) (x1 : Vec F S128x512 .f32) (x2 : Vec F S1x128 .f32) (xo4 : Vec F S1x1 .f32) :
    out0_B_4 c i arg1 harg1 arg2 harg2 arg3 harg3 arg4 harg4 arg5 harg5 hc0 x0 x1 x2 xo4 = k0_pay3 x0 x1 x2 xo4 := by
  unfold out0_B_4
  rw [View.read_writes_eq_canon _ _ _ (cover0_B_4 c i arg1 harg1 arg2 harg2 arg3 harg3 arg4 harg4 arg5 harg5 hc0 x0 x1 x2 xo4)]
  unfold kernelRun0_B
  dsimp only
  sl_unfold_words
  rw [View.canon_unit_zero hz2]
  simp only [View.readAt_eq_ld, harg1.read_unread, harg2.read_unread, harg3.read_unread, harg5.read_unread, View.ld_unit_zero (S := S4096x512) hz2, View.ld_unit_zero (S := S128x512) hz2, View.ld_unit_zero (S := S1x128) hz2, View.ld_unit_zero (S := S1x1) hz2]

/-- The first point leaves the same over the zero it has just stored: the later store covers the reset, and the
    read between them reads the reset back. -/
theorem out_A_4 (c : Dev nD) (i : grid0.Coords) (arg1 : Memref sig .tc .vmem S4096x512 .f32) (harg1 : arg1.IsWhole) (arg2 : Memref sig .tc .vmem S128x512 .f32) (harg2 : arg2.IsWhole) (arg3 : Memref sig .tc .vmem S1x128 .f32) (harg3 : arg3.IsWhole) (arg4 : Memref sig .tc .vmem S4096x128 .f32) (harg4 : arg4.IsWhole) (arg5 : Memref sig .tc .vmem S1x1 .f32) (harg5 : arg5.IsWhole) (hc0 : cond0_0 i)
    (x0 : Vec F S4096x512 .f32) (x1 : Vec F S128x512 .f32) (x2 : Vec F S1x128 .f32) :
    out0_A_4 c i arg1 harg1 arg2 harg2 arg3 harg3 arg4 harg4 arg5 harg5 hc0 x0 x1 x2 = k0_pay3 x0 x1 x2 (k0_pay1 (F := F)) := by
  unfold out0_A_4
  rw [View.read_writes_eq_canon _ _ _ (cover0_A_4 c i arg1 harg1 arg2 harg2 arg3 harg3 arg4 harg4 arg5 harg5 hc0 x0 x1 x2)]
  unfold kernelRun0_A
  dsimp only
  sl_unfold_words
  rw [View.canon_cons_unit_zero (S := S1x1) hz2, View.readCov_unit_zero (S := S1x1) _ hz2]
  simp only [View.readAt_eq_ld, harg1.read_unread, harg2.read_unread, harg3.read_unread, harg5.read_unread, View.ld_unit_zero (S := S4096x512) hz2, View.ld_unit_zero (S := S128x512) hz2, View.ld_unit_zero (S := S1x128) hz2, View.ld_unit_zero (S := S1x1) hz2]

/-! ## The running sum, at the extended reals -/

section Ideal

variable (mI : (ℓ : Loc nD τ sig) → Buf (Elt Ideal) ℓ)

/-- Point `t`'s three input blocks, at their literal types. -/
abbrev xblk (c : Dev nD) (t : Fin cfg0.N) : Vec Ideal S4096x512 .f32 := iblk mI c 0 t
abbrev wblk (c : Dev nD) (t : Fin cfg0.N) : Vec Ideal S128x512 .f32 := iblk mI c 1 t
abbrev bblk (c : Dev nD) (t : Fin cfg0.N) : Vec Ideal S1x128 .f32 := iblk mI c 2 t

/-- The sum of the 4096 × 128 entries point `t` computes. -/
def blockSum (c : Dev nD) (t : Fin cfg0.N) : EReal :=
  ∑ r : Fin 4096, ∑ o : Fin 128, k0_pay2 (F := Ideal) (xblk mI c t) (wblk mI c t) (bblk mI c t) (ix2 r o)

/-- The same at a natural number, zero past the grid. -/
def bsum (c : Dev nD) (s : ℕ) : EReal := if h : s < cfg0.N then blockSum mI c ⟨s, h⟩ else 0

/-- After point `n` the cell holds the block sums of points 0 to n. -/
theorem acc_eq (c : Dev nD) : ∀ (n : ℕ) (h : n < cfg0.N) (j : S1x1.Idx),
    (outsAt0 mI c n h).2 j = ∑ s ∈ Finset.range (n + 1), bsum mI c s
  | 0, h, j => by
    rw [outsAt0_A mI c ⟨0, h⟩ rfl]
    dsimp only
    rw [out_A_4, pay3_apply, pay1_apply, zero_add, Finset.sum_range_one]
    unfold bsum blockSum
    rw [dif_pos h]
  | n + 1, h, j => by
    have hN : cfg0.N = 64 := N_0
    have hB : ¬(⟨n + 1, h⟩ : Fin cfg0.N).val % 64 = 0 := by dsimp only; omega
    rw [outsAt0_B mI c ⟨n + 1, h⟩ hB]
    dsimp only
    rw [out_B_4, pay3_apply, Finset.sum_range_succ _ (n + 1)]
    show (outsAt0 mI c n _).2 j + _ = _
    rw [acc_eq c n _ j]
    congr 1
    unfold bsum blockSum
    rw [dif_pos h]

/-! ## The accumulator's array -/

/-- The last grid point. -/
abbrev tLast : Fin cfg0.N := ⟨63, by rw [show cfg0.N = 64 from N_0]; decide⟩

/-- What the cell holds after the last point, as contents of the accumulator's array. -/
abbrev accFinal (c : Dev nD) : Buf (Elt Ideal) ((c : Thread nD τ).loc main_v1_1) := (outsAt0 mI c 63 tLast.isLt).2

/-- The one write-back, after the last point, writes it: block (0, 0) of the 1×1 array, read through zero offsets, is
    the array. -/
theorem flushed4_eq (c : Dev nD) (t : Fin cfg0.N) (hf : (cfg0.win 4).flush t = true) :
    (dats mI 0 c).flushed 4 t = ((cfg0.win 4).blk t).view.read (Elt Ideal) (accFinal mI c) := by
  have hN : cfg0.N = 64 := N_0
  have h63 : t.val = 63 := by have := (flush0_4 t).mp hf; have := t.isLt; omega
  obtain rfl : t = tLast := Fin.ext h63
  show (cfg0.win 4).cut (grid0.coords tLast) ((dats mI 0 c).after 4 tLast) = _
  rw [after0_4]
  have hz' : (fun a => win0_4.index tLast a * main_v1_1.ty.shape.size a) = fun _ => 0 := funext fun a => by fin_cases a <;> decide
  exact (Memref.read_access_unit_zero (Elt Ideal) main_v1_1 hz' (fun a => by rw [congrFun hz' a]; simp) (accFinal mI c)).symm

/-- So the accumulator's array ends holding the cell after the last point: that point's block covers the array. -/
theorem final4 (c : Dev nD) : (dats mI 0 c).arrAt 4 cfg0.N = accFinal mI c :=
  (dats mI 0 c).arrAt_eq_of_cover 4 (accFinal mI c) (flushed4_eq mI c) fun i =>
    ⟨tLast, (flush0_4 tLast).mpr rfl, by
      show i ∈ ((View.whole main_v1_1).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index tLast 0 * win0_4.size 0 ≤ (i 0 : Nat) ∧ (i 0 : Nat) < win0_4.index tLast 0 * win0_4.size 0 + win0_4.xsize (grid0.coords tLast) 0
        rw [show win0_4.index tLast 0 * win0_4.size 0 = 0 from by decide +kernel, show win0_4.xsize (grid0.coords tLast) 0 = 1 from by decide +kernel]; omega
      | ⟨1, _⟩ =>
        show win0_4.index tLast 1 * win0_4.size 1 ≤ (i 1 : Nat) ∧ (i 1 : Nat) < win0_4.index tLast 1 * win0_4.size 1 + win0_4.xsize (grid0.coords tLast) 1
        rw [show win0_4.index tLast 1 * win0_4.size 1 = 0 from by decide +kernel, show win0_4.xsize (grid0.coords tLast) 1 = 1 from by decide +kernel]; omega⟩

/-- The accumulator's array, entry by entry: the 64 block sums in point order. -/
theorem final4_apply (c : Dev nD) (j : S1x1.Idx) :
    ((dats mI 0 c).arrAt 4 cfg0.N : Vec Ideal S1x1 .f32) j = ∑ s ∈ Finset.range 64, bsum mI c s := by
  rw [final4]
  exact acc_eq mI c 63 tLast.isLt j

end Ideal

end Cert.KernelIdeal.Hand

end
-- ==== Proof.KOut.lean ====
/-
  The kernel's result array as one function of the argument arrays.

  Each of the 64 grid points overwrites its own block of 4096 rows of the result with the affine map
  `y = x_block · Wᵀ + b` of that point's block of x, the whole of W and the bias row. What a point's stores leave in
  the result block's buffer is that map of the three input buffers, at the first point and at a later one alike (the
  accumulator never enters it). Row `r` of the block of x at point `t` is row `4096 t + r` of x; W and the bias row are
  read whole at every point. So point `t` writes back rows `4096 t … 4096 t + 4095` of the one array
  `(n, o) ↦ (∑ k, x (n, k) * W (o, k)) + b (0, o)`, row `n` is covered by point `n / 4096`, and the result array ends
  holding that function.
-/
import proofs.«152341_j18279380812077_1_alg».proof.Proof.FrameI.Frame
import proofs.«152341_j18279380812077_1_alg».proof.Proof.KPay
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Tactic

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ)

/-! ## What each case's stores leave in the result block's buffer -/

/-- The zero offsets of a whole-buffer access. -/
theorem off00_zero : (![0, 0] : Fin 2 → Nat) = fun _ => 0 := funext fun a => by fin_cases a <;> rfl

/-- At the first point the result block's buffer is overwritten whole by one store, whose value is the affine map of
    the three input buffers read whole. -/
theorem out_A_3 (c : Dev nD) (i : grid0.Coords) (arg1 : Memref sig .tc .vmem S4096x512 .f32) (harg1 : arg1.IsWhole) (arg2 : Memref sig .tc .vmem S128x512 .f32) (harg2 : arg2.IsWhole) (arg3 : Memref sig .tc .vmem S1x128 .f32) (harg3 : arg3.IsWhole) (arg4 : Memref sig .tc .vmem S4096x128 .f32) (harg4 : arg4.IsWhole) (arg5 : Memref sig .tc .vmem S1x1 .f32) (harg5 : arg5.IsWhole) (hc0 : cond0_0 i)
    (x0 : Vec F S4096x512 .f32) (x1 : Vec F S128x512 .f32) (x2 : Vec F S1x128 .f32) :
    out0_A_3 c i arg1 harg1 arg2 harg2 arg3 harg3 arg4 harg4 arg5 harg5 hc0 x0 x1 x2 = k0_pay2 x0 x1 x2 := by
  unfold out0_A_3
  rw [View.read_writes_eq_canon _ _ _ (cover0_A_3 c i arg1 harg1 arg2 harg2 arg3 harg3 arg4 harg4 arg5 harg5 hc0 x0 x1 x2)]
  unfold kernelRun0_A
  dsimp only
  sl_unfold_words
  rw [View.canon_unit_zero off00_zero]
  simp only [View.readAt_eq_ld, harg1.read_unread, harg2.read_unread, harg3.read_unread,
    View.ld_unit_zero (S := S4096x512) off00_zero, View.ld_unit_zero (S := S128x512) off00_zero, View.ld_unit_zero (S := S1x128) off00_zero]

/-- At a later point the same one store: the accumulator's contents do not enter the result block. -/
theorem out_B_3 (c : Dev nD) (i : grid0.Coords) (arg1 : Memref sig .tc .vmem S4096x512 .f32) (harg1 : arg1.IsWhole) (arg2 : Memref sig .tc .vmem S128x512 .f32) (harg2 : arg2.IsWhole) (arg3 : Memref sig .tc .vmem S1x128 .f32) (harg3 : arg3.IsWhole) (arg4 : Memref sig .tc .vmem S4096x128 .f32) (harg4 : arg4.IsWhole) (arg5 : Memref sig .tc .vmem S1x1 .f32) (harg5 : arg5.IsWhole) (hc0 : ¬cond0_0 i)
    (x0 : Vec F S4096x512 .f32) (x1 : Vec F S128x512 .f32) (x2 : Vec F S1x128 .f32) (xo4 : Vec F S1x1 .f32) :
    out0_B_3 c i arg1 harg1 arg2 harg2 arg3 harg3 arg4 harg4 arg5 harg5 hc0 x0 x1 x2 xo4 = k0_pay2 x0 x1 x2 := by
  unfold out0_B_3
  rw [View.read_writes_eq_canon _ _ _ (cover0_B_3 c i arg1 harg1 arg2 harg2 arg3 harg3 arg4 harg4 arg5 harg5 hc0 x0 x1 x2 xo4)]
  unfold kernelRun0_B
  dsimp only
  sl_unfold_words
  rw [View.canon_unit_zero off00_zero]
  simp only [View.readAt_eq_ld, harg1.read_unread, harg2.read_unread, harg3.read_unread,
    View.ld_unit_zero (S := S4096x512) off00_zero, View.ld_unit_zero (S := S128x512) off00_zero, View.ld_unit_zero (S := S1x128) off00_zero]

/-! ## The input windows' blocks, read off their arrays -/

/-- The block indices over the grid: the block of x and the result's block move with the point along the rows; W and
    the bias row are read whole at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `r` of the block of x at point `t` is row `4096 t + r` of x. -/
theorem iblk0_apply (c : Dev nD) (t : Fin cfg0.N) (r : Fin 4096) (k : Fin 512) (hlt : 4096 * t.val + r.val < 262144) :
    (iblk m c 0 t : Vec F S4096x512 .f32) (ix2 r k) = (V m c main_arg0 : Vec F S262144x512 .f32) (ix2 ⟨4096 * t.val + r.val, hlt⟩ k) := by
  obtain ⟨e0, e1, -⟩ := idx_facts t
  unfold iblk
  rw [View.read_apply]
  show V m c main_arg0 (((cfg0.win 0).blk t).view.emb (ix2 r k)) = V m c main_arg0 (ix2 ⟨4096 * t.val + r.val, hlt⟩ k)
  refine congrArg (V m c main_arg0) ?_
  funext a
  apply Fin.ext
  match a with
  | ⟨0, _⟩ => show win0_0.index t (0 : Fin 2) * 4096 + 1 * r.val = 4096 * t.val + r.val; rw [e0]; omega
  | ⟨1, _⟩ => show win0_0.index t (1 : Fin 2) * 512 + 1 * k.val = k.val; rw [e1]; omega

/-- The block of W at any point is W. -/
theorem iblk1_eq (c : Dev nD) (t : Fin cfg0.N) : (iblk m c 1 t : Vec F S128x512 .f32) = V m c main_arg2 := by
  obtain ⟨-, -, e0, e1, -⟩ := idx_facts t
  funext j
  unfold iblk
  rw [View.read_apply]
  show V m c main_arg2 (((cfg0.win 1).blk t).view.emb j) = V m c main_arg2 j
  refine congrArg (V m c main_arg2) ?_
  funext a
  apply Fin.ext
  match a with
  | ⟨0, _⟩ => show win0_1.index t (0 : Fin 2) * 128 + 1 * (j 0).val = (j 0).val; rw [e0]; omega
  | ⟨1, _⟩ => show win0_1.index t (1 : Fin 2) * 512 + 1 * (j 1).val = (j 1).val; rw [e1]; omega

/-- The block of the bias row at any point is the bias row. -/
theorem iblk2_eq (c : Dev nD) (t : Fin cfg0.N) : (iblk m c 2 t : Vec F S1x128 .f32) = V m c main_v0 := by
  obtain ⟨-, -, -, -, e0, e1, -⟩ := idx_facts t
  funext j
  unfold iblk
  rw [View.read_apply]
  show V m c main_v0 (((cfg0.win 2).blk t).view.emb j) = V m c main_v0 j
  refine congrArg (V m c main_v0) ?_
  funext a
  apply Fin.ext
  match a with
  | ⟨0, _⟩ => show win0_2.index t (0 : Fin 2) * 1 + 1 * (j 0).val = (j 0).val; rw [e0]; omega
  | ⟨1, _⟩ => show win0_2.index t (1 : Fin 2) * 128 + 1 * (j 1).val = (j 1).val; rw [e1]; omega

/-! ## The result array -/

/-- The affine map on the whole arrays: entry `(n, o)` is row `n` of x against row `o` of W, plus the bias at `o`. -/
def linArr (x : Vec Ideal S262144x512 .f32) (w : Vec Ideal S128x512 .f32) (b2 : Vec Ideal S1x128 .f32) : Vec Ideal S262144x128 .f32 :=
  fun i => (∑ k : Fin 512, x (ix2 (i 0) k) * w (ix2 (i 1) k)) + b2 (ix2 0 (i 1))

theorem linArr_apply (x : Vec Ideal S262144x512 .f32) (w : Vec Ideal S128x512 .f32) (b2 : Vec Ideal S1x128 .f32)
    (n : Fin 262144) (o : Fin 128) :
    linArr x w b2 (ix2 n o) = (∑ k : Fin 512, x (ix2 n k) * w (ix2 o k)) + b2 (ix2 0 o) := rfl

/-- A block of 4096 rows of x that sits at rows `4096 p …` gives, under the body's affine map, those rows of the whole
    arrays' affine map. -/
theorem pay2_block (x : Vec Ideal S262144x512 .f32) (w : Vec Ideal S128x512 .f32) (b2 : Vec Ideal S1x128 .f32)
    (xb : Vec Ideal S4096x512 .f32) (p : ℕ) (r : Fin 4096) (o : Fin 128) (hlt : 4096 * p + r.val < 262144)
    (hxb : ∀ k : Fin 512, xb (ix2 r k) = x (ix2 ⟨4096 * p + r.val, hlt⟩ k)) :
    k0_pay2 (F := Ideal) xb w b2 (ix2 r o) = linArr x w b2 (ix2 ⟨4096 * p + r.val, hlt⟩ o) := by
  refine (pay2_apply xb w b2 r o).trans ?_
  refine Eq.trans ?_ (linArr_apply x w b2 ⟨4096 * p + r.val, hlt⟩ o).symm
  refine congrArg (· + b2 (ix2 0 o)) ?_
  exact Finset.sum_congr rfl fun k _ => congrArg (· * w (ix2 o k)) (hxb k)

/-- What the result block's buffer holds after the body at point `t`: the affine map of that point's blocks, whichever
    case the point is. -/
theorem after3_eq (m : (ℓ : Loc nD τ sig) → Buf (Elt Ideal) ℓ) (c : Dev nD) (t : Fin cfg0.N) :
    (outsAt0 m c t.val t.isLt).1 = k0_pay2 (F := Ideal) (iblk m c 0 t) (iblk m c 1 t) (iblk m c 2 t) := by
  by_cases h0 : t.val % 64 = 0
  · rw [outsAt0_A m c t h0]
    dsimp only
    exact out_A_3 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t)
  · rw [outsAt0_B m c t h0]
    dsimp only
    exact out_B_3 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (outsAt0 m c (t.val - 1) (Nat.lt_of_le_of_lt (Nat.sub_le _ _) t.isLt)).2

/-- What point `t` writes back is block `t` of the whole arrays' affine map. -/
theorem flushed3_eq (m : (ℓ : Loc nD τ sig) → Buf (Elt Ideal) ℓ) (c : Dev nD) (t : Fin cfg0.N) :
    (dats m 0 c).flushed 3 t = ((cfg0.win 3).blk t).view.read (Elt Ideal) (linArr (V m c main_arg0) (V m c main_arg2) (V m c main_v0)) := by
  show (cfg0.win 3).cut (grid0.coords t) ((dats m 0 c).after 3 t) = _
  rw [after0_3, after3_eq m c t, iblk1_eq m c t, iblk2_eq m c t]
  have hN : t.val < 64 := lt_of_lt_of_eq t.isLt (show cfg0.N = 64 from N_0)
  obtain ⟨-, -, -, -, -, -, e0, e1⟩ := idx_facts t
  funext j
  obtain ⟨r, o, rfl⟩ : ∃ (r : Fin 4096) (o : Fin 128), j = ix2 r o := ⟨j 0, j 1, eq_ix2 j⟩
  have hlt : 4096 * t.val + r.val < 262144 := by have := r.isLt; omega
  have hemb : ((cfg0.win 3).blk t).view.emb (ix2 r o) = (ix2 ⟨4096 * t.val + r.val, hlt⟩ o : S262144x128.Idx) := by
    funext a
    apply Fin.ext
    match a with
    | ⟨0, _⟩ => show win0_3.index t (0 : Fin 2) * 4096 + 1 * r.val = 4096 * t.val + r.val; rw [e0]; omega
    | ⟨1, _⟩ => show win0_3.index t (1 : Fin 2) * 128 + 1 * o.val = o.val; rw [e1]; omega
  show k0_pay2 (F := Ideal) (iblk m c 0 t) (V m c main_arg2) (V m c main_v0) (ix2 r o)
    = linArr (V m c main_arg0) (V m c main_arg2) (V m c main_v0) (((cfg0.win 3).blk t).view.emb (ix2 r o))
  rw [hemb]
  exact pay2_block (V m c main_arg0) (V m c main_arg2) (V m c main_v0) (iblk m c 0 t) t.val r o hlt
    (fun k => iblk0_apply m c t r k hlt)

/-- An index of the result array is in point `t`'s block iff each coordinate is in the block's range on its axis. -/
theorem mem_blk3 (t : Fin cfg0.N) (i : S262144x128.Idx) :
    i ∈ ((cfg0.win 3).blk t).view.set ↔ ∀ a : Fin 2, win0_3.index t a * S4096x128.size a ≤ (i a).val ∧ (i a).val < win0_3.index t a * S4096x128.size a + S4096x128.size a := by
  show i ∈ ((View.whole main_v1_0).slice (win0_3.rect t)).set ↔ _
  rw [View.set_slice_whole, Rect.mem_set_unit]
  exact Iff.rfl

/-- Row `n` of the result is written back by point `n / 4096`. -/
theorem covered3 (i : S262144x128.Idx) :
    ∃ t : Fin cfg0.N, (cfg0.win 3).flush t = true ∧ i ∈ ((cfg0.win 3).blk t).view.set := by
  have hi0 : (i 0).val < 262144 := (i 0).isLt
  have hi1 : (i 1).val < 128 := (i 1).isLt
  have hN : cfg0.N = 64 := N_0
  obtain ⟨t, ht⟩ : ∃ t : Fin cfg0.N, t.val = (i 0).val / 4096 := ⟨⟨(i 0).val / 4096, by omega⟩, rfl⟩
  obtain ⟨-, -, -, -, -, -, e0, e1⟩ := idx_facts t
  refine ⟨t, flush0_3 t, ?_⟩
  rw [mem_blk3]
  intro a
  match a with
  | ⟨0, _⟩ => show win0_3.index t (0 : Fin 2) * 4096 ≤ (i 0).val ∧ (i 0).val < win0_3.index t (0 : Fin 2) * 4096 + 4096; rw [e0, ht]; omega
  | ⟨1, _⟩ => show win0_3.index t (1 : Fin 2) * 128 ≤ (i 1).val ∧ (i 1).val < win0_3.index t (1 : Fin 2) * 128 + 128; rw [e1]; omega

/-- The result array after the run is the affine map of x, W and the bias row as the region finds them. -/
theorem final3 (m : (ℓ : Loc nD τ sig) → Buf (Elt Ideal) ℓ) (c : Dev nD) :
    (dats m 0 c).arrAt 3 cfg0.N = linArr (V m c main_arg0) (V m c main_arg2) (V m c main_v0) :=
  (dats m 0 c).arrAt_eq_of_cover 3 (linArr (V m c main_arg0) (V m c main_arg2) (V m c main_v0))
    (fun t _ => flushed3_eq m c t) covered3

end Cert.KernelIdeal.Hand
end
-- ==== Proof.SumLaw.lean ====
/-
  Re-indexing a sum over 262144 rows as a sum over 64 blocks of 4096 rows each: row `n` is row `r` of
  block `s` exactly when `n = 4096 * s + r`, and `(s, r) ↦ 4096 * s + r` is a bijection from
  `Fin 64 × Fin 4096` onto `Fin 262144`. Only commutativity and associativity of the sum are used.
-/
import Mathlib.Logic.Equiv.Fin.Basic
import Mathlib.Data.Fintype.BigOperators

namespace Cert.LinThr

/-- The sum over all 262144 rows is the sum, over the 64 blocks, of the sum over each block's 4096 rows. -/
theorem sum_rows_by_blocks {M : Type*} [AddCommMonoid M] (g : Fin 262144 → M) :
    ∑ n : Fin 262144, g n = ∑ s : Fin 64, ∑ r : Fin 4096, g ⟨4096 * s.val + r.val, by omega⟩ := by
  -- the double sum is one sum over pairs (block, row in block)
  rw [← Fintype.sum_prod_type' (fun (s : Fin 64) (r : Fin 4096) => g ⟨4096 * s.val + r.val, by omega⟩)]
  -- pairs biject with rows by (s, r) ↦ r + 4096 * s
  have h : 64 * 4096 = 262144 := rfl
  symm
  refine Fintype.sum_equiv (finProdFinEquiv.trans (finCongr h)) _ _ ?_
  rintro ⟨s, r⟩
  refine congrArg g (Fin.ext ?_)
  simp only [Equiv.trans_apply, finProdFinEquiv_apply_val, finCongr_apply, Fin.val_cast]
  omega

end Cert.LinThr
-- ==== Proof.KTotal.lean ====
/-
  The kernel's total, re-indexed: the 64 block sums the accumulator adds up are the sum, over all 262144 rows, of each
  row's 128 entries of the result. Point s's block holds rows 4096·s … 4096·s + 4095; its entries are the linear layer
  read at those rows (the x block is x at those rows; W and the bias row are whole at every point); and a sum over all
  rows is the sum over the blocks of the sums over a block's rows. Addition of extended reals is commutative and
  associative, which is all this uses.
-/
import proofs.«152341_j18279380812077_1_alg».proof.Proof.KAcc
import proofs.«152341_j18279380812077_1_alg».proof.Proof.KOut
import proofs.«152341_j18279380812077_1_alg».proof.Proof.SumLaw

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (mI : (ℓ : Loc nD τ sig) → Buf (Elt Ideal) ℓ)

/-- Row `n`'s sum: the 128 entries of row n of the linear layer over the arrays the region finds. -/
def rowSum (c : Dev nD) (n : Fin 262144) : EReal :=
  ∑ o : Fin 128, linArr (V mI c main_arg0) (V mI c main_arg2) (V mI c main_v0) (ix2 n o)

/-- Point `s`'s block sum is the sum of its 4096 rows' sums. -/
theorem bsum_eq (c : Dev nD) (s : Fin 64) :
    bsum mI c s.val = ∑ r : Fin 4096, rowSum mI c ⟨4096 * s.val + r.val, by omega⟩ := by
  have hN : cfg0.N = 64 := N_0
  have hs : s.val < cfg0.N := by rw [hN]; exact s.isLt
  unfold bsum
  rw [dif_pos hs]
  unfold blockSum rowSum
  refine Finset.sum_congr rfl fun r _ => Finset.sum_congr rfl fun o _ => ?_
  rw [pay2_apply, linArr_apply]
  dsimp only [xblk, wblk, bblk]
  rw [iblk1_eq, iblk2_eq]
  congr 1
  exact Finset.sum_congr rfl fun k _ => by rw [iblk0_apply mI c ⟨s.val, hs⟩ r k (by omega)]

/-- The 64 block sums are the sum of all the rows' sums. -/
theorem total_eq (c : Dev nD) : ∑ s ∈ Finset.range 64, bsum mI c s = ∑ n : Fin 262144, rowSum mI c n := by
  rw [Finset.sum_range, Cert.LinThr.sum_rows_by_blocks (rowSum mI c)]
  exact Finset.sum_congr rfl fun s _ => bsum_eq mI c s

end Cert.KernelIdeal.Hand

end
-- ==== Proof.KTail.lean ====
/-
  The host operations around the kernel region, read as functions.

  Before the region @main reshapes the bias (128 entries) to a 1 × 128 row. After it, @main turns the 1 × 1
  accumulator into a scalar, divides it by 262144 (the threshold), lays the threshold along the 262144 entries of
  the mask, compares, and then compacts the indices at which the mask exceeds the threshold: a running count of the
  hits, a scatter of ones at the clipped counts, a second running count, a floor division and a remainder by
  constants, and the fill value -1 past the number of hits; the 262144 results end as a 262144 × 1 column.
  None of this is opened here: every operation stays the function the program names, and the chain from the
  threshold's broadcast to the final column is stated once, as one function of the mask and the threshold.
-/
import proofs.«152341_j18279380812077_1_alg».proof.Proof.FrameI.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

variable {F : FTy → Type} [FloatOps F]

/-! ## The threshold -/

/-- The threshold from the accumulator's array: its one entry as a scalar, over the constant 262144. -/
def kThr (acc : FVec F S1x1 .f32) : FVec F S_ .f32 :=
  Host.divf (shapeCast S_ acc shapeCasts_S1x1_S_) (constant S_ .f32 0x48800000#32)

theorem kThr_def' (acc : FVec F S1x1 .f32) :
    kThr acc = Host.divf (shapeCast S_ acc shapeCasts_S1x1_S_) (constant S_ .f32 0x48800000#32) := rfl

/-- The scalar the accumulator is reshaped to is its one entry. -/
theorem reshape_acc_apply (acc : FVec F S1x1 .f32) (j : S_.Idx) :
    shapeCast S_ acc shapeCasts_S1x1_S_ j = acc (ix2 0 0) := by
  unfold shapeCast
  exact congrArg acc (funext fun a => match a with
    | ⟨0, _⟩ => Subsingleton.elim (α := Fin 1) _ _
    | ⟨1, _⟩ => Subsingleton.elim (α := Fin 1) _ _)

/-! ## The index compaction, stage by stage

Each stage is the program's operations of one stretch (or of a few adjacent ones), in program order, as a function
of the values the stretch reads from before it. -/

/-- The mask against the threshold: the threshold laid along the mask, then "greater than", entry by entry. -/
def kPred (mask : FVec F S262144 .f32) (thr : FVec F S_ .f32) : IVec S262144 1 :=
  let v4 : FVec F S262144 .f32 := broadcastInDim S262144 ![] bcast_S_S262144 thr
  cmpf .ogt mask v4

/-- The running count of the hits: the flags widened to 32 bits and summed over the window that ends at each entry. -/
def kCumsum (p : IVec S262144 1) : IVec S262144 32 :=
  let call1_v0 : IVec S262144 32 := extui 32 p natLt_1_32
  let call1_call0_c : IVec S_ 32 := constantI S_ 32 0#32
  let call1_call0_v0 : IVec S_ 32 := broadcastInDim S_ ![] bcast_S_S_ call1_call0_c
  Host.reduceWindow IntOp.addi ![262144] ![1] ![262143] ![0] call1_v0 call1_call0_v0 reduceWindows_S262144_S262144_w262144s1p262143_0 h_S_

/-- Ones scattered at the counts: the counts clipped below at zero, a negative position moved up by 262144, and a
    one added into a zero array at each position. -/
def kScatter (q : IVec S262144 32) : IVec S262144 32 :=
  let c : IVec S_ 32 := constantI S_ 32 0#32
  let v8 : IVec S262144 32 := broadcastInDim S262144 ![] bcast_S_S262144 c
  let c_0 : IVec S_ 32 := constantI S_ 32 0#32
  let call2_v0 : IVec S_ 32 := id c_0
  let call2_v1 : IVec S262144 32 := broadcastInDim S262144 ![] bcast_S_S262144 call2_v0
  let v9 : IVec S262144 32 := maxsi call2_v1 q
  let c_1 : IVec S_ 32 := constantI S_ 32 0#32
  let v10 : IVec S262144 32 := broadcastInDim S262144 ![] bcast_S_S262144 c_1
  let v11 : IVec S262144 1 := cmpi .slt v9 v10
  let c_2 : IVec S_ 32 := constantI S_ 32 262144#32
  let v12 : IVec S262144 32 := broadcastInDim S262144 ![] bcast_S_S262144 c_2
  let v13 : IVec S262144 32 := addi v9 v12
  let v14 : IVec S262144 32 := select v11 v13 v9
  let v15 : IVec S262144x1 32 := broadcastInDim S262144x1 ![0] bcast_S262144_S262144x1_0 v14
  let c_3 : IVec S_ 32 := constantI S_ 32 1#32
  let v16 : IVec S262144 32 := broadcastInDim S262144 ![] bcast_S_S262144 c_3
  Host.scatter scatter_S262144_S262144x1_S262144_n_0_0_1 IntOp.addi v8 v15 v16

/-- The running count of the scattered ones. -/
def kCumsum1 (s : IVec S262144 32) : IVec S262144 32 :=
  let call3_call0_c : IVec S_ 32 := constantI S_ 32 0#32
  let call3_call0_v0 : IVec S_ 32 := broadcastInDim S_ ![] bcast_S_S_ call3_call0_c
  Host.reduceWindow IntOp.addi ![262144] ![1] ![262143] ![0] s call3_call0_v0 reduceWindows_S262144_S262144_w262144s1p262143_0 h_S_

/-- The floor division by the constant one: the truncated quotient, less one where the signs differ and the
    remainder is not zero. -/
def kFdiv (u : IVec S262144 32) : IVec S262144 32 :=
  let c_4 : IVec S_ 32 := constantI S_ 32 1#32
  let call4_v0 : IVec S262144 32 := broadcastInDim S262144 ![] bcast_S_S262144 c_4
  let call4_v1 : IVec S262144 32 := Host.divsi u call4_v0
  let call4_v2 : IVec S262144 32 := signi u
  let call4_v3 : IVec S_ 32 := signi c_4
  let call4_v4 : IVec S262144 32 := broadcastInDim S262144 ![] bcast_S_S262144 call4_v3
  let call4_v5 : IVec S262144 1 := cmpi .ne call4_v2 call4_v4
  let call4_v6 : IVec S262144 32 := broadcastInDim S262144 ![] bcast_S_S262144 c_4
  let call4_v7 : IVec S262144 32 := Host.remsi u call4_v6
  let call4_c : IVec S_ 32 := constantI S_ 32 0#32
  let call4_v8 : IVec S262144 32 := broadcastInDim S262144 ![] bcast_S_S262144 call4_c
  let call4_v9 : IVec S262144 1 := cmpi .ne call4_v7 call4_v8
  let call4_v10 : IVec S262144 1 := andi call4_v5 call4_v9
  let call4_c_0 : IVec S_ 32 := constantI S_ 32 1#32
  let call4_v11 : IVec S262144 32 := broadcastInDim S262144 ![] bcast_S_S262144 call4_c_0
  let call4_v12 : IVec S262144 32 := subi call4_v1 call4_v11
  select call4_v10 call4_v12 call4_v1

/-- The remainder by the constant 262144, with the sign of the divisor. -/
def kRem (d : IVec S262144 32) : IVec S262144 32 :=
  let c_5 : IVec S_ 32 := constantI S_ 32 262144#32
  let call5_v0 : IVec S_ 32 := id c_5
  let call5_c : IVec S_ 32 := constantI S_ 32 0#32
  let call5_v1 : IVec S_ 1 := cmpi .eq call5_v0 call5_c
  let call5_c_0 : IVec S_ 32 := constantI S_ 32 1#32
  let call5_v2 : IVec S_ 32 := select call5_v1 call5_c_0 call5_v0
  let call5_v3 : IVec S262144 32 := broadcastInDim S262144 ![] bcast_S_S262144 call5_v2
  let call5_v4 : IVec S262144 32 := Host.remsi d call5_v3
  let call5_c_1 : IVec S_ 32 := constantI S_ 32 0#32
  let call5_v5 : IVec S262144 32 := broadcastInDim S262144 ![] bcast_S_S262144 call5_c_1
  let call5_v6 : IVec S262144 1 := cmpi .ne call5_v4 call5_v5
  let call5_c_2 : IVec S_ 32 := constantI S_ 32 0#32
  let call5_v7 : IVec S262144 32 := broadcastInDim S262144 ![] bcast_S_S262144 call5_c_2
  let call5_v8 : IVec S262144 1 := cmpi .slt call5_v4 call5_v7
  let call5_c_3 : IVec S_ 32 := constantI S_ 32 0#32
  let call5_v9 : IVec S_ 1 := cmpi .slt call5_v2 call5_c_3
  let call5_v10 : IVec S262144 1 := broadcastInDim S262144 ![] bcast_S_S262144 call5_v9
  let call5_v11 : IVec S262144 1 := cmpi .ne call5_v8 call5_v10
  let call5_v12 : IVec S262144 1 := andi call5_v11 call5_v6
  let call5_v13 : IVec S262144 32 := broadcastInDim S262144 ![] bcast_S_S262144 call5_v2
  let call5_v14 : IVec S262144 32 := addi call5_v4 call5_v13
  select call5_v12 call5_v14 call5_v4

/-- The fill and the final shape: positions at or past the number of hits take -1, and the 262144 results are laid
    as a 262144 × 1 column. -/
def kFill (p : IVec S262144 1) (r : IVec S262144 32) : IVec S262144x1 32 :=
  let v21 : IVec S262144 32 := iotaInDim S262144 32 0
  let v22 : IVec S262144 32 := extui 32 p natLt_1_32
  let c_6 : IVec S_ 32 := constantI S_ 32 0#32
  let v23 : IVec S_ 32 := Host.reduce IntOp.addi v22 c_6 reducesTo_S262144_S_d0 h_S_
  let v24 : IVec S262144 32 := broadcastInDim S262144 ![] bcast_S_S262144 v23
  let v25 : IVec S262144 1 := cmpi .sge v21 v24
  let c_7 : IVec S_ 32 := constantI S_ 32 4294967295#32
  let call6_v0 : IVec S_ 32 := id c_7
  let call6_v1 : IVec S262144 32 := broadcastInDim S262144 ![] bcast_S_S262144 call6_v0
  let v26 : IVec S262144 32 := select v25 call6_v1 r
  let v27 : IVec S1x262144 32 := broadcastInDim S1x262144 ![1] bcast_S262144_S1x262144_1 v26
  transpose S262144x1 [1, 0] v27 transposes_S1x262144_S262144x1_1_0

/-- The compaction as one function of the mask and the threshold: the seven stages in program order, the flags
    feeding both the first running count and the fill. -/
def kIdxFrom (mask : FVec F S262144 .f32) (thr : FVec F S_ .f32) : IVec S262144x1 32 :=
  let p := kPred mask thr
  kFill p (kRem (kFdiv (kCumsum1 (kScatter (kCumsum p)))))

/-! ## The stretches after the region, read stage by stage

The fourteen stretches are grouped as the stages are. Over any contents `W` of the buffers, running a group leaves
its stage's value in its last buffer, and leaves the flags' buffer alone when the group comes after the first. -/

/-- The operations of each stage. -/
def ops1 : List (HloOp τ sig (Elt F)) := hostOps1
def ops2 : List (HloOp τ sig (Elt F)) := hostOps1_1
def ops3 : List (HloOp τ sig (Elt F)) := hostOps1_2 ++ (hostOps1_3 ++ hostOps1_4)
def ops4 : List (HloOp τ sig (Elt F)) := hostOps1_5
def ops5 : List (HloOp τ sig (Elt F)) := hostOps1_6 ++ hostOps1_7
def ops6 : List (HloOp τ sig (Elt F)) := hostOps1_8 ++ hostOps1_9
def ops7 : List (HloOp τ sig (Elt F)) := hostOps1_10 ++ (hostOps1_11 ++ (hostOps1_12 ++ hostOps1_13))

/-- The stretches in a row are the seven groups in a row. -/
theorem tail_flatten : List.flatten (tailOpss (F := F)) = ops1 ++ (ops2 ++ (ops3 ++ (ops4 ++ (ops5 ++ (ops6 ++ ops7))))) := by
  simp only [tailOpss, ops1, ops2, ops3, ops4, ops5, ops6, ops7, List.flatten_cons, List.flatten_nil, List.append_nil, List.append_assoc]

/-- The first group: the accumulator to the threshold, and the mask against it. -/
theorem read1 (W : Valuation τ sig (Elt F)) :
    StableHlo.after ops1 W (Proc.devRef .tc main_v5) = kPred (W (Proc.devRef .tc main_arg1)) (kThr (W (Proc.devRef .tc main_v1_1))) := by
  unfold ops1
  after_results
  rfl

attribute [local irreducible] Host.reduceWindow in
theorem read2 (W : Valuation τ sig (Elt F)) :
    StableHlo.after ops2 W (Proc.devRef .tc main_v7) = kCumsum (W (Proc.devRef .tc main_v5)) := by
  unfold ops2
  after_results
  rfl
theorem keep2 (W : Valuation τ sig (Elt F)) :
    StableHlo.after ops2 W (Proc.devRef .tc main_v5) = W (Proc.devRef .tc main_v5) := by
  unfold ops2
  after_results

attribute [local irreducible] Host.scatter in
theorem read3 (W : Valuation τ sig (Elt F)) :
    StableHlo.after ops3 W (Proc.devRef .tc main_v17) = kScatter (W (Proc.devRef .tc main_v7)) := by
  unfold ops3
  simp only [hostOps1_2, hostOps1_3, hostOps1_4, List.cons_append, List.nil_append]
  after_results
  rfl
theorem keep3 (W : Valuation τ sig (Elt F)) :
    StableHlo.after ops3 W (Proc.devRef .tc main_v5) = W (Proc.devRef .tc main_v5) := by
  unfold ops3
  simp only [hostOps1_2, hostOps1_3, hostOps1_4, List.cons_append, List.nil_append]
  after_results

attribute [local irreducible] Host.reduceWindow in
theorem read4 (W : Valuation τ sig (Elt F)) :
    StableHlo.after ops4 W (Proc.devRef .tc main_v18) = kCumsum1 (W (Proc.devRef .tc main_v17)) := by
  unfold ops4
  after_results
  rfl
theorem keep4 (W : Valuation τ sig (Elt F)) :
    StableHlo.after ops4 W (Proc.devRef .tc main_v5) = W (Proc.devRef .tc main_v5) := by
  unfold ops4
  after_results

theorem read5 (W : Valuation τ sig (Elt F)) :
    StableHlo.after ops5 W (Proc.devRef .tc main_v19) = kFdiv (W (Proc.devRef .tc main_v18)) := by
  unfold ops5
  simp only [hostOps1_6, hostOps1_7, List.cons_append, List.nil_append]
  after_results_simp
  rfl
theorem keep5 (W : Valuation τ sig (Elt F)) :
    StableHlo.after ops5 W (Proc.devRef .tc main_v5) = W (Proc.devRef .tc main_v5) := by
  unfold ops5
  simp only [hostOps1_6, hostOps1_7, List.cons_append, List.nil_append]
  after_results

theorem read6 (W : Valuation τ sig (Elt F)) :
    StableHlo.after ops6 W (Proc.devRef .tc main_v20) = kRem (W (Proc.devRef .tc main_v19)) := by
  unfold ops6
  simp only [hostOps1_8, hostOps1_9, List.cons_append, List.nil_append]
  after_results_simp
  rfl
theorem keep6 (W : Valuation τ sig (Elt F)) :
    StableHlo.after ops6 W (Proc.devRef .tc main_v5) = W (Proc.devRef .tc main_v5) := by
  unfold ops6
  simp only [hostOps1_8, hostOps1_9, List.cons_append, List.nil_append]
  after_results

attribute [local irreducible] Host.reduce in
theorem read7 (W : Valuation τ sig (Elt F)) :
    StableHlo.after ops7 W (Proc.devRef .tc main_v28) = kFill (W (Proc.devRef .tc main_v5)) (W (Proc.devRef .tc main_v20)) := by
  unfold ops7
  simp only [hostOps1_10, hostOps1_11, hostOps1_12, hostOps1_13, List.cons_append, List.nil_append]
  after_results
  rfl

/-- The fourteen stretches in a row, over any contents: the final column is the compaction of the mask's buffer
    against the threshold of the accumulator's. The flags are read where the first group leaves them, by the second
    group and, through the five groups between that do not write them, by the last. -/
theorem tail_read (W : Valuation τ sig (Elt F)) :
    StableHlo.after (List.flatten (tailOpss (F := F))) W (Proc.devRef .tc main_v28)
      = kIdxFrom (W (Proc.devRef .tc main_arg1)) (kThr (W (Proc.devRef .tc main_v1_1))) := by
  rw [tail_flatten, StableHlo.after_append, StableHlo.after_append, StableHlo.after_append, StableHlo.after_append,
    StableHlo.after_append, StableHlo.after_append]
  rw [read7, read6, read5, read4, read3, read2, keep6, keep5, keep4, keep3, keep2, read1]
  rfl

variable (m : (ℓ : Loc nD τ sig) → Buf (Elt F) ℓ)

/-- After @main the last buffer holds the compaction of the mask against the threshold of the accumulator's array as
    the region leaves it: the region's exit contents differ from its entry contents only at the region's arrays, of
    which the stretches read the accumulator's; the mask's buffer is no array of the region. -/
theorem tail_idx (dats : (p : Fin 1) → (c : Dev nD) → Dat τ (Elt F) Unit ℕ (UR sig nD τ) ℕ (cfgs p) c) (c : Dev nD) :
    Pipeline.afterTail₀ cfgs dats 0 (V0 m) tailOpss c main_v28 = kIdxFrom (V m c main_arg1) (kThr ((dats 0 c).arrAt 4 cfg0.N)) := by
  unfold Pipeline.afterTail₀
  refine (tail_read _).trans ?_
  have h1 : Pipeline.withArrays (cfgs 0).spec c (V0 m c) (fun w => (dats 0 c).arrAt w (cfgs 0).N) (Proc.devRef .tc main_arg1) = V m c main_arg1 :=
    Pipeline.withArrays_of_ne _ c (V0 m c) _ main_arg1 (by decide)
  have h4 : Pipeline.withArrays (cfgs 0).spec c (V0 m c) (fun w => (dats 0 c).arrAt w (cfgs 0).N) (Proc.devRef .tc main_v1_1) = (dats 0 c).arrAt 4 cfg0.N :=
    Pipeline.withArrays_arr spec0 launch0.win.arr_inj c _ _ 4
  rw [h1, h4]

/-! ## The bias row the region reads -/

/-- The 1 × 128 row the region finds in the bias's window is the bias argument, entry by entry: the one operation
    before the region reshapes the 128 entries to a row. -/
theorem V_main_v0_apply (c : Dev nD) (o : Fin 128) :
    (V m c main_v0 : Vec F S1x128 .f32) (ix2 0 o) = (m ((c : Thread nD τ).loc main_arg3) : Vec F S128 .f32) (ix1 o) := by
  have e : (V m c main_v0 : Vec F S1x128 .f32)
      = shapeCast S1x128 (m ((c : Thread nD τ).loc main_arg3) : Vec F S128 .f32) shapeCasts_S128_S1x128 := by
    show StableHlo.after hostOps0 (fun b => m (c, b)) (Proc.devRef .tc main_v0) = _
    after_results
    rfl
  rw [e]
  exact shapeCast_a_1a_apply _ _ 0 o

end Cert.KernelIdeal.Hand

end
-- ==== Proof.RefDefs.lean ====
/-
  The reference's three float stages, named: the linear layer as it spells it (a contraction of the two
  second axes, the bias laid along the rows), the sum of all its entries (rows first, then the column of row
  sums, each from zero) and the mean of the row sums (that total over the number of rows, 262144).
-/
import proofs.«152341_j18279380812077_1_alg».proof.ReferenceIdeal
import proofs.«152341_j18279380812077_1_alg».proof.Proof.Gen.ReferenceIdeal

noncomputable section

namespace Cert.ReferenceIdeal.Hand

open Idealize.ShloMosaic Cert.ReferenceIdeal
open Cert.ReferenceIdeal.Facts₀ Cert.ReferenceIdeal.Facts

variable {F : FTy → Type} [FloatOps F]

/-- `x · Wᵀ + b`: entry (n, o) contracts row n of `x` with row o of `W` and adds `b o`. -/
def refOut (x : FVec F S262144x512 .f32) (W : FVec F S128x512 .f32) (b : FVec F S128 .f32) : FVec F S262144x128 .f32 :=
  addf (Host.dotGeneral dot_S262144x512_S128x512_S262144x128_1_1_0_0_n_n none x W)
    (broadcastInDim S262144x128 ![0, 1] bcast_S1x128_S262144x128_0_1 (broadcastInDim S1x128 ![1] bcast_S128_S1x128_1 b))

/-- The sum of every entry: each row summed from zero, then the row sums summed from zero. -/
def refTotal (y : FVec F S262144x128 .f32) : FVec F S_ .f32 :=
  Host.reduceAdd (Host.reduceAdd y (constant S_ .f32 0x00000000#32) reducesTo_S262144x128_S262144_d1 h_S_)
    (constant S_ .f32 0x00000000#32) reducesTo_S262144_S_d0 h_S_

/-- The mean of the row sums: the total over 262144. -/
def refThr (s : FVec F S_ .f32) : FVec F S_ .f32 := Host.divf s (constant S_ .f32 0x48800000#32)

end Cert.ReferenceIdeal.Hand

end
-- ==== Proof.RefRead.lean ====
/-
  The reference's float stages read at an index, at the ideal values (extended reals, every operation exact).

  * Entry (n, o) of the linear layer is the sum over the 512 contracted positions k of x(n, k) · W(o, k), plus b(o):
    the contraction pairs the two operands' second axes, the left operand's first axis is the result's first, the
    right operand's first axis is the result's second; the bias is first laid out as one row and that row is then
    repeated down the 262144 rows, so at (n, o) it reads b(o).
  * The total is the sum over the rows n of the sum over the columns o of the entries: each of the two sums starts
    from the zero word, whose value is 0, and 0 + s = s.

  Only the definitions of the operations and 0 + s = s are used; nothing needs the values to be finite.
-/
import proofs.«152341_j18279380812077_1_alg».proof.Proof.RefDefs
import Idealize.ShloMosaic.PureOps.Ideal.Laws
import Idealize.ShloMosaic.Lib.ValueIdx
import Idealize.ShloMosaic.Lib.ValueIdxRank1
import Idealize.ShloMosaic.Lib.Pipeline.Value

noncomputable section

namespace Cert.ReferenceIdeal.Hand

open Idealize.ShloMosaic Idealize.ShloMosaic.ValueIdx Cert.ReferenceIdeal
open Cert.ReferenceIdeal.Facts₀ Cert.ReferenceIdeal.Facts
open scoped BigOperators

/-! ## The contraction's operand indices, axis by axis -/

/-- The left operand's row is the result's row: axis 0 of `x` is its one free axis, first among the result's axes. -/
theorem lhs_row (i : S262144x128.Idx) (q : dot_S262144x512_S128x512_S262144x128_1_1_0_0_n_n.contr.Idx) :
    (dot_S262144x512_S128x512_S262144x128_1_1_0_0_n_n.lhsIdx i q 0).val = (i 0).val := by
  unfold DotDims.lhsIdx
  rw [dif_neg (show ¬(0 : Fin S262144x512.rank) ∈ dot_S262144x512_S128x512_S262144x128_1_1_0_0_n_n.lhsBatch by decide),
    dif_pos (show (0 : Fin S262144x512.rank) ∈ dot_S262144x512_S128x512_S262144x128_1_1_0_0_n_n.lhsNonContracting by decide)]
  rfl

/-- The left operand's column is the contracted position: axis 1 of `x` is the one contracted axis. -/
theorem lhs_col (i : S262144x128.Idx) (q : dot_S262144x512_S128x512_S262144x128_1_1_0_0_n_n.contr.Idx) :
    (dot_S262144x512_S128x512_S262144x128_1_1_0_0_n_n.lhsIdx i q 1).val = (q ⟨0, by decide⟩).val :=
  dot_S262144x512_S128x512_S262144x128_1_1_0_0_n_n.lhsIdx_val_of_single rfl i q

/-- The right operand's row is the result's column: axis 0 of `W` is its one free axis, after the left operand's. -/
theorem rhs_row (i : S262144x128.Idx) (q : dot_S262144x512_S128x512_S262144x128_1_1_0_0_n_n.contr.Idx) :
    (dot_S262144x512_S128x512_S262144x128_1_1_0_0_n_n.rhsIdx i q 0).val = (i 1).val := by
  unfold DotDims.rhsIdx
  rw [dif_neg (show ¬(0 : Fin S128x512.rank) ∈ dot_S262144x512_S128x512_S262144x128_1_1_0_0_n_n.rhsBatch by decide),
    dif_pos (show (0 : Fin S128x512.rank) ∈ dot_S262144x512_S128x512_S262144x128_1_1_0_0_n_n.rhsNonContracting by decide)]
  rfl

/-- The right operand's column is the contracted position: axis 1 of `W` is the one contracted axis. -/
theorem rhs_col (i : S262144x128.Idx) (q : dot_S262144x512_S128x512_S262144x128_1_1_0_0_n_n.contr.Idx) :
    (dot_S262144x512_S128x512_S262144x128_1_1_0_0_n_n.rhsIdx i q 1).val = (q ⟨0, by decide⟩).val :=
  dot_S262144x512_S128x512_S262144x128_1_1_0_0_n_n.rhsIdx_val_of_single rfl i q

/-! ## The contraction at an entry -/

/-- Entry (n, o) of the contraction: the sum over k of x(n, k) · W(o, k). -/
theorem dot_apply (x : FVec Ideal S262144x512 .f32) (W : FVec Ideal S128x512 .f32) (n : Fin 262144) (o : Fin 128) :
    Host.dotGeneral (F := Ideal) dot_S262144x512_S128x512_S262144x128_1_1_0_0_n_n none x W (ix2 n o)
      = ∑ k : Fin 512, x (ix2 n k) * W (ix2 o k) := by
  simp only [Host.dotGeneral]
  rw [Ideal.dotGeneral_apply, ← Equiv.sum_comp (contrEquiv1 dot_S262144x512_S128x512_S262144x128_1_1_0_0_n_n 512 rfl rfl).symm]
  refine Finset.sum_congr rfl fun k _ => ?_
  have hk := contrEquiv1_symm_val dot_S262144x512_S128x512_S262144x128_1_1_0_0_n_n 512 rfl rfl k
  have hx : dot_S262144x512_S128x512_S262144x128_1_1_0_0_n_n.lhsIdx (ix2 n o) ((contrEquiv1 dot_S262144x512_S128x512_S262144x128_1_1_0_0_n_n 512 rfl rfl).symm k) = ix2 n k :=
    funext fun a => Fin.ext (by
      match a with
      | ⟨0, _⟩ => exact lhs_row _ _
      | ⟨1, _⟩ => exact (lhs_col _ _).trans hk)
  have hW : dot_S262144x512_S128x512_S262144x128_1_1_0_0_n_n.rhsIdx (ix2 n o) ((contrEquiv1 dot_S262144x512_S128x512_S262144x128_1_1_0_0_n_n 512 rfl rfl).symm k) = ix2 o k :=
    funext fun a => Fin.ext (by
      match a with
      | ⟨0, _⟩ => exact rhs_row _ _
      | ⟨1, _⟩ => exact (rhs_col _ _).trans hk)
  rw [hx, hW]

/-! ## The bias at an entry -/

/-- The bias laid out as one row and repeated down the rows reads b(o) at (n, o). -/
theorem bias_apply (b : FVec Ideal S128 .f32) (n : Fin 262144) (o : Fin 128) :
    broadcastInDim S262144x128 ![0, 1] bcast_S1x128_S262144x128_0_1 (broadcastInDim S1x128 ![1] bcast_S128_S1x128_1 b) (ix2 n o)
      = b (ix1 o) := by
  -- the outer copy reads the one row at column o: the operand's first axis has extent one, its second is the result's second
  refine (broadcastInDim_apply ![0, 1] bcast_S1x128_S262144x128_0_1 _ (ix2 n o) (ix2 (0 : Fin 1) o)
    (fun a => by match a with | ⟨0, _⟩ => rfl | ⟨1, _⟩ => rfl)).trans ?_
  -- the inner copy reads b at the row's column
  exact broadcastInDim_apply ![1] bcast_S128_S1x128_1 b (ix2 (0 : Fin 1) o) (ix1 o)
    (fun a => by match a with | ⟨0, _⟩ => rfl)

/-! ## The linear layer at an entry -/

theorem refOut_apply (x : FVec Ideal S262144x512 .f32) (W : FVec Ideal S128x512 .f32) (b : FVec Ideal S128 .f32)
    (n : Fin 262144) (o : Fin 128) :
    refOut (F := Ideal) x W b (ix2 n o) = (∑ k : Fin 512, x (ix2 n k) * W (ix2 o k)) + b (ix1 o) := by
  unfold refOut
  rw [addf_apply, dot_apply, bias_apply]

/-! ## The total -/

/-- Row n's sum from zero: the sum over the columns o of the entries of row n. -/
theorem rowSum_apply (y : FVec Ideal S262144x128 .f32) (n : Fin 262144) :
    Host.reduceAdd (F := Ideal) y (constant (F := Ideal) S_ .f32 0x00000000#32) reducesTo_S262144x128_S262144_d1 h_S_ (ix1 n)
      = ∑ o : Fin 128, y (ix2 n o) := by
  simp only [Host.reduceAdd, Ideal.hostReduceAdd_def]
  rw [Ideal.hostReduceAdd_single reducesTo_S262144x128_S262144_d1 (by decide), constant_apply, Ideal.ofBits_zero_f32, zero_add]
  refine Finset.sum_congr rfl fun o _ => ?_
  exact congrArg y (funext fun a => Fin.ext (by match a with | ⟨0, _⟩ => rfl | ⟨1, _⟩ => rfl))

/-- The row sums' sum from zero: the sum over the rows n of the n-th row sum. -/
theorem sumRows_apply (v : FVec Ideal S262144 .f32) (j : S_.Idx) :
    Host.reduceAdd (F := Ideal) v (constant (F := Ideal) S_ .f32 0x00000000#32) reducesTo_S262144_S_d0 h_S_ j
      = ∑ n : Fin 262144, v (ix1 n) := by
  simp only [Host.reduceAdd, Ideal.hostReduceAdd_def]
  -- the result has no axis left, so its one entry is the zero word's value plus the sum over every index of the column
  rw [Ideal.hostReduceAdd_total reducesTo_S262144_S_d0 (fun b => b.elim0), constant_apply, Ideal.ofBits_zero_f32, zero_add,
    ← Equiv.sum_comp (idxEquiv1 (n := 262144)).symm]
  rfl

theorem refTotal_apply (y : FVec Ideal S262144x128 .f32) (j : S_.Idx) :
    refTotal (F := Ideal) y j = ∑ n : Fin 262144, ∑ o : Fin 128, y (ix2 n o) := by
  unfold refTotal
  rw [sumRows_apply]
  exact Finset.sum_congr rfl fun n _ => rowSum_apply y n

end Cert.ReferenceIdeal.Hand

end
-- ==== Proof.RefRun.lean ====
/-
  The reference's run, read back. The reference is a straight line of tensor operations: the linear layer
  x · Wᵀ + b, the mean of its row sums as a threshold, and the positions at which the mask exceeds the threshold,
  gathered to the front and padded with -1: a running count of the hits, one scattered mark per count value, a
  second running count, a floored quotient by one and a floored remainder by the length, then the padding select
  and the turn into a column. The functions it calls are laid out inline at their call sites, each over the
  buffers of that call. The chain is cut into seven stages, each a function of the stage before; the program is
  cut at the same places, each stretch read back from arbitrary contents and shown to write only its own buffers.
  From any memory, every execution ends with each result buffer at the composed term of the arguments'
  contents, the arguments unchanged.
-/
import proofs.«152341_j18279380812077_1_alg».proof.ReferenceIdeal
import proofs.«152341_j18279380812077_1_alg».proof.Proof.Gen.ReferenceIdeal
import proofs.«152341_j18279380812077_1_alg».proof.Proof.RefDefs
import Idealize.ShloMosaic.Lib.StableHlo.Run
import Idealize.ShloMosaic.Lib.Pipeline.Frame

noncomputable section

namespace Cert.ReferenceIdeal.Hand

open Idealize.ShloMosaic Idealize.ShloMosaic.TcCoe Idealize.SL.Sem Idealize.ShloMosaic.StableHlo
open Cert.ReferenceIdeal
open Cert.ReferenceIdeal.Facts₀ Cert.ReferenceIdeal.Facts

variable {F : FTy → Type} [FloatOps F]

/-! ## The chain of integer operations, stage by stage

Each stage lists its operations in program order, every right side the operation's function over the values
before it, the constants among them. -/

/-- Where the mask exceeds the threshold: the threshold laid along the mask, then the ordered comparison. -/
def rPred (mask : FVec F S262144 .f32) (thr : FVec F S_ .f32) : IVec S262144 1 :=
  let v7 : FVec F S262144 .f32 := broadcastInDim S262144 ![] bcast_S_S262144 thr
  let v8 : IVec S262144 1 := cmpf .ogt mask v7
  v8

/-- The running count of the hits: the bits widened to integers, then every prefix summed from zero (a window of the whole length, padded on the left). -/
def rCumsum (p : IVec S262144 1) : IVec S262144 32 :=
  let call1_v0 : IVec S262144 32 := extui 32 p natLt_1_32
  let call1_call0_c : IVec S_ 32 := constantI S_ 32 0#32
  let call1_call0_v0 : IVec S_ 32 := broadcastInDim S_ ![] bcast_S_S_ call1_call0_c
  let v10 : IVec S262144 32 := Host.reduceWindow IntOp.addi ![262144] ![1] ![262143] ![0] call1_v0 call1_call0_v0 reduceWindows_S262144_S262144_w262144s1p262143_0 h_S_
  v10

/-- One mark per position at its running count: the counts kept at zero or above, a negative one wrapped by the length, laid as a column of indices, and ones added into zeros at those indices. -/
def rScatter (q : IVec S262144 32) : IVec S262144 32 :=
  let c : IVec S_ 32 := constantI S_ 32 0#32
  let v11 : IVec S262144 32 := broadcastInDim S262144 ![] bcast_S_S262144 c
  let c_2 : IVec S_ 32 := constantI S_ 32 0#32
  let call2_v0 : IVec S_ 32 := id c_2
  let call2_v1 : IVec S262144 32 := broadcastInDim S262144 ![] bcast_S_S262144 call2_v0
  let v12 : IVec S262144 32 := maxsi call2_v1 q
  let c_3 : IVec S_ 32 := constantI S_ 32 0#32
  let v13 : IVec S262144 32 := broadcastInDim S262144 ![] bcast_S_S262144 c_3
  let v14 : IVec S262144 1 := cmpi .slt v12 v13
  let c_4 : IVec S_ 32 := constantI S_ 32 262144#32
  let v15 : IVec S262144 32 := broadcastInDim S262144 ![] bcast_S_S262144 c_4
  let v16 : IVec S262144 32 := addi v12 v15
  let v17 : IVec S262144 32 := select v14 v16 v12
  let v18 : IVec S262144x1 32 := broadcastInDim S262144x1 ![0] bcast_S262144_S262144x1_0 v17
  let c_5 : IVec S_ 32 := constantI S_ 32 1#32
  let v19 : IVec S262144 32 := broadcastInDim S262144 ![] bcast_S_S262144 c_5
  let v20 : IVec S262144 32 := Host.scatter scatter_S262144_S262144x1_S262144_n_0_0_1 IntOp.addi v11 v18 v19
  v20

/-- The running count of the marks. -/
def rCumsum1 (s : IVec S262144 32) : IVec S262144 32 :=
  let call3_call0_c : IVec S_ 32 := constantI S_ 32 0#32
  let call3_call0_v0 : IVec S_ 32 := broadcastInDim S_ ![] bcast_S_S_ call3_call0_c
  let v21 : IVec S262144 32 := Host.reduceWindow IntOp.addi ![262144] ![1] ![262143] ![0] s call3_call0_v0 reduceWindows_S262144_S262144_w262144s1p262143_0 h_S_
  v21

/-- The floored quotient by one: the truncated quotient, less one where the signs differ and the remainder is not zero. -/
def rFdiv (u : IVec S262144 32) : IVec S262144 32 :=
  let c_6 : IVec S_ 32 := constantI S_ 32 1#32
  let call4_v0 : IVec S262144 32 := broadcastInDim S262144 ![] bcast_S_S262144 c_6
  let call4_v1 : IVec S262144 32 := Host.divsi u call4_v0
  let call4_v2 : IVec S262144 32 := signi u
  let call4_v3 : IVec S_ 32 := signi c_6
  let call4_v4 : IVec S262144 32 := broadcastInDim S262144 ![] bcast_S_S262144 call4_v3
  let call4_v5 : IVec S262144 1 := cmpi .ne call4_v2 call4_v4
  let call4_v6 : IVec S262144 32 := broadcastInDim S262144 ![] bcast_S_S262144 c_6
  let call4_v7 : IVec S262144 32 := Host.remsi u call4_v6
  let call4_c : IVec S_ 32 := constantI S_ 32 0#32
  let call4_v8 : IVec S262144 32 := broadcastInDim S262144 ![] bcast_S_S262144 call4_c
  let call4_v9 : IVec S262144 1 := cmpi .ne call4_v7 call4_v8
  let call4_v10 : IVec S262144 1 := andi call4_v5 call4_v9
  let call4_c_0 : IVec S_ 32 := constantI S_ 32 1#32
  let call4_v11 : IVec S262144 32 := broadcastInDim S262144 ![] bcast_S_S262144 call4_c_0
  let call4_v12 : IVec S262144 32 := subi call4_v1 call4_v11
  let v22 : IVec S262144 32 := select call4_v10 call4_v12 call4_v1
  v22

/-- The floored remainder by the length 262144 (a zero divisor read as one): the truncated remainder, plus the divisor where it is not zero and its sign differs from the divisor's. -/
def rRem (d : IVec S262144 32) : IVec S262144 32 :=
  let c_7 : IVec S_ 32 := constantI S_ 32 262144#32
  let call5_v0 : IVec S_ 32 := id c_7
  let call5_c : IVec S_ 32 := constantI S_ 32 0#32
  let call5_v1 : IVec S_ 1 := cmpi .eq call5_v0 call5_c
  let call5_c_0 : IVec S_ 32 := constantI S_ 32 1#32
  let call5_v2 : IVec S_ 32 := select call5_v1 call5_c_0 call5_v0
  let call5_v3 : IVec S262144 32 := broadcastInDim S262144 ![] bcast_S_S262144 call5_v2
  let call5_v4 : IVec S262144 32 := Host.remsi d call5_v3
  let call5_c_1 : IVec S_ 32 := constantI S_ 32 0#32
  let call5_v5 : IVec S262144 32 := broadcastInDim S262144 ![] bcast_S_S262144 call5_c_1
  let call5_v6 : IVec S262144 1 := cmpi .ne call5_v4 call5_v5
  let call5_c_2 : IVec S_ 32 := constantI S_ 32 0#32
  let call5_v7 : IVec S262144 32 := broadcastInDim S262144 ![] bcast_S_S262144 call5_c_2
  let call5_v8 : IVec S262144 1 := cmpi .slt call5_v4 call5_v7
  let call5_c_3 : IVec S_ 32 := constantI S_ 32 0#32
  let call5_v9 : IVec S_ 1 := cmpi .slt call5_v2 call5_c_3
  let call5_v10 : IVec S262144 1 := broadcastInDim S262144 ![] bcast_S_S262144 call5_v9
  let call5_v11 : IVec S262144 1 := cmpi .ne call5_v8 call5_v10
  let call5_v12 : IVec S262144 1 := andi call5_v11 call5_v6
  let call5_v13 : IVec S262144 32 := broadcastInDim S262144 ![] bcast_S_S262144 call5_v2
  let call5_v14 : IVec S262144 32 := addi call5_v4 call5_v13
  let v23 : IVec S262144 32 := select call5_v12 call5_v14 call5_v4
  v23

/-- The result column: positions from the number of hits on are set to -1, the rest keep r; the row is then turned into a column. -/
def rFill (p : IVec S262144 1) (r : IVec S262144 32) : IVec S262144x1 32 :=
  let v24 : IVec S262144 32 := iotaInDim S262144 32 0
  let v25 : IVec S262144 32 := extui 32 p natLt_1_32
  let c_8 : IVec S_ 32 := constantI S_ 32 0#32
  let v26 : IVec S_ 32 := Host.reduce IntOp.addi v25 c_8 reducesTo_S262144_S_d0 h_S_
  let v27 : IVec S262144 32 := broadcastInDim S262144 ![] bcast_S_S262144 v26
  let v28 : IVec S262144 1 := cmpi .sge v24 v27
  let c_9 : IVec S_ 32 := constantI S_ 32 4294967295#32
  let call6_v0 : IVec S_ 32 := id c_9
  let call6_v1 : IVec S262144 32 := broadcastInDim S262144 ![] bcast_S_S262144 call6_v0
  let v29 : IVec S262144 32 := select v28 call6_v1 r
  let v30 : IVec S1x262144 32 := broadcastInDim S1x262144 ![1] bcast_S262144_S1x262144_1 v29
  transpose S262144x1 [1, 0] v30 transposes_S1x262144_S262144x1_1_0

/-- The positions where the mask exceeds the threshold, as one function of the two. With k the number of
    hits, entry j of the result is the position of the j-th hit for j < k, and -1 from k on. -/
def refIdx (mask : FVec F S262144 .f32) (thr : FVec F S_ .f32) : IVec S262144x1 32 :=
  let p := rPred mask thr
  rFill p (rRem (rFdiv (rCumsum1 (rScatter (rCumsum p)))))

/-! ## The program's operations, stretch by stretch -/

/-- A written buffer that is on a list is inside the list's set. -/
theorem writes_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.2 (List.mem_toFinset.2 (List.mem_map_of_mem h))

/-- A property of every element of two lists holds of every element of the two in a row. -/
theorem forall_append' {α : Type} {p : α → Prop} {l₁ l₂ : List α} (h₁ : l₁.Forall p) (h₂ : l₂.Forall p) :
    (l₁ ++ l₂).Forall p :=
  List.forall_iff_forall_mem.2 fun a ha =>
    (List.mem_append.1 ha).elim (List.forall_iff_forall_mem.1 h₁ a) (List.forall_iff_forall_mem.1 h₂ a)

/-- The float stretch: the linear layer, the two sums from zero, the division by the number of rows. -/
abbrev opsA : List (HloOp τ sig (Elt F)) :=
  [ binary main_arg0 main_arg2 main_v0 ((fun l r => Host.dotGeneral dot_S262144x512_S128x512_S262144x128_1_1_0_0_n_n none l r) : (⟨S262144x512, .f32⟩ : BufTy).Contents (Elt F) → (⟨S128x512, .f32⟩ : BufTy).Contents (Elt F) → (⟨S262144x128, .f32⟩ : BufTy).Contents (Elt F)),
    unary main_arg3 main_v1 (broadcastInDim S1x128 ![1] bcast_S128_S1x128_1 : (⟨S128, .f32⟩ : BufTy).Contents (Elt F) → (⟨S1x128, .f32⟩ : BufTy).Contents (Elt F)),
    unary main_v1 main_v2 (broadcastInDim S262144x128 ![0, 1] bcast_S1x128_S262144x128_0_1 : (⟨S1x128, .f32⟩ : BufTy).Contents (Elt F) → (⟨S262144x128, .f32⟩ : BufTy).Contents (Elt F)),
    binary main_v0 main_v2 main_v3 (addf : (⟨S262144x128, .f32⟩ : BufTy).Contents (Elt F) → (⟨S262144x128, .f32⟩ : BufTy).Contents (Elt F) → (⟨S262144x128, .f32⟩ : BufTy).Contents (Elt F)),
    nullary main_cst (constant S_ .f32 0x00000000#32),
    binary main_v3 main_cst main_v4 ((fun x v => Host.reduceAdd x v reducesTo_S262144x128_S262144_d1 h_S_) : (⟨S262144x128, .f32⟩ : BufTy).Contents (Elt F) → (⟨S_, .f32⟩ : BufTy).Contents (Elt F) → (⟨S262144, .f32⟩ : BufTy).Contents (Elt F)),
    nullary main_cst_0 (constant S_ .f32 0x00000000#32),
    binary main_v4 main_cst_0 main_v5 ((fun x v => Host.reduceAdd x v reducesTo_S262144_S_d0 h_S_) : (⟨S262144, .f32⟩ : BufTy).Contents (Elt F) → (⟨S_, .f32⟩ : BufTy).Contents (Elt F) → (⟨S_, .f32⟩ : BufTy).Contents (Elt F)),
    nullary main_cst_1 (constant S_ .f32 0x48800000#32),
    binary main_v5 main_cst_1 main_v6 (Host.divf : (⟨S_, .f32⟩ : BufTy).Contents (Elt F) → (⟨S_, .f32⟩ : BufTy).Contents (Elt F) → (⟨S_, .f32⟩ : BufTy).Contents (Elt F)) ]
theorem opsA_sub : (opsA : List (HloOp τ sig (Elt F))).Forall fun op => op.bufs ⊆ tcRefs τ sig :=
  ⟨binary_bufs_sub .., unary_bufs_sub .., unary_bufs_sub .., binary_bufs_sub .., nullary_bufs_sub .., binary_bufs_sub ..,
    nullary_bufs_sub .., binary_bufs_sub .., nullary_bufs_sub .., binary_bufs_sub ..⟩
theorem opsA_fresh : (opsA : List (HloOp τ sig (Elt F))).Forall fun op => op.fresh = ∅ :=
  ⟨rfl, rfl, rfl, rfl, rfl, rfl,
    rfl, rfl, rfl, rfl⟩
/-- The buffers that stretch writes. -/
abbrev opsA_W : List (Ref sig .tc) := [main_v0, main_v1, main_v2, main_v3, main_cst, main_v4, main_cst_0, main_v5, main_cst_1, main_v6]
theorem opsA_writes : (opsA : List (HloOp τ sig (Elt F))).Forall fun op => op.writes ⊆ (opsA_W.map (Proc.devRef (τ := τ) .tc)).toFinset :=
  ⟨writes_of_mem (by decide), writes_of_mem (by decide), writes_of_mem (by decide), writes_of_mem (by decide), writes_of_mem (by decide), writes_of_mem (by decide),
    writes_of_mem (by decide), writes_of_mem (by decide), writes_of_mem (by decide), writes_of_mem (by decide)⟩
theorem opsA_keep (W : Valuation τ sig (Elt F)) {r : Ref sig .tc} (h : r ∉ opsA_W) :
    after opsA W (Proc.devRef .tc r) = W (Proc.devRef .tc r) :=
  after_of_writes_sub opsA W opsA_writes h

/-- The threshold laid along the mask and the comparison. -/
abbrev ops1 : List (HloOp τ sig (Elt F)) :=
  [ unary main_v6 main_v7 (broadcastInDim S262144 ![] bcast_S_S262144 : (⟨S_, .f32⟩ : BufTy).Contents (Elt F) → (⟨S262144, .f32⟩ : BufTy).Contents (Elt F)),
    binary main_arg1 main_v7 main_v8 (cmpf .ogt : (⟨S262144, .f32⟩ : BufTy).Contents (Elt F) → (⟨S262144, .f32⟩ : BufTy).Contents (Elt F) → (⟨S262144, .i1⟩ : BufTy).Contents (Elt F)) ]
theorem ops1_sub : (ops1 : List (HloOp τ sig (Elt F))).Forall fun op => op.bufs ⊆ tcRefs τ sig :=
  ⟨unary_bufs_sub .., binary_bufs_sub ..⟩
theorem ops1_fresh : (ops1 : List (HloOp τ sig (Elt F))).Forall fun op => op.fresh = ∅ :=
  ⟨rfl, rfl⟩
/-- The buffers that stretch writes. -/
abbrev ops1_W : List (Ref sig .tc) := [main_v7, main_v8]
theorem ops1_writes : (ops1 : List (HloOp τ sig (Elt F))).Forall fun op => op.writes ⊆ (ops1_W.map (Proc.devRef (τ := τ) .tc)).toFinset :=
  ⟨writes_of_mem (by decide), writes_of_mem (by decide)⟩
theorem ops1_keep (W : Valuation τ sig (Elt F)) {r : Ref sig .tc} (h : r ∉ ops1_W) :
    after ops1 W (Proc.devRef .tc r) = W (Proc.devRef .tc r) :=
  after_of_writes_sub ops1 W ops1_writes h

/-- The first running count: the widening, then the called prefix sum's three lines. -/
abbrev ops2 : List (HloOp τ sig (Elt F)) :=
  [ TRef.unary (.of main_v8 : TRef sig ⟨S262144, .i1⟩) main_call1.v0 (extui 32 · natLt_1_32),
    TRef.nullary main_call1.call0.c (constantI S_ 32 0#32),
    TRef.unary main_call1.call0.c main_call1.call0.v0 (broadcastInDim S_ ![] bcast_S_S_),
    TRef.binary main_call1.v0 main_call1.call0.v0 main_call1.call0.v1 (fun x v => Host.reduceWindow IntOp.addi ![262144] ![1] ![262143] ![0] x v reduceWindows_S262144_S262144_w262144s1p262143_0 h_S_) ]
theorem ops2_sub : (ops2 : List (HloOp τ sig (Elt F))).Forall fun op => op.bufs ⊆ tcRefs τ sig :=
  ⟨unary_bufs_sub .., nullary_bufs_sub .., unary_bufs_sub .., binary_bufs_sub ..⟩
theorem ops2_fresh : (ops2 : List (HloOp τ sig (Elt F))).Forall fun op => op.fresh = ∅ :=
  ⟨rfl, rfl, rfl, rfl⟩
/-- The buffers that stretch writes. -/
abbrev ops2_W : List (Ref sig .tc) := [main_call1_v0, main_call1_call0_c, main_call1_call0_v0, main_v10]
theorem ops2_writes : (ops2 : List (HloOp τ sig (Elt F))).Forall fun op => op.writes ⊆ (ops2_W.map (Proc.devRef (τ := τ) .tc)).toFinset :=
  ⟨writes_of_mem (by decide), writes_of_mem (by decide), writes_of_mem (by decide), writes_of_mem (by decide)⟩
theorem ops2_keep (W : Valuation τ sig (Elt F)) {r : Ref sig .tc} (h : r ∉ ops2_W) :
    after ops2 W (Proc.devRef .tc r) = W (Proc.devRef .tc r) :=
  after_of_writes_sub ops2 W ops2_writes h

/-- The marks: two constants and a zero array, the clip's three lines, then the wrap of negative counts, the index column, the ones and the scatter. -/
abbrev ops3 : List (HloOp τ sig (Elt F)) :=
  [ nullary main_c (constantI S_ 32 0#32),
    unary main_c main_v11 (broadcastInDim S262144 ![] bcast_S_S262144 : (⟨S_, .i32⟩ : BufTy).Contents (Elt F) → (⟨S262144, .i32⟩ : BufTy).Contents (Elt F)),
    nullary main_c_2 (constantI S_ 32 0#32),
    TRef.unary (.of main_c_2 : TRef sig ⟨S_, .i32⟩) main_call2.v0 id,
    TRef.unary main_call2.v0 main_call2.v1 (broadcastInDim S262144 ![] bcast_S_S262144),
    TRef.binary main_call2.v1 (.of main_v10 : TRef sig ⟨S262144, .i32⟩) main_call2.v2 maxsi,
    nullary main_c_3 (constantI S_ 32 0#32),
    unary main_c_3 main_v13 (broadcastInDim S262144 ![] bcast_S_S262144 : (⟨S_, .i32⟩ : BufTy).Contents (Elt F) → (⟨S262144, .i32⟩ : BufTy).Contents (Elt F)),
    binary main_v12 main_v13 main_v14 (cmpi .slt : (⟨S262144, .i32⟩ : BufTy).Contents (Elt F) → (⟨S262144, .i32⟩ : BufTy).Contents (Elt F) → (⟨S262144, .i1⟩ : BufTy).Contents (Elt F)),
    nullary main_c_4 (constantI S_ 32 262144#32),
    unary main_c_4 main_v15 (broadcastInDim S262144 ![] bcast_S_S262144 : (⟨S_, .i32⟩ : BufTy).Contents (Elt F) → (⟨S262144, .i32⟩ : BufTy).Contents (Elt F)),
    binary main_v12 main_v15 main_v16 (addi : (⟨S262144, .i32⟩ : BufTy).Contents (Elt F) → (⟨S262144, .i32⟩ : BufTy).Contents (Elt F) → (⟨S262144, .i32⟩ : BufTy).Contents (Elt F)),
    ternary main_v14 main_v16 main_v12 main_v17 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v17 main_v18 (broadcastInDim S262144x1 ![0] bcast_S262144_S262144x1_0 : (⟨S262144, .i32⟩ : BufTy).Contents (Elt F) → (⟨S262144x1, .i32⟩ : BufTy).Contents (Elt F)),
    nullary main_c_5 (constantI S_ 32 1#32),
    unary main_c_5 main_v19 (broadcastInDim S262144 ![] bcast_S_S262144 : (⟨S_, .i32⟩ : BufTy).Contents (Elt F) → (⟨S262144, .i32⟩ : BufTy).Contents (Elt F)),
    ternary main_v11 main_v18 main_v19 main_v20 ((fun x i u => Host.scatter scatter_S262144_S262144x1_S262144_n_0_0_1 IntOp.addi x i u) : (⟨S262144, .i32⟩ : BufTy).Contents (Elt F) → (⟨S262144x1, .i32⟩ : BufTy).Contents (Elt F) → (⟨S262144, .i32⟩ : BufTy).Contents (Elt F) → (⟨S262144, .i32⟩ : BufTy).Contents (Elt F)) ]
theorem ops3_sub : (ops3 : List (HloOp τ sig (Elt F))).Forall fun op => op.bufs ⊆ tcRefs τ sig :=
  ⟨nullary_bufs_sub .., unary_bufs_sub .., nullary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., unary_bufs_sub .., ternary_bufs_sub ..⟩
theorem ops3_fresh : (ops3 : List (HloOp τ sig (Elt F))).Forall fun op => op.fresh = ∅ :=
  ⟨rfl, rfl, rfl, rfl, rfl, rfl,
    rfl, rfl, rfl, rfl, rfl, rfl,
    rfl, rfl, rfl, rfl, rfl⟩
/-- The buffers that stretch writes. -/
abbrev ops3_W : List (Ref sig .tc) := [main_c, main_v11, main_c_2, main_call2_v0, main_call2_v1, main_v12, main_c_3, main_v13, main_v14, main_c_4, main_v15, main_v16, main_v17, main_v18, main_c_5, main_v19, main_v20]
theorem ops3_writes : (ops3 : List (HloOp τ sig (Elt F))).Forall fun op => op.writes ⊆ (ops3_W.map (Proc.devRef (τ := τ) .tc)).toFinset :=
  ⟨writes_of_mem (by decide), writes_of_mem (by decide), writes_of_mem (by decide), writes_of_mem (by decide), writes_of_mem (by decide), writes_of_mem (by decide),
    writes_of_mem (by decide), writes_of_mem (by decide), writes_of_mem (by decide), writes_of_mem (by decide), writes_of_mem (by decide), writes_of_mem (by decide),
    writes_of_mem (by decide), writes_of_mem (by decide), writes_of_mem (by decide), writes_of_mem (by decide), writes_of_mem (by decide)⟩
theorem ops3_keep (W : Valuation τ sig (Elt F)) {r : Ref sig .tc} (h : r ∉ ops3_W) :
    after ops3 W (Proc.devRef .tc r) = W (Proc.devRef .tc r) :=
  after_of_writes_sub ops3 W ops3_writes h

/-- The second running count: the called prefix sum's three lines. -/
abbrev ops4 : List (HloOp τ sig (Elt F)) :=
  [ TRef.nullary main_call3.call0.c (constantI S_ 32 0#32),
    TRef.unary main_call3.call0.c main_call3.call0.v0 (broadcastInDim S_ ![] bcast_S_S_),
    TRef.binary (.of main_v20 : TRef sig ⟨S262144, .i32⟩) main_call3.call0.v0 main_call3.call0.v1 (fun x v => Host.reduceWindow IntOp.addi ![262144] ![1] ![262143] ![0] x v reduceWindows_S262144_S262144_w262144s1p262143_0 h_S_) ]
theorem ops4_sub : (ops4 : List (HloOp τ sig (Elt F))).Forall fun op => op.bufs ⊆ tcRefs τ sig :=
  ⟨nullary_bufs_sub .., unary_bufs_sub .., binary_bufs_sub ..⟩
theorem ops4_fresh : (ops4 : List (HloOp τ sig (Elt F))).Forall fun op => op.fresh = ∅ :=
  ⟨rfl, rfl, rfl⟩
/-- The buffers that stretch writes. -/
abbrev ops4_W : List (Ref sig .tc) := [main_call3_call0_c, main_call3_call0_v0, main_v21]
theorem ops4_writes : (ops4 : List (HloOp τ sig (Elt F))).Forall fun op => op.writes ⊆ (ops4_W.map (Proc.devRef (τ := τ) .tc)).toFinset :=
  ⟨writes_of_mem (by decide), writes_of_mem (by decide), writes_of_mem (by decide)⟩
theorem ops4_keep (W : Valuation τ sig (Elt F)) {r : Ref sig .tc} (h : r ∉ ops4_W) :
    after ops4 W (Proc.devRef .tc r) = W (Proc.devRef .tc r) :=
  after_of_writes_sub ops4 W ops4_writes h

/-- The constant one and the floored quotient's sixteen lines, its select last. -/
abbrev ops5 : List (HloOp τ sig (Elt F)) :=
  [ nullary main_c_6 (constantI S_ 32 1#32),
    TRef.unary (.of main_c_6 : TRef sig ⟨S_, .i32⟩) main_call4.v0 (broadcastInDim S262144 ![] bcast_S_S262144),
    TRef.binary (.of main_v21 : TRef sig ⟨S262144, .i32⟩) main_call4.v0 main_call4.v1 Host.divsi,
    TRef.unary (.of main_v21 : TRef sig ⟨S262144, .i32⟩) main_call4.v2 signi,
    TRef.unary (.of main_c_6 : TRef sig ⟨S_, .i32⟩) main_call4.v3 signi,
    TRef.unary main_call4.v3 main_call4.v4 (broadcastInDim S262144 ![] bcast_S_S262144),
    TRef.binary main_call4.v2 main_call4.v4 main_call4.v5 (cmpi .ne),
    TRef.unary (.of main_c_6 : TRef sig ⟨S_, .i32⟩) main_call4.v6 (broadcastInDim S262144 ![] bcast_S_S262144),
    TRef.binary (.of main_v21 : TRef sig ⟨S262144, .i32⟩) main_call4.v6 main_call4.v7 Host.remsi,
    TRef.nullary main_call4.c (constantI S_ 32 0#32),
    TRef.unary main_call4.c main_call4.v8 (broadcastInDim S262144 ![] bcast_S_S262144),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S262144 ![] bcast_S_S262144),
    TRef.binary main_call4.v1 main_call4.v11 main_call4.v12 subi,
    TRef.ternary main_call4.v10 main_call4.v12 main_call4.v1 main_call4.call0.v0 select ]
theorem ops5_sub : (ops5 : List (HloOp τ sig (Elt F))).Forall fun op => op.bufs ⊆ tcRefs τ sig :=
  ⟨nullary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub ..⟩
theorem ops5_fresh : (ops5 : List (HloOp τ sig (Elt F))).Forall fun op => op.fresh = ∅ :=
  ⟨rfl, rfl, rfl, rfl, rfl, rfl,
    rfl, rfl, rfl, rfl, rfl, rfl,
    rfl, rfl, rfl, rfl, rfl⟩
/-- The buffers that stretch writes. -/
abbrev ops5_W : List (Ref sig .tc) := [main_c_6, main_call4_v0, main_call4_v1, main_call4_v2, main_call4_v3, main_call4_v4, main_call4_v5, main_call4_v6, main_call4_v7, main_call4_c, main_call4_v8, main_call4_v9, main_call4_v10, main_call4_c_0, main_call4_v11, main_call4_v12, main_v22]
theorem ops5_writes : (ops5 : List (HloOp τ sig (Elt F))).Forall fun op => op.writes ⊆ (ops5_W.map (Proc.devRef (τ := τ) .tc)).toFinset :=
  ⟨writes_of_mem (by decide), writes_of_mem (by decide), writes_of_mem (by decide), writes_of_mem (by decide), writes_of_mem (by decide), writes_of_mem (by decide),
    writes_of_mem (by decide), writes_of_mem (by decide), writes_of_mem (by decide), writes_of_mem (by decide), writes_of_mem (by decide), writes_of_mem (by decide),
    writes_of_mem (by decide), writes_of_mem (by decide), writes_of_mem (by decide), writes_of_mem (by decide), writes_of_mem (by decide)⟩
theorem ops5_keep (W : Valuation τ sig (Elt F)) {r : Ref sig .tc} (h : r ∉ ops5_W) :
    after ops5 W (Proc.devRef .tc r) = W (Proc.devRef .tc r) :=
  after_of_writes_sub ops5 W ops5_writes h

/-- The constant length and the floored remainder's twenty-one lines, the scalar select fifth. -/
abbrev ops6 : List (HloOp τ sig (Elt F)) :=
  [ nullary main_c_7 (constantI S_ 32 262144#32),
    TRef.unary (.of main_c_7 : TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S262144 ![] bcast_S_S262144),
    TRef.binary (.of main_v22 : TRef sig ⟨S262144, .i32⟩) main_call5.v3 main_call5.v4 Host.remsi,
    TRef.nullary main_call5.c_1 (constantI S_ 32 0#32),
    TRef.unary main_call5.c_1 main_call5.v5 (broadcastInDim S262144 ![] bcast_S_S262144),
    TRef.binary main_call5.v4 main_call5.v5 main_call5.v6 (cmpi .ne),
    TRef.nullary main_call5.c_2 (constantI S_ 32 0#32),
    TRef.unary main_call5.c_2 main_call5.v7 (broadcastInDim S262144 ![] bcast_S_S262144),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S262144 ![] bcast_S_S262144),
    TRef.binary main_call5.v8 main_call5.v10 main_call5.v11 (cmpi .ne),
    TRef.binary main_call5.v11 main_call5.v6 main_call5.v12 andi,
    TRef.unary main_call5.call0.v0 main_call5.v13 (broadcastInDim S262144 ![] bcast_S_S262144),
    TRef.binary main_call5.v4 main_call5.v13 main_call5.v14 addi,
    TRef.ternary main_call5.v12 main_call5.v14 main_call5.v4 main_call5.v15 select ]
theorem ops6_sub : (ops6 : List (HloOp τ sig (Elt F))).Forall fun op => op.bufs ⊆ tcRefs τ sig :=
  ⟨nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub ..⟩
theorem ops6_fresh : (ops6 : List (HloOp τ sig (Elt F))).Forall fun op => op.fresh = ∅ :=
  ⟨rfl, rfl, rfl, rfl, rfl, rfl,
    rfl, rfl, rfl, rfl, rfl, rfl,
    rfl, rfl, rfl, rfl, rfl, rfl,
    rfl, rfl, rfl, rfl⟩
/-- The buffers that stretch writes. -/
abbrev ops6_W : List (Ref sig .tc) := [main_c_7, main_call5_v0, main_call5_c, main_call5_v1, main_call5_c_0, main_call5_v2, main_call5_v3, main_call5_v4, main_call5_c_1, main_call5_v5, main_call5_v6, main_call5_c_2, main_call5_v7, main_call5_v8, main_call5_c_3, main_call5_v9, main_call5_v10, main_call5_v11, main_call5_v12, main_call5_v13, main_call5_v14, main_v23]
theorem ops6_writes : (ops6 : List (HloOp τ sig (Elt F))).Forall fun op => op.writes ⊆ (ops6_W.map (Proc.devRef (τ := τ) .tc)).toFinset :=
  ⟨writes_of_mem (by decide), writes_of_mem (by decide), writes_of_mem (by decide), writes_of_mem (by decide), writes_of_mem (by decide), writes_of_mem (by decide),
    writes_of_mem (by decide), writes_of_mem (by decide), writes_of_mem (by decide), writes_of_mem (by decide), writes_of_mem (by decide), writes_of_mem (by decide),
    writes_of_mem (by decide), writes_of_mem (by decide), writes_of_mem (by decide), writes_of_mem (by decide), writes_of_mem (by decide), writes_of_mem (by decide),
    writes_of_mem (by decide), writes_of_mem (by decide), writes_of_mem (by decide), writes_of_mem (by decide)⟩
theorem ops6_keep (W : Valuation τ sig (Elt F)) {r : Ref sig .tc} (h : r ∉ ops6_W) :
    after ops6 W (Proc.devRef .tc r) = W (Proc.devRef .tc r) :=
  after_of_writes_sub ops6 W ops6_writes h

/-- The fill: the positions, the number of hits, the comparison, the constant -1, the select's three lines, the row and its turn into a column. -/
abbrev ops7 : List (HloOp τ sig (Elt F)) :=
  [ nullary main_v24 (iotaInDim S262144 32 0),
    unary main_v8 main_v25 ((extui 32 · natLt_1_32) : (⟨S262144, .i1⟩ : BufTy).Contents (Elt F) → (⟨S262144, .i32⟩ : BufTy).Contents (Elt F)),
    nullary main_c_8 (constantI S_ 32 0#32),
    binary main_v25 main_c_8 main_v26 ((fun x v => Host.reduce IntOp.addi x v reducesTo_S262144_S_d0 h_S_) : (⟨S262144, .i32⟩ : BufTy).Contents (Elt F) → (⟨S_, .i32⟩ : BufTy).Contents (Elt F) → (⟨S_, .i32⟩ : BufTy).Contents (Elt F)),
    unary main_v26 main_v27 (broadcastInDim S262144 ![] bcast_S_S262144 : (⟨S_, .i32⟩ : BufTy).Contents (Elt F) → (⟨S262144, .i32⟩ : BufTy).Contents (Elt F)),
    binary main_v24 main_v27 main_v28 (cmpi .sge : (⟨S262144, .i32⟩ : BufTy).Contents (Elt F) → (⟨S262144, .i32⟩ : BufTy).Contents (Elt F) → (⟨S262144, .i1⟩ : BufTy).Contents (Elt F)),
    nullary main_c_9 (constantI S_ 32 4294967295#32),
    TRef.unary (.of main_c_9 : TRef sig ⟨S_, .i32⟩) main_call6.v0 id,
    TRef.unary main_call6.v0 main_call6.v1 (broadcastInDim S262144 ![] bcast_S_S262144),
    TRef.ternary (.of main_v28 : TRef sig ⟨S262144, .i1⟩) main_call6.v1 (.of main_v23 : TRef sig ⟨S262144, .i32⟩) main_call6.v2 select,
    TRef.unary (.of main_v29 : TRef sig ⟨S262144, .i32⟩) main_call7.v0 (broadcastInDim S1x262144 ![1] bcast_S262144_S1x262144_1),
    unary main_v30 main_v31 ((transpose S262144x1 [1, 0] · transposes_S1x262144_S262144x1_1_0) : (⟨S1x262144, .i32⟩ : BufTy).Contents (Elt F) → (⟨S262144x1, .i32⟩ : BufTy).Contents (Elt F)) ]
theorem ops7_sub : (ops7 : List (HloOp τ sig (Elt F))).Forall fun op => op.bufs ⊆ tcRefs τ sig :=
  ⟨nullary_bufs_sub .., unary_bufs_sub .., nullary_bufs_sub .., binary_bufs_sub .., unary_bufs_sub .., binary_bufs_sub ..,
    nullary_bufs_sub .., unary_bufs_sub .., unary_bufs_sub .., ternary_bufs_sub .., unary_bufs_sub .., unary_bufs_sub ..⟩
theorem ops7_fresh : (ops7 : List (HloOp τ sig (Elt F))).Forall fun op => op.fresh = ∅ :=
  ⟨rfl, rfl, rfl, rfl, rfl, rfl,
    rfl, rfl, rfl, rfl, rfl, rfl⟩
/-- The buffers that stretch writes. -/
abbrev ops7_W : List (Ref sig .tc) := [main_v24, main_v25, main_c_8, main_v26, main_v27, main_v28, main_c_9, main_call6_v0, main_call6_v1, main_v29, main_v30, main_v31]
theorem ops7_writes : (ops7 : List (HloOp τ sig (Elt F))).Forall fun op => op.writes ⊆ (ops7_W.map (Proc.devRef (τ := τ) .tc)).toFinset :=
  ⟨writes_of_mem (by decide), writes_of_mem (by decide), writes_of_mem (by decide), writes_of_mem (by decide), writes_of_mem (by decide), writes_of_mem (by decide),
    writes_of_mem (by decide), writes_of_mem (by decide), writes_of_mem (by decide), writes_of_mem (by decide), writes_of_mem (by decide), writes_of_mem (by decide)⟩
theorem ops7_keep (W : Valuation τ sig (Elt F)) {r : Ref sig .tc} (h : r ∉ ops7_W) :
    after ops7 W (Proc.devRef .tc r) = W (Proc.devRef .tc r) :=
  after_of_writes_sub ops7 W ops7_writes h

/-! ## What each stretch leaves at its result, from any contents -/

theorem readA_v3 (W : Valuation τ sig (Elt F)) :
    after opsA W (Proc.devRef .tc main_v3) = refOut (W (Proc.devRef .tc main_arg0)) (W (Proc.devRef .tc main_arg2)) (W (Proc.devRef .tc main_arg3)) := by
  after_results_simp
  rfl
theorem readA_v6 (W : Valuation τ sig (Elt F)) :
    after opsA W (Proc.devRef .tc main_v6)
      = refThr (refTotal (refOut (W (Proc.devRef .tc main_arg0)) (W (Proc.devRef .tc main_arg2)) (W (Proc.devRef .tc main_arg3)))) := by
  after_results_simp
  rfl
theorem read1 (W : Valuation τ sig (Elt F)) :
    after ops1 W (Proc.devRef .tc main_v8) = rPred (W (Proc.devRef .tc main_arg1)) (W (Proc.devRef .tc main_v6)) := by
  after_results_simp
  rfl
attribute [local irreducible] Host.reduceWindow in
theorem read2 (W : Valuation τ sig (Elt F)) :
    after ops2 W (Proc.devRef .tc main_v10) = rCumsum (W (Proc.devRef .tc main_v8)) := by
  after_results_simp
  rfl
theorem read3 (W : Valuation τ sig (Elt F)) :
    after ops3 W (Proc.devRef .tc main_v20) = rScatter (W (Proc.devRef .tc main_v10)) := by
  after_results_simp
  rfl
attribute [local irreducible] Host.reduceWindow in
theorem read4 (W : Valuation τ sig (Elt F)) :
    after ops4 W (Proc.devRef .tc main_v21) = rCumsum1 (W (Proc.devRef .tc main_v20)) := by
  after_results_simp
  rfl
theorem read5 (W : Valuation τ sig (Elt F)) :
    after ops5 W (Proc.devRef .tc main_v22) = rFdiv (W (Proc.devRef .tc main_v21)) := by
  after_results_simp
  rfl
theorem read6 (W : Valuation τ sig (Elt F)) :
    after ops6 W (Proc.devRef .tc main_v23) = rRem (W (Proc.devRef .tc main_v22)) := by
  after_results_simp
  rfl
theorem read7 (W : Valuation τ sig (Elt F)) :
    after ops7 W (Proc.devRef .tc main_v31) = rFill (W (Proc.devRef .tc main_v8)) (W (Proc.devRef .tc main_v23)) := by
  after_results_simp
  rfl

/-! ## The whole program -/

/-- The program's 87 operations, in order: the eight stretches in a row. -/
abbrev ops : List (HloOp τ sig (Elt F)) := opsA ++ (ops1 ++ (ops2 ++ (ops3 ++ (ops4 ++ (ops5 ++ (ops6 ++ (ops7)))))))

/-- The contents after the program are the contents after the stretches, one after the other. -/
theorem after_ops (V : Valuation τ sig (Elt F)) :
    after ops V = after ops7 (after ops6 (after ops5 (after ops4 (after ops3 (after ops2 (after ops1 (after opsA V))))))) := by
  simp only [ops, StableHlo.after_append]

-- the chain is eighty-seven steps deep
set_option maxRecDepth 4096 in
set_option maxHeartbeats 2000000 in
/-- The program is that straight line: the called functions unfolded at their calls, the stretches laid end
    to end and sequencing re-associated, both sides are one chain of steps. -/
theorem main_eq (c : Dev nD) : main (F := F) c = seq ops := by
  simp only [main, fn_atleast_1d.body, fn_cumsum.body, fn_cumsum_0.body, fn_clip.body, fn_cumsum_1.body,
    fn_floor_divide.body, fn_where.body, fn_remainder.body, fn_where_2.body, fn_where_3.body, fn_atleast_2d.body,
    ops, opsA, ops1, ops2, ops3, ops4, ops5, ops6, ops7, List.cons_append, List.nil_append,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append' opsA_sub (forall_append' ops1_sub (forall_append' ops2_sub (forall_append' ops3_sub (forall_append' ops4_sub (forall_append' ops5_sub (forall_append' ops6_sub (ops7_sub)))))))
theorem ops_fresh : (ops : List (HloOp τ sig (Elt F))).Forall fun op => op.fresh = ∅ :=
  forall_append' opsA_fresh (forall_append' ops1_fresh (forall_append' ops2_fresh (forall_append' ops3_fresh (forall_append' ops4_fresh (forall_append' ops5_fresh (forall_append' ops6_fresh (ops7_fresh)))))))

/-- The linear layer's buffer at the end: written in the first stretch, untouched after. -/
theorem v3_eq (V : Valuation τ sig (Elt F)) :
    after ops V (Proc.devRef .tc main_v3) = refOut (V (Proc.devRef .tc main_arg0)) (V (Proc.devRef .tc main_arg2)) (V (Proc.devRef .tc main_arg3)) := by
  rw [after_ops, ops7_keep _ (r := main_v3) (by decide), ops6_keep _ (r := main_v3) (by decide), ops5_keep _ (r := main_v3) (by decide), ops4_keep _ (r := main_v3) (by decide), ops3_keep _ (r := main_v3) (by decide), ops2_keep _ (r := main_v3) (by decide), ops1_keep _ (r := main_v3) (by decide), readA_v3]

/-- The index column at the end: each stage's result is read by the next, the comparison's bits also by the
    last, and the threshold comes from the first stretch. -/
theorem v31_eq (V : Valuation τ sig (Elt F)) :
    after ops V (Proc.devRef .tc main_v31)
      = refIdx (V (Proc.devRef .tc main_arg1)) (refThr (refTotal (refOut (V (Proc.devRef .tc main_arg0)) (V (Proc.devRef .tc main_arg2)) (V (Proc.devRef .tc main_arg3))))) := by
  rw [after_ops, read7, read6, read5, read4, read3, read2,
    ops6_keep _ (r := main_v8) (by decide), ops5_keep _ (r := main_v8) (by decide), ops4_keep _ (r := main_v8) (by decide), ops3_keep _ (r := main_v8) (by decide), ops2_keep _ (r := main_v8) (by decide),
    read1, opsA_keep _ (r := main_arg1) (by decide), readA_v6]
  rfl

/-- No stretch writes an argument. -/
theorem arg_eq (V : Valuation τ sig (Elt F)) {r : Ref sig .tc}
    (h : r ∉ opsA_W ++ (ops1_W ++ (ops2_W ++ (ops3_W ++ (ops4_W ++ (ops5_W ++ (ops6_W ++ ops7_W))))))) :
    after ops V (Proc.devRef .tc r) = V (Proc.devRef .tc r) := by
  simp only [List.mem_append, not_or] at h
  rw [after_ops, ops7_keep _ h.2.2.2.2.2.2.2, ops6_keep _ h.2.2.2.2.2.2.1, ops5_keep _ h.2.2.2.2.2.1, ops4_keep _ h.2.2.2.2.1,
    ops3_keep _ h.2.2.2.1, ops2_keep _ h.2.2.1, ops1_keep _ h.2.1, opsA_keep _ h.1]

/-- On every device, for any float values, from any memory with zero counters: every weakly fair execution of
    the program terminates with the linear layer's buffer at x · Wᵀ + b, the index column at the chain over
    the mask and the mean of the row sums, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
        r.2.mem ((c.tc : Thread nD τ).loc main_v3) = refOut (m ((c.tc : Thread nD τ).loc main_arg0)) (m ((c.tc : Thread nD τ).loc main_arg2)) (m ((c.tc : Thread nD τ).loc main_arg3))
      ∧ r.2.mem ((c.tc : Thread nD τ).loc main_v31) = refIdx (m ((c.tc : Thread nD τ).loc main_arg1)) (refThr (refTotal (refOut (m ((c.tc : Thread nD τ).loc main_arg0)) (m ((c.tc : Thread nD τ).loc main_arg2)) (m ((c.tc : Thread nD τ).loc main_arg3)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v3).trans (v3_eq _), (h c main_v31).trans (v31_eq _),
      (h c main_arg0).trans (arg_eq _ (by decide)), (h c main_arg1).trans (arg_eq _ (by decide)),
      (h c main_arg2).trans (arg_eq _ (by decide)), (h c main_arg3).trans (arg_eq _ (by decide))⟩)
    (run_seq scopedRefs_eq scopedSems_eq defs main (fun _ => ops) main_eq (fun _ => ops_sub) m ρ
      (fun _ => List.forall_iff_forall_mem.1 ops_fresh))

end Cert.ReferenceIdeal.Hand

end
-- ==== Proof.Bridge.lean ====
/-
  The two programs compute one function.

  Result 0 (the linear layer): the kernel's result array is, entry (n, o), the sum over k of x[n,k]·W[o,k] plus the bias
  row's entry o, which is the bias's entry o (the row is the bias reshaped); the reference's is the same sum plus the
  bias's entry o. Result 1 (the indices): both programs run the SAME chain of integer operations on the mask and a
  threshold, and the thresholds agree: the kernel's is its accumulator over 262144, the accumulator being the 64 block
  sums, which re-index to the sum over all rows of the row sums, which is what the reference divides by 262144. Only the
  commutativity and associativity of the sum of extended reals are used: no finiteness.
-/
import proofs.«152341_j18279380812077_1_alg».proof.Proof.KTotal
import proofs.«152341_j18279380812077_1_alg».proof.Proof.KTail
import proofs.«152341_j18279380812077_1_alg».proof.Proof.RefRead
import proofs.«152341_j18279380812077_1_alg».proof.Proof.RefRun
import proofs.«152341_j18279380812077_1_alg».proof.Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx Cert.ReferenceIdeal.Hand

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (mI : (ℓ : Loc nD τ sig) → Buf (Elt Ideal) ℓ) (ρI : Dev nD → PrngReg)

/-- The kernel's result array is the reference's linear layer of the launch arrays. -/
theorem out_eq (c : Dev nD) :
    linArr (V mI c main_arg0) (V mI c main_arg2) (V mI c main_v0)
      = refOut (F := Ideal) (mI ((c : Thread nD τ).loc main_arg0)) (mI ((c : Thread nD τ).loc main_arg2)) (mI ((c : Thread nD τ).loc main_arg3)) := by
  funext i
  obtain ⟨n, o, rfl⟩ : ∃ (n : Fin 262144) (o : Fin 128), i = ix2 n o := ⟨i 0, i 1, eq_ix2 i⟩
  rw [linArr_apply, refOut_apply, V_main_arg0, V_main_arg2, V_main_v0_apply]

/-- The accumulator's array holds the reference's total. -/
theorem total_ref (c : Dev nD) (j : S1x1.Idx) (j' : Cert.ReferenceIdeal.S_.Idx) :
    ((dats mI 0 c).arrAt 4 cfg0.N : Vec Ideal S1x1 .f32) j
      = refTotal (F := Ideal) (refOut (F := Ideal) (mI ((c : Thread nD τ).loc main_arg0)) (mI ((c : Thread nD τ).loc main_arg2)) (mI ((c : Thread nD τ).loc main_arg3))) j' := by
  rw [final4_apply, total_eq, refTotal_apply, ← out_eq mI c]
  rfl

/-- The thresholds agree: the accumulator reshaped to a scalar is the reference's total, and both are divided by the
    same constant. -/
theorem thr_eq (c : Dev nD) :
    kThr ((dats mI 0 c).arrAt 4 cfg0.N) = refThr (F := Ideal) (refTotal (F := Ideal) (refOut (F := Ideal) (mI ((c : Thread nD τ).loc main_arg0)) (mI ((c : Thread nD τ).loc main_arg2)) (mI ((c : Thread nD τ).loc main_arg3)))) := by
  have hs : (shapeCast S_ ((dats mI 0 c).arrAt 4 cfg0.N : FVec Ideal S1x1 .f32) shapeCasts_S1x1_S_ : FVec Ideal S_ .f32)
      = refTotal (F := Ideal) (refOut (F := Ideal) (mI ((c : Thread nD τ).loc main_arg0)) (mI ((c : Thread nD τ).loc main_arg2)) (mI ((c : Thread nD τ).loc main_arg3))) :=
    by
      funext j
      have h1 := reshape_acc_apply (F := Ideal) ((dats mI 0 c).arrAt 4 cfg0.N) j
      have h2 := total_ref mI c (ix2 0 0) j
      exact h1.trans h2
  rw [kThr_def', hs]
  rfl

/-! ## The compaction chain is the same function in both programs -/

theorem pred_eq (mask : FVec Ideal S262144 .f32) (thr : FVec Ideal S_ .f32) : rPred (F := Ideal) mask thr = kPred (F := Ideal) mask thr := rfl
theorem cumsum_eq (p : IVec S262144 1) : rCumsum p = kCumsum p := rfl
theorem scatter_eq (q : IVec S262144 32) : rScatter q = kScatter q := rfl
theorem cumsum1_eq (s : IVec S262144 32) : rCumsum1 s = kCumsum1 s := rfl
theorem fdiv_eq (u : IVec S262144 32) : rFdiv u = kFdiv u := rfl
theorem rem_eq (d : IVec S262144 32) : rRem d = kRem d := rfl
theorem fill_eq (p : IVec S262144 1) (r : IVec S262144 32) : rFill p r = kFill p r := rfl

/-- Stage by stage the two chains are the same operations on the same literals. -/
theorem idx_fn_eq (mask : FVec Ideal S262144 .f32) (thr : FVec Ideal S_ .f32) :
    refIdx (F := Ideal) mask thr = kIdxFrom (F := Ideal) mask thr := by
  unfold refIdx kIdxFrom
  dsimp only
  rw [pred_eq, cumsum_eq, scatter_eq, cumsum1_eq, fdiv_eq, rem_eq, fill_eq]

/-- The kernel's indices are the reference's chain on the launch mask and the reference's threshold. -/
theorem idx_eq (c : Dev nD) :
    kIdxFrom (F := Ideal) (V mI c main_arg1) (kThr ((dats mI 0 c).arrAt 4 cfg0.N))
      = refIdx (F := Ideal) (mI ((c : Thread nD τ).loc main_arg1)) (refThr (F := Ideal) (refTotal (F := Ideal) (refOut (F := Ideal) (mI ((c : Thread nD τ).loc main_arg0)) (mI ((c : Thread nD τ).loc main_arg2)) (mI ((c : Thread nD τ).loc main_arg3))))) := by
  rw [V_main_arg1, thr_eq]
  exact (idx_fn_eq _ _).symm

/-- The idealized kernel's run, read: the result array at the reference's linear layer of the launch arrays, the indices
    at the reference's chain, the arguments unchanged. -/
theorem run_values : θ_run defs (onTc (τ := τ) (main (F := Ideal))) ⟨mI, fun _ => 0, ρI⟩ (fun r => ∀ c : Dev nD,
      r.2.mem ((c.tc : Thread nD τ).loc main_v1_0) = (refOut (F := Ideal) (mI ((c : Thread nD τ).loc main_arg0)) (mI ((c : Thread nD τ).loc main_arg2)) (mI ((c : Thread nD τ).loc main_arg3)))
      ∧ r.2.mem ((c.tc : Thread nD τ).loc main_v28) = refIdx (F := Ideal) (mI ((c : Thread nD τ).loc main_arg1)) (refThr (F := Ideal) (refTotal (F := Ideal) (refOut (F := Ideal) (mI ((c : Thread nD τ).loc main_arg0)) (mI ((c : Thread nD τ).loc main_arg2)) (mI ((c : Thread nD τ).loc main_arg3)))))
      ∧ r.2.mem ((c.tc : Thread nD τ).loc main_arg0) = mI ((c.tc : Thread nD τ).loc main_arg0)
      ∧ r.2.mem ((c.tc : Thread nD τ).loc main_arg1) = mI ((c.tc : Thread nD τ).loc main_arg1)
      ∧ r.2.mem ((c.tc : Thread nD τ).loc main_arg2) = mI ((c.tc : Thread nD τ).loc main_arg2)
      ∧ r.2.mem ((c.tc : Thread nD τ).loc main_arg3) = mI ((c.tc : Thread nD τ).loc main_arg3)) :=
  (θ_run defs _ _).mono (fun _ h c => ⟨
    ((h c).1 3).trans ((final3 mI c).trans (out_eq mI c)),
    ((h c).2 main_v28 (Pipeline.mem_restRefs_of main_v28 (by decide) (by decide))).trans
      ((tail_idx mI (dats mI) c).trans (idx_eq mI c)),
    ((h c).1 0).trans (((dats mI 0 c).arrAt_in 0 rfl _).trans ((A_eq mI c 0).trans (V_main_arg0 mI c))),
    ((h c).2 main_arg1 (Pipeline.mem_restRefs_of main_arg1 (by decide) (by decide))).trans
      ((W_of_ne mI (dats mI) c main_arg1 (by decide) (by decide)).trans (V_main_arg1 mI c)),
    ((h c).1 1).trans (((dats mI 0 c).arrAt_in 1 rfl _).trans ((A_eq mI c 1).trans (V_main_arg2 mI c))),
    ((h c).2 main_arg3 (Pipeline.mem_restRefs_of main_arg3 (by decide) (by decide))).trans
      ((W_of_ne mI (dats mI) c main_arg3 (by decide) (by decide)).trans (V_main_arg3 mI c))⟩) (run_main mI ρI)

end Cert.KernelIdeal.Hand

end
-- ==== Proof.lean ====
/-
  The certificate of a linear layer with a mean threshold and an index compaction.

  Both programs compute out = x·Wᵀ + b over 262144 rows, the threshold "sum of all entries of out, over 262144", and the
  positions where the mask exceeds that threshold (padded with -1). The kernel makes out block by block (64 blocks of
  4096 rows) and keeps the running total in a 1×1 accumulator that it resets at the first block; the reference sums each
  row, then the column of row sums. At the extended reals a matrix product is a plain sum of products, so out is the same
  array entry by entry; the two totals are one finite sum grouped two ways, equal because the sum of extended reals is
  commutative and associative (no finiteness is needed, and the precondition is never opened); the compaction is the same
  chain of integer operations on both sides. The ideal pass rewrote nothing, so `preserves` is trivial. The frames: the
  kernel programs' by the pipeline's launch theorem around the one region, over the body run once per case (first point /
  later point); the reference's is its run with the results dropped.
-/
import proofs.«152341_j18279380812077_1_alg».proof.Defs
import proofs.«152341_j18279380812077_1_alg».proof.Proof.Gen.Kernel
import proofs.«152341_j18279380812077_1_alg».proof.Proof.Gen.KernelIdeal
import proofs.«152341_j18279380812077_1_alg».proof.Proof.Gen.ReferenceIdeal
import proofs.«152341_j18279380812077_1_alg».proof.Proof.Gen.Pre_finite_inputs
import proofs.«152341_j18279380812077_1_alg».proof.Proof.FrameB.Frame
import proofs.«152341_j18279380812077_1_alg».proof.Proof.Bridge

noncomputable section

namespace Cert.Proof

open Idealize.ShloMosaic Idealize.SL.Sem

/-- The word-level kernel program runs and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference runs and leaves its arguments unchanged: its run, the two results dropped. -/
theorem frame_ri : Cert.frame_ReferenceIdeal := fun m ρ _ =>
  (θ_run Cert.ReferenceIdeal.defs _ _).mono (fun _ h c => (h c).2.2) (Cert.ReferenceIdeal.Hand.run m ρ)

/-- From memories agreeing on the arguments both programs end at the reference's two terms of the kernel's arguments. -/
theorem algebraic : Cert.algebraic_KernelIdeal_ReferenceIdeal := by
  intro m ρ m' ρ' _ hagree
  refine ⟨fun c => Cert.ReferenceIdeal.Hand.refOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.ReferenceIdeal.Hand.refIdx (F := Ideal) (m ((c.tc : Thread Cert.KernelIdeal.nD Cert.KernelIdeal.τ).loc Cert.KernelIdeal.main_arg1))
      (Cert.ReferenceIdeal.Hand.refThr (F := Ideal) (Cert.ReferenceIdeal.Hand.refTotal (F := Ideal)
        (Cert.ReferenceIdeal.Hand.refOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))))),
    Cert.KernelIdeal.Hand.run_values m ρ, ?_⟩
  refine (θ_run Cert.ReferenceIdeal.defs _ _).mono (fun _ h c => ?_) (Cert.ReferenceIdeal.Hand.run m' ρ')
  obtain ⟨h1, h2, h3⟩ := h c
  rw [(hagree c).1, (hagree c).2.2.1, (hagree c).2.2.2] at h1
  rw [(hagree c).1, (hagree c).2.1, (hagree c).2.2.1, (hagree c).2.2.2] at h2
  exact ⟨h1, h2, h3⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
